-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S128x256 .f32) (main_arg3 : FVec F S256 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S10240x256 : Shape := ⟨2, ![10240, 256]⟩
abbrev S2048x128 : Shape := ⟨2, ![2048, 128]⟩
abbrev S2048x256 : Shape := ⟨2, ![2048, 256]⟩
abbrev S1x256 : Shape := ⟨2, ![1, 256]⟩
abbrev S2048x2048 : Shape := ⟨2, ![2048, 2048]⟩
abbrev S1x128 : Shape := ⟨2, ![1, 128]⟩

abbrev nBuf : Space → Nat
  | .hbm => 77
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x1, .i32⟩
  | .hbm, ⟨64, _⟩ => ⟨S650000x2, .i32⟩
  | .hbm, ⟨65, _⟩ => ⟨S10240x10240, .f32⟩
  | .hbm, ⟨66, _⟩ => ⟨S10240x10240, .bf16⟩
  | .hbm, ⟨67, _⟩ => ⟨S_, .i32⟩
  | .hbm, ⟨68, _⟩ => ⟨S_, .f32⟩
  | .hbm, ⟨69, _⟩ => ⟨S10240x128, .f32⟩
  | .hbm, ⟨70, _⟩ => ⟨S10240x256, .bf16⟩
  | .hbm, ⟨71, _⟩ => ⟨S1x256, .f32⟩
  | .hbm, ⟨72, _⟩ => ⟨S10240x256, .f32⟩
  | .hbm, ⟨73, _⟩ => ⟨S10240x128, .bf16⟩
  | .hbm, ⟨74, _⟩ => ⟨S1x128, .f32⟩
  | .hbm, ⟨75, _⟩ => ⟨S10240x128, .f32⟩
  | .hbm, ⟨76, _⟩ => ⟨S10000x128, .f32⟩
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S2048x256, .bf16⟩
  | .local _ .vmem, ⟨4, _⟩ => ⟨S2048x256, .bf16⟩
  | .local _ .vmem, ⟨5, _⟩ => ⟨S2048x2048, .bf16⟩
  | .local _ .vmem, ⟨6, _⟩ => ⟨S2048x2048, .bf16⟩
  | .local _ .vmem, ⟨7, _⟩ => ⟨S2048x256, .bf16⟩
  | .local _ .vmem, ⟨8, _⟩ => ⟨S2048x256, .bf16⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S256x128, .f32⟩
  | .local _ .vmem, ⟨16, _⟩ => ⟨S2048x128, .bf16⟩
  | .local _ .vmem, ⟨17, _⟩ => ⟨S2048x128, .bf16⟩
  | .local _ .vmem, ⟨18, _⟩ => ⟨S2048x2048, .bf16⟩
  | .local _ .vmem, ⟨19, _⟩ => ⟨S2048x2048, .bf16⟩
  | .local _ .vmem, ⟨20, _⟩ => ⟨S2048x128, .bf16⟩
  | .local _ .vmem, ⟨21, _⟩ => ⟨S2048x128, .bf16⟩
  | .local _ .vmem, ⟨22, _⟩ => ⟨S1x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![5, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![5, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S256_S1x256 : S256.ShapeCasts S1x256
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  packedbf16_S2048x128_S2048x128_0_0 : (Rect.unit (s := S2048x128) ![0, 0] S2048x128.size inb_S2048x128_S2048x128_0_0).PackedRows (EltTy.packing .bf16)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S10240x128_S10000x128_0_0 : S10240x128.Slices ![0, 0] S10000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S2048x128_S128x256_S2048x256_1_0_0_1_n_n_wf : DotDims.WF S2048x128 S128x256 S2048x256 [1] [0] [0] [1] [] []
  dot_S2048x2048_S2048x256_S2048x256_1_0_0_1_n_n_wf : DotDims.WF S2048x2048 S2048x256 S2048x256 [1] [0] [0] [1] [] []
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S10240x128.size a
  hwx0_0 : ∀ i : grid0.Coords, EltTy.bits .f32 = 32 ∨ (Rect.block (s := S10240x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S10240x256.size a
  hwx0_2 : ∀ i : grid0.Coords, EltTy.bits .bf16 = 32 ∨ (Rect.block (s := S10240x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S10240x256.size a
  hwx1_3 : ∀ i : grid1.Coords, EltTy.bits .f32 = 32 ∨ (Rect.block (s := S10240x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S10240x256.size a
  hwx2_0 : ∀ i : grid2.Coords, EltTy.bits .f32 = 32 ∨ (Rect.block (s := S10240x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S10240x128.size a
  hwx2_2 : ∀ i : grid2.Coords, EltTy.bits .bf16 = 32 ∨ (Rect.block (s := S10240x128) S2048x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S10240x10240.size a
  hwx3_0 : ∀ i : grid3.Coords, EltTy.bits .bf16 = 32 ∨ (Rect.block (s := S10240x10240) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S10240x128.size a
  hwx3_1 : ∀ i : grid3.Coords, EltTy.bits .bf16 = 32 ∨ (Rect.block (s := S10240x128) S2048x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S10240x128.size a
  hwx3_3 : ∀ i : grid3.Coords, EltTy.bits .f32 = 32 ∨ (Rect.block (s := S10240x128) S2048x128.size (cc3_transform_3 i) (hinb3_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v46) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v49) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10000x256 : Shape := ⟨2, ![10000, 256]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S10000x256, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x256, .f32⟩
  | .hbm, ⟨56, _⟩ => ⟨S650000x1, .f32⟩
  | .hbm, ⟨57, _⟩ => ⟨S650000x256, .f32⟩
  | .hbm, ⟨58, _⟩ => ⟨S650000x256, .f32⟩
  | .hbm, ⟨59, _⟩ => ⟨S_, .f32⟩
  | .hbm, ⟨60, _⟩ => ⟨S10000x256, .f32⟩
  | .hbm, ⟨61, _⟩ => ⟨S650000x1, .i32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S_, .f32⟩
  | .hbm, ⟨67, _⟩ => ⟨S10000x256, .f32⟩
  | .hbm, ⟨68, _⟩ => ⟨S10000x256, .f32⟩
  | .hbm, ⟨69, _⟩ => ⟨S10000x128, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x128, .f32⟩
  | .hbm, ⟨79, _⟩ => ⟨S650000x1, .f32⟩
  | .hbm, ⟨80, _⟩ => ⟨S650000x128, .f32⟩
  | .hbm, ⟨81, _⟩ => ⟨S650000x128, .f32⟩
  | .hbm, ⟨82, _⟩ => ⟨S_, .f32⟩
  | .hbm, ⟨83, _⟩ => ⟨S10000x128, .f32⟩
  | .hbm, ⟨84, _⟩ => ⟨S650000x1, .i32⟩
  | .hbm, ⟨85, _⟩ => ⟨S10000x128, .f32⟩
  | .hbm, ⟨86, _⟩ => ⟨S1x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000x128, .f32⟩
  | .hbm, ⟨91, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x256_0_1 : S650000x1.BroadcastsInDim S650000x256 (![0, 1] : Fin 2 → Fin S650000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x256_S10000x256_1_0_0_1_n_n_wf : DotDims.WF S10000x128 S128x256 S10000x256 [1] [0] [0] [1] [] []
  gather_S10000x256_S650000x1_S650000x256_1_0_n_n_0_1_1256_wf : GatherDims.WF S10000x256 S650000x1 S650000x256 [1] [0] [] [0] [] 1 ![1, 256]
  scatter_S10000x256_S650000x1_S650000x256_1_0_0_1_wf : ScatterDims.WF S10000x256 S650000x1 S650000x256 [1] [0] [0] 1
  dot_S10000x256_S256x128_S10000x128_1_0_0_1_n_n_wf : DotDims.WF S10000x256 S256x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S650000x1_S650000x256_1_0_n_n_0_1_1256 : GatherDims S10000x256 S650000x1 S650000x256 where
  offsetDims := [1]
  collapsedSliceDims := [0]
  operandBatchingDims := []
  startIndicesBatchingDims := []
  startIndexMap := [0]
  indexVectorDim := 1
  sliceSizes := ![1, 256]
  wf := gather_S10000x256_S650000x1_S650000x256_1_0_n_n_0_1_1256_wf
def scatter_S10000x256_S650000x1_S650000x256_1_0_0_1 : ScatterDims S10000x256 S650000x1 S650000x256 where
  updateWindowDims := [1]
  insertedWindowDims := [0]
  scatterDimsToOperandDims := [0]
  indexVectorDim := 1
  wf := scatter_S10000x256_S650000x1_S650000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.KB.Lin0Defs.lean ====
/-
  The first feature transform (a row block of the padded features times the whole weight matrix), as proof data of
  its pipeline: at a grid point the body finds the point's block of rows and the weight matrix, and leaves in the
  output window's buffer their matrix product (into a zero accumulator), rounded to the narrow float format.
-/
import proofs.«412831_j32925219291401_1_alg».proof.Proof.Gen.Kernel.Launch
import proofs.«412831_j32925219291401_1_alg».proof.Proof.Gen.Kernel.Skeleton
import proofs.«412831_j32925219291401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body at point `t` each input's buffer still at
    its block, the output's at the product of the two blocks; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

end Cert.Kernel.Hand

end
-- ==== Proof.KB.Agg1Defs.lean ====
/-
  The first aggregation (a row block of the adjacency matrix times a row block of the transformed features, summed over
  the column blocks, plus the bias, clamped below at zero), as proof data of its pipeline. The grid is row block by
  column block, the column block running fastest. The kernel keeps the running sum in a scratch buffer between
  points: at the first column block it starts from zero, at every column block it adds the product of the two
  blocks, and at the last column block it stores the clamped sum plus bias into the output window, which is idle
  at all other points.
-/
import proofs.«412831_j32925219291401_1_alg».proof.Proof.Gen.Kernel.Launch
import proofs.«412831_j32925219291401_1_alg».proof.Proof.Gen.Kernel.Skeleton
import proofs.«412831_j32925219291401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum the scratch buffer holds after point `n`: at a first column block the product of the point's
    blocks added to zero, otherwise added to what the point before left. -/
def accAt1 (c : Dev nD) : (n : ℕ) → n < cfg1.N → Vec F S2048x256 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

/-- The scratch buffer the kernel carries between points. -/
abbrev scM1 : Memref sig .tc .vmem S2048x256 .f32 := Memref.whole cc1_scratch0

/-- The core's scoped buffers that are neither a staging buffer of this pipeline nor the carried scratch, each at
    some contents. -/
def restNoScr1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

/-- The invariant before position `n`: before the first point every scoped buffer at anything; afterwards the
    carried scratch at the running sum the point before left, the other scoped buffers at anything; the generator
    register at some state throughout. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restNoScr1 (F := F) c ∗ (∃ r, prngReg c r))

/-- The proof data: the arrays as the region finds them; after the body each input's buffer still at its block, the
    output's (consulted only at a last column block) at the running sum plus bias clamped below at zero; the
    invariant carries the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

end Cert.Kernel.Hand

end
-- ==== Proof.KB.Lin2Defs.lean ====
/-
  The second feature transform (a row block of the first layer's output times the whole weight matrix), as proof data of
  its pipeline: at a grid point the body finds the point's block of rows and the weight matrix, and leaves in the
  output window's buffer their matrix product (into a zero accumulator), rounded to the narrow float format.
-/
import proofs.«412831_j32925219291401_1_alg».proof.Proof.Gen.Kernel.Launch
import proofs.«412831_j32925219291401_1_alg».proof.Proof.Gen.Kernel.Skeleton
import proofs.«412831_j32925219291401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as the region finds them; after the body at point `t` each input's buffer still at
    its block, the output's at the product of the two blocks; nothing carried between points; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay1 (iblk2 V c 0 t) (iblk2 V c 1 t) := by dsimp only [dat2]

end Cert.Kernel.Hand

end
-- ==== Proof.KB.Agg3Defs.lean ====
/-
  The second aggregation (a row block of the adjacency matrix times a row block of the transformed features, summed over
  the column blocks, plus the bias, clamped below at zero), as proof data of its pipeline. The grid is row block by
  column block, the column block running fastest. The kernel keeps the running sum in a scratch buffer between
  points: at the first column block it starts from zero, at every column block it adds the product of the two
  blocks, and at the last column block it stores the clamped sum plus bias into the output window, which is idle
  at all other points.
-/
import proofs.«412831_j32925219291401_1_alg».proof.Proof.Gen.Kernel.Launch
import proofs.«412831_j32925219291401_1_alg».proof.Proof.Gen.Kernel.Skeleton
import proofs.«412831_j32925219291401_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum the scratch buffer holds after point `n`: at a first column block the product of the point's
    blocks added to zero, otherwise added to what the point before left. -/
def accAt3 (c : Dev nD) : (n : ℕ) → n < cfg3.N → Vec F S2048x128 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (accAt3 c n (Nat.lt_of_succ_lt hn)) (iblk3 V c 0 ⟨n + 1, hn⟩) (iblk3 V c 1 ⟨n + 1, hn⟩)

/-- The scratch buffer the kernel carries between points. -/
abbrev scM3 : Memref sig .tc .vmem S2048x128 .f32 := Memref.whole cc3_scratch0

/-- The core's scoped buffers that are neither a staging buffer of this pipeline nor the carried scratch, each at
    some contents. -/
def restNoScr3 (c : Dev nD) : sProp 𝕄 :=
  bigSep (((Finset.univ.filter fun b : Ref sig .tc => b.isScoped) \ Finset.univ.image (Pipeline.stageRef spec3)).erase cc3_scratch0)
    fun b => iprop(∃ f : Buf (Elt F) ((c.tc : Thread nD τ).loc b), ((c.tc : Thread nD τ).loc b) ↦{fullShare} f)

/-- The invariant before position `n`: before the first point every scoped buffer at anything; afterwards the
    carried scratch at the running sum the point before left, the other scoped buffers at anything; the generator
    register at some state throughout. -/
def PhiS3 (c : Dev nD) : (n : ℕ) → n ≤ cfg3.N → sProp 𝕄
  | 0, _ => Pipeline.ΦA spec3 c
  | n + 1, hn => iprop(owns (c : Thread nD τ) scM3 fullShare (accAt3 V c n hn) ∗ restNoScr3 (F := F) c ∗ (∃ r, prngReg c r))

/-- The proof data: the arrays as the region finds them; after the body each input's buffer still at its block, the
    output's (consulted only at a last column block) at the running sum plus bias clamped below at zero; the
    invariant carries the scratch; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (accAt3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (accAt3 V c t.val t.isLt) (iblk3 V c 2 t) := by dsimp only [dat3]

end Cert.Kernel.Hand

end
-- ==== Proof.KB.Run.lean ====
/-
  The run of the whole program: @main is eleven items — host lines, the first feature transform, a host line, the
  first aggregation, the second feature transform, a host line, the second aggregation, a host line. Each kernel
  region is entered from the unscoped buffers at known contents and left with its output array at what its pipeline
  wrote back (the fold of its write-backs over the array it found) and every other buffer as it was. Chaining the
  items gives: every weakly fair execution ends, nothing faults, the result buffer holds the last host line's value
  of the last region's output, and the argument arrays end as launched.
-/
import proofs.«412831_j32925219291401_1_alg».proof.Proof.Gen.Kernel.Regions
import proofs.«412831_j32925219291401_1_alg».proof.Proof.KB.Lin0Defs
import proofs.«412831_j32925219291401_1_alg».proof.Proof.KB.Agg1Defs
import proofs.«412831_j32925219291401_1_alg».proof.Proof.KB.Lin2Defs
import proofs.«412831_j32925219291401_1_alg».proof.Proof.KB.Agg3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- A core's buffer contents read at the TensorCore's references. -/
abbrev atTc (W : Dev nD → Valuation τ sig (Elt F)) : (c : Dev nD) → (b : Ref sig .tc) → Buf (Elt F) ((c : Thread nD τ).loc b) :=
  fun c b => W c b

/-- The contents the four regions leave in their output arrays, as one family: the first feature transform's in
    `main_v47`, the first aggregation's in `main_v49`, the second transform's in `main_v50`, the second
    aggregation's in `main_v52`; any other reference at its launch contents (never read). -/
def mkOuts (o5 : (c : Dev nD) → Buf (Elt F) ((c : Thread nD τ).loc main_v47)) (o7 : (c : Dev nD) → Buf (Elt F) ((c : Thread nD τ).loc main_v49))
    (o8 : (c : Dev nD) → Buf (Elt F) ((c : Thread nD τ).loc main_v50)) (o10 : (c : Dev nD) → Buf (Elt F) ((c : Thread nD τ).loc main_v52)) : Outs (F := F) :=
  fun _ r c =>
    if h : r = main_v47 then h ▸ o5 c
    else if h : r = main_v49 then h ▸ o7 c
    else if h : r = main_v50 then h ▸ o8 c
    else if h : r = main_v52 then h ▸ o10 c
    else m ((c : Thread nD τ).loc r)

theorem mkOuts_47 (o5 o7 o8 o10) (J : ℕ) (c : Dev nD) : mkOuts m o5 o7 o8 o10 J main_v47 c = o5 c := by
  unfold mkOuts; rw [dif_pos rfl]
theorem mkOuts_49 (o5 o7 o8 o10) (J : ℕ) (c : Dev nD) : mkOuts m o5 o7 o8 o10 J main_v49 c = o7 c := by
  unfold mkOuts; rw [dif_neg (by decide), dif_pos rfl]
theorem mkOuts_50 (o5 o7 o8 o10) (J : ℕ) (c : Dev nD) : mkOuts m o5 o7 o8 o10 J main_v50 c = o8 c := by
  unfold mkOuts; rw [dif_neg (by decide), dif_neg (by decide), dif_pos rfl]
theorem mkOuts_52 (o5 o7 o8 o10) (J : ℕ) (c : Dev nD) : mkOuts m o5 o7 o8 o10 J main_v52 c = o10 c := by
  unfold mkOuts; rw [dif_neg (by decide), dif_neg (by decide), dif_neg (by decide), dif_pos rfl]

/-- What the first feature transform leaves in its output array: its write-backs folded over what it found. -/
def o5 (c : Dev nD) : Buf (Elt F) ((c : Thread nD τ).loc main_v47) := (dat0 (atTc (V4 m)) c).arrAt 2 cfg0.N
/-- The family with only that named. -/
def outsA : Outs (F := F) := mkOuts m (o5 m) (fun c => m ((c : Thread nD τ).loc main_v49)) (fun c => m ((c : Thread nD τ).loc main_v50)) (fun c => m ((c : Thread nD τ).loc main_v52))
/-- What the first aggregation leaves in its output array. -/
def o7 (c : Dev nD) : Buf (Elt F) ((c : Thread nD τ).loc main_v49) := (dat1 (atTc (V6 m (outsA m))) c).arrAt 3 cfg1.N
def outsB : Outs (F := F) := mkOuts m (o5 m) (o7 m) (fun c => m ((c : Thread nD τ).loc main_v50)) (fun c => m ((c : Thread nD τ).loc main_v52))
/-- What the second feature transform leaves in its output array. -/
def o8 (c : Dev nD) : Buf (Elt F) ((c : Thread nD τ).loc main_v50) := (dat2 (atTc (V7 m (outsB m))) c).arrAt 2 cfg2.N
def outsC : Outs (F := F) := mkOuts m (o5 m) (o7 m) (o8 m) (fun c => m ((c : Thread nD τ).loc main_v52))
/-- What the second aggregation leaves in its output array. -/
def o10 (c : Dev nD) : Buf (Elt F) ((c : Thread nD τ).loc main_v52) := (dat3 (atTc (V9 m (outsC m))) c).arrAt 3 cfg3.N
/-- The contents the four regions leave. -/
def outs : Outs (F := F) := mkOuts m (o5 m) (o7 m) (o8 m) (o10 m)

theorem outs_47 (J : ℕ) (c : Dev nD) : outs m J main_v47 c = o5 m c := mkOuts_47 m _ _ _ _ J c
theorem outs_49 (J : ℕ) (c : Dev nD) : outs m J main_v49 c = o7 m c := mkOuts_49 m _ _ _ _ J c
theorem outs_50 (J : ℕ) (c : Dev nD) : outs m J main_v50 c = o8 m c := mkOuts_50 m _ _ _ _ J c
theorem outs_52 (J : ℕ) (c : Dev nD) : outs m J main_v52 c = o10 m c := mkOuts_52 m _ _ _ _ J c

/-- The buffers between items read the family only at the four named places, so the partial families give the same
    contents up to the item that first reads a later place. -/
theorem V6_outsA (c : Dev nD) : V6 m (outsA m) c = V6 m (outs m) c := by
  show StableHlo.after hostOps1 (Function.update (V4 m c) main_v47 (outsA m 5 main_v47 c))
    = StableHlo.after hostOps1 (Function.update (V4 m c) main_v47 (outs m 5 main_v47 c))
  rw [outs_47, show outsA m 5 main_v47 c = o5 m c from mkOuts_47 m _ _ _ _ 5 c]
theorem V7_outsB (c : Dev nD) : V7 m (outsB m) c = V7 m (outs m) c := by
  show Function.update (StableHlo.after hostOps1 (Function.update (V4 m c) main_v47 (outsB m 5 main_v47 c))) main_v49 (outsB m 7 main_v49 c)
    = Function.update (StableHlo.after hostOps1 (Function.update (V4 m c) main_v47 (outs m 5 main_v47 c))) main_v49 (outs m 7 main_v49 c)
  rw [outs_47, outs_49, show outsB m 5 main_v47 c = o5 m c from mkOuts_47 m _ _ _ _ 5 c,
    show outsB m 7 main_v49 c = o7 m c from mkOuts_49 m _ _ _ _ 7 c]
theorem V9_outsC (c : Dev nD) : V9 m (outsC m) c = V9 m (outs m) c := by
  show StableHlo.after hostOps3 (Function.update (Function.update (StableHlo.after hostOps1 (Function.update (V4 m c) main_v47 (outsC m 5 main_v47 c))) main_v49 (outsC m 7 main_v49 c)) main_v50 (outsC m 8 main_v50 c))
    = StableHlo.after hostOps3 (Function.update (Function.update (StableHlo.after hostOps1 (Function.update (V4 m c) main_v47 (outs m 5 main_v47 c))) main_v49 (outs m 7 main_v49 c)) main_v50 (outs m 8 main_v50 c))
  rw [outs_47, outs_49, outs_50, show outsC m 5 main_v47 c = o5 m c from mkOuts_47 m _ _ _ _ 5 c,
    show outsC m 7 main_v49 c = o7 m c from mkOuts_49 m _ _ _ _ 7 c, show outsC m 8 main_v50 c = o8 m c from mkOuts_50 m _ _ _ _ 8 c]

theorem V6_outsA' : V6 m (outsA m) = V6 m (outs m) := funext (V6_outsA m)
theorem V7_outsB' : V7 m (outsB m) = V7 m (outs m) := funext (V7_outsB m)
theorem V9_outsC' : V9 m (outsC m) = V9 m (outs m) := funext (V9_outsC m)

/-! ## The proof data family and what rides beside the buffers -/

/-- Every pipeline's proof data, each at its region's entry contents: a literal match on the pipeline. -/
def pdats : (p : Fin 4) → (c : Dev nD) → Dat τ (Elt F) Unit ℕ (UR sig nD τ) ℕ (cfgs p) c
  | ⟨0, _⟩ => fun c => dat0 (atTc (V4 m)) c
  | ⟨1, _⟩ => fun c => dat1 (atTc (V6 m (outsA m))) c
  | ⟨2, _⟩ => fun c => dat2 (atTc (V7 m (outsB m))) c
  | ⟨3, _⟩ => fun c => dat3 (atTc (V9 m (outsC m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The first feature transform as a segment -/

/-- At the region's exit its arrays hold what the pipeline leaves: the inputs what they held, the output the family's entry. -/
theorem hF0 (c : Dev nD) (w : Fin cfg0.W) : (pdats m 0 c).arrAt w cfg0.N = atTc (V5 m (outs m)) c (Pipeline.arrRef spec0 w) := by
  match w with
  | ⟨0, _⟩ =>
    refine (((pdats m 0 c).arrAt_in 0 rfl _).trans (A_eq0 (atTc (V4 m)) c 0)).trans ?_
    exact (V5_of m (outs m) c main_v46 (by decide)).symm
  | ⟨1, _⟩ =>
    refine (((pdats m 0 c).arrAt_in 1 rfl _).trans (A_eq0 (atTc (V4 m)) c 1)).trans ?_
    exact (V5_of m (outs m) c main_arg2 (by decide)).symm
  | ⟨2, _⟩ =>
    show (dat0 (atTc (V4 m)) c).arrAt 2 cfg0.N = Function.update (V4 m c) main_v47 (outs m 5 main_v47 c) main_v47
    rw [Function.update_self, outs_47]; rfl

theorem hrest0 (c : Dev nD) : ∀ b, b ∉ Finset.univ.image (Pipeline.arrRef spec0) → atTc (V5 m (outs m)) c b = atTc (V4 m) c b := by
  intro b hb
  refine V5_of m (outs m) c b ?_
  intro hmem
  rw [List.mem_singleton] at hmem
  exact hb (Finset.mem_image.mpr ⟨2, Finset.mem_univ _, hmem.symm⟩)

set_option backward.isDefEq.respectTransparency.types false in
/-- The first feature transform over the thread state: entered from the unscoped buffers after the host lines before
    it, left with its output array at what its write-backs leave. -/
def reg0 (hb0 : ∀ c, BodyObligation (dat0 (F := F) (atTc (V4 m)) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (V4 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V4 m) c) (atTc (V5 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first aggregation as a segment -/

/-- The output array at the region's exit is the family's entry. -/
theorem hFout1 (c : Dev nD) : (pdats m 1 c).arrAt 3 cfg1.N = atTc (V7 m (outs m)) c main_v49 := by
  have h1 : atTc (V7 m (outs m)) c main_v49 = outs m 7 main_v49 c := by
    show Function.update (V6 m (outs m) c) main_v49 (outs m 7 main_v49 c) main_v49 = _
    rw [Function.update_self]
  rw [h1, outs_49]; rfl

theorem hF1 (c : Dev nD) (w : Fin cfg1.W) : (pdats m 1 c).arrAt w cfg1.N = atTc (V7 m (outs m)) c (Pipeline.arrRef spec1 w) := by
  match w with
  | ⟨0, _⟩ =>
    refine (((pdats m 1 c).arrAt_in 0 rfl _).trans (A_eq1 (atTc (V6 m (outsA m))) c 0)).trans ?_
    refine (show atTc (V6 m (outsA m)) c main_v45 = atTc (V6 m (outs m)) c main_v45 from by rw [V6_outsA']).trans ?_
    exact (V7_of m (outs m) c main_v45 (by decide)).symm
  | ⟨1, _⟩ =>
    refine (((pdats m 1 c).arrAt_in 1 rfl _).trans (A_eq1 (atTc (V6 m (outsA m))) c 1)).trans ?_
    refine (show atTc (V6 m (outsA m)) c main_v47 = atTc (V6 m (outs m)) c main_v47 from by rw [V6_outsA']).trans ?_
    exact (V7_of m (outs m) c main_v47 (by decide)).symm
  | ⟨2, _⟩ =>
    refine (((pdats m 1 c).arrAt_in 2 rfl _).trans (A_eq1 (atTc (V6 m (outsA m))) c 2)).trans ?_
    refine (show atTc (V6 m (outsA m)) c main_v48 = atTc (V6 m (outs m)) c main_v48 from by rw [V6_outsA']).trans ?_
    exact (V7_of m (outs m) c main_v48 (by decide)).symm
  | ⟨3, _⟩ => exact hFout1 m c

theorem hrest1 (c : Dev nD) : ∀ b, b ∉ Finset.univ.image (Pipeline.arrRef spec1) → atTc (V7 m (outs m)) c b = atTc (V6 m (outs m)) c b := by
  intro b hb
  refine V7_of m (outs m) c b ?_
  intro hmem
  rw [List.mem_singleton] at hmem
  exact hb (Finset.mem_image.mpr ⟨3, Finset.mem_univ _, hmem.symm⟩)

theorem hA1 (c : Dev nD) (w : Fin cfg1.W) : (pdats m 1 c).A w = atTc (V6 m (outs m)) c (Pipeline.arrRef spec1 w) :=
  (A_eq1 (atTc (V6 m (outsA m))) c w).trans (by rw [V6_outsA'])

set_option backward.isDefEq.respectTransparency.types false in
def reg1 (hb1 : ∀ c, BodyObligation (dat1 (F := F) (atTc (V6 m (outsA m))) c) (defs₀ (F := F)) Variants.none () Set.univ)
    (ho1 : ∀ c, (dat1 (F := F) (atTc (V6 m (outsA m))) c).Φ (Fin.last cfg1.N) ⊢ Pipeline.ΦA spec1 c) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (V6 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V6 m (outs m)) c) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from ho1 c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V6 m (outs m)) c) (atTc (V7 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second feature transform as a segment -/

/-- The output array at the region's exit is the family's entry. -/
theorem hFout2 (c : Dev nD) : (pdats m 2 c).arrAt 2 cfg2.N = atTc (V8 m (outs m)) c main_v50 := by
  have h1 : atTc (V8 m (outs m)) c main_v50 = outs m 8 main_v50 c := by
    show Function.update (V7 m (outs m) c) main_v50 (outs m 8 main_v50 c) main_v50 = _
    rw [Function.update_self]
  rw [h1, outs_50]; rfl

theorem hF2 (c : Dev nD) (w : Fin cfg2.W) : (pdats m 2 c).arrAt w cfg2.N = atTc (V8 m (outs m)) c (Pipeline.arrRef spec2 w) := by
  match w with
  | ⟨0, _⟩ =>
    refine (((pdats m 2 c).arrAt_in 0 rfl _).trans (A_eq2 (atTc (V7 m (outsB m))) c 0)).trans ?_
    refine (show atTc (V7 m (outsB m)) c main_v49 = atTc (V7 m (outs m)) c main_v49 from by rw [V7_outsB']).trans ?_
    exact (V8_of m (outs m) c main_v49 (by decide)).symm
  | ⟨1, _⟩ =>
    refine (((pdats m 2 c).arrAt_in 1 rfl _).trans (A_eq2 (atTc (V7 m (outsB m))) c 1)).trans ?_
    refine (show atTc (V7 m (outsB m)) c main_arg4 = atTc (V7 m (outs m)) c main_arg4 from by rw [V7_outsB']).trans ?_
    exact (V8_of m (outs m) c main_arg4 (by decide)).symm
  | ⟨2, _⟩ => exact hFout2 m c

theorem hrest2 (c : Dev nD) : ∀ b, b ∉ Finset.univ.image (Pipeline.arrRef spec2) → atTc (V8 m (outs m)) c b = atTc (V7 m (outs m)) c b := by
  intro b hb
  refine V8_of m (outs m) c b ?_
  intro hmem
  rw [List.mem_singleton] at hmem
  exact hb (Finset.mem_image.mpr ⟨2, Finset.mem_univ _, hmem.symm⟩)

theorem hA2 (c : Dev nD) (w : Fin cfg2.W) : (pdats m 2 c).A w = atTc (V7 m (outs m)) c (Pipeline.arrRef spec2 w) :=
  (A_eq2 (atTc (V7 m (outsB m))) c w).trans (by rw [V7_outsB'])

set_option backward.isDefEq.respectTransparency.types false in
def reg2 (hb2 : ∀ c, BodyObligation (dat2 (F := F) (atTc (V7 m (outsB m))) c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (V7 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V7 m (outs m)) c) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V7 m (outs m)) c) (atTc (V8 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second aggregation as a segment -/

/-- The output array at the region's exit is the family's entry. -/
theorem hFout3 (c : Dev nD) : (pdats m 3 c).arrAt 3 cfg3.N = atTc (V10 m (outs m)) c main_v52 := by
  have h1 : atTc (V10 m (outs m)) c main_v52 = outs m 10 main_v52 c := by
    show Function.update (V9 m (outs m) c) main_v52 (outs m 10 main_v52 c) main_v52 = _
    rw [Function.update_self]
  rw [h1, outs_52]; rfl

theorem hF3 (c : Dev nD) (w : Fin cfg3.W) : (pdats m 3 c).arrAt w cfg3.N = atTc (V10 m (outs m)) c (Pipeline.arrRef spec3 w) := by
  match w with
  | ⟨0, _⟩ =>
    refine (((pdats m 3 c).arrAt_in 0 rfl _).trans (A_eq3 (atTc (V9 m (outsC m))) c 0)).trans ?_
    refine (show atTc (V9 m (outsC m)) c main_v45 = atTc (V9 m (outs m)) c main_v45 from by rw [V9_outsC']).trans ?_
    exact (V10_of m (outs m) c main_v45 (by decide)).symm
  | ⟨1, _⟩ =>
    refine (((pdats m 3 c).arrAt_in 1 rfl _).trans (A_eq3 (atTc (V9 m (outsC m))) c 1)).trans ?_
    refine (show atTc (V9 m (outsC m)) c main_v50 = atTc (V9 m (outs m)) c main_v50 from by rw [V9_outsC']).trans ?_
    exact (V10_of m (outs m) c main_v50 (by decide)).symm
  | ⟨2, _⟩ =>
    refine (((pdats m 3 c).arrAt_in 2 rfl _).trans (A_eq3 (atTc (V9 m (outsC m))) c 2)).trans ?_
    refine (show atTc (V9 m (outsC m)) c main_v51 = atTc (V9 m (outs m)) c main_v51 from by rw [V9_outsC']).trans ?_
    exact (V10_of m (outs m) c main_v51 (by decide)).symm
  | ⟨3, _⟩ => exact hFout3 m c

theorem hrest3 (c : Dev nD) : ∀ b, b ∉ Finset.univ.image (Pipeline.arrRef spec3) → atTc (V10 m (outs m)) c b = atTc (V9 m (outs m)) c b := by
  intro b hb
  refine V10_of m (outs m) c b ?_
  intro hmem
  rw [List.mem_singleton] at hmem
  exact hb (Finset.mem_image.mpr ⟨3, Finset.mem_univ _, hmem.symm⟩)

theorem hA3 (c : Dev nD) (w : Fin cfg3.W) : (pdats m 3 c).A w = atTc (V9 m (outs m)) c (Pipeline.arrRef spec3 w) :=
  (A_eq3 (atTc (V9 m (outsC m))) c w).trans (by rw [V9_outsC'])

set_option backward.isDefEq.respectTransparency.types false in
def reg3 (hb3 : ∀ c, BodyObligation (dat3 (F := F) (atTc (V9 m (outsC m))) c) (defs₀ (F := F)) Variants.none () Set.univ)
    (ho3 : ∀ c, (dat3 (F := F) (atTc (V9 m (outsC m))) c).Φ (Fin.last cfg3.N) ⊢ Pipeline.ΦA spec3 c) :
    Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hb3 c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (V9 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V9 m (outs m)) c) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from ho3 c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V9 m (outs m)) c) (atTc (V10 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN, given each region's body obligation (and, for the two aggregations, that their invariant after the last
    point gives the scoped buffers back at anything): every weakly fair execution of @main from memory `m` with zero
    counters terminates, nothing faulting; the result buffer ends at the last host line's value over the last region's
    output, and every argument array as launched. -/
theorem run_value
    (hb0 : ∀ c, BodyObligation (dat0 (F := F) (atTc (V4 m)) c) (defs₀ (F := F)) Variants.none () Set.univ)
    (hb1 : ∀ c, BodyObligation (dat1 (F := F) (atTc (V6 m (outsA m))) c) (defs₀ (F := F)) Variants.none () Set.univ)
    (ho1 : ∀ c, (dat1 (F := F) (atTc (V6 m (outsA m))) c).Φ (Fin.last cfg1.N) ⊢ Pipeline.ΦA spec1 c)
    (hb2 : ∀ c, BodyObligation (dat2 (F := F) (atTc (V7 m (outsB m))) c) (defs₀ (F := F)) Variants.none () Set.univ)
    (hb3 : ∀ c, BodyObligation (dat3 (F := F) (atTc (V9 m (outsC m))) c) (defs₀ (F := F)) Variants.none () Set.univ)
    (ho3 : ∀ c, (dat3 (F := F) (atTc (V9 m (outsC m))) c).Φ (Fin.last cfg3.N) ⊢ Pipeline.ΦA spec3 c) :
    θ_run defs (onTc (τ := τ) (main (F := F))) ⟨m, fun _ => 0, ρ⟩ (fun r => ∀ c : Dev nD,
      r.2.mem ((c.tc : Thread nD τ).loc main_v53) = V11 m (outs m) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m hb0) (reg1 m hb1 ho1) (reg2 m hb2) (reg3 m hb3 ho3))
    (fun c Q => by
      rewrite [main_chain c, Seg.run_eq_chain,
        show (segs m (outs m) 𝒱₀ L lv (fun _ c => R c) () (pdats m) (reg0 m hb0) (reg1 m hb1 ho1) (reg2 m hb2) (reg3 m hb3 ho3) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by iintro ⟨-, H⟩; iexact H)⟩)
    (hinit := ?_)
    (QY := fun c s => s.mem ((c.tc : Thread nD τ).loc main_v53) = V11 m (outs m) c main_v53
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the generator register and the dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last contents
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨h (Proc.devRef .tc main_v53) (Finset.mem_filter.mpr ⟨StableHlo.devRef_mem_tcRefs main_v53, by decide⟩),
        (h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c),
        (h (Proc.devRef .tc main_arg4) (Finset.mem_filter.mpr ⟨StableHlo.devRef_mem_tcRefs main_arg4, by decide⟩)).trans (V11_main_arg4 m (outs m) c),
        (h (Proc.devRef .tc main_arg5) (Finset.mem_filter.mpr ⟨StableHlo.devRef_mem_tcRefs main_arg5, by decide⟩)).trans (V11_main_arg5 m (outs m) c)⟩
    · iexact HSI

end Cert.Kernel.Hand

end
-- ==== Proof.KB.Lin0.lean ====
/-
  The first feature transform's body obligation. At a grid point the pipeline calls the kernel body on three whole
  staging buffers: the point's 2048×128 block of feature rows, the 128×256 weight matrix, and the 2048×256 output
  buffer. The body reads the two inputs, reads the output buffer once without using the value, and overwrites the whole
  output buffer with the payload of the two inputs; the inputs stay as they were. Each input's buffer holds its block
  at every point, whether the window was fetched there or not, so the buffer the body leaves is the payload of the two
  blocks: what the proof data promises.
-/
import proofs.«412831_j32925219291401_1_alg».proof.Proof.KB.Lin0Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers before the body -/

/-- The offset of a whole-buffer access is zero on both axes. -/
theorem zero_off0 : (![0, 0] : Fin 2 → Nat) = fun _ => 0 := funext fun a => by fin_cases a <;> rfl

/-- The row-block window's current buffer holds the point's block of rows at every point (it is fetched at every
    point, and the body leaves it in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's current buffer holds the whole weight matrix at every point: fetched at the first point, and
    at the later points its block index has not moved and the body left it in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The one store of the body, through the whole output buffer. -/
abbrev rOut0 : Rect S2048x256 := Rect.unit (s := S2048x256) ![0, 0] S2048x256.size inb_S2048x256_S2048x256_0_0

/-- That one store covers the buffer: its rectangle is the whole shape. -/
theorem cover0_2 (p : Vec F S2048x256 .bf16) (y : S2048x256.Idx) :
    ∃ pc ∈ ([⟨rOut0, p⟩] : List (View.Piece (Elt F) S2048x256 .bf16)), y ∈ pc.1.set :=
  ⟨_, List.mem_singleton_self _, View.mem_set_unit_zero (S := S2048x256) zero_off0 inb_S2048x256_S2048x256_0_0 y⟩

set_option maxHeartbeats 1000000 in
/-- The kernel body on whole staging memrefs, the inputs' at contents `x0`, `x1` and the output's at anything, runs
    to the continuation holding the inputs' as they were and the output's at the payload of `x0` and `x1`: two loads
    of the inputs, one load of the output buffer whose value is dropped, one store of the whole output buffer. -/
theorem sound_kernel0 (c : Dev nD) (E : Set ℕ)
    (arg1 : Memref sig .tc .vmem S2048x128 .f32) (harg1 : arg1.IsWhole)
    (arg2 : Memref sig .tc .vmem S128x256 .f32) (harg2 : arg2.IsWhole)
    (arg3 : Memref sig .tc .vmem S2048x256 .bf16) (harg3 : arg3.IsWhole)
    (i : grid0.Coords) (x0 : Vec F S2048x128 .f32) (x1 : Vec F S128x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero zero_off0]
  simp only [View.readAt_eq_ld, View.ld_unit_zero (S := S2048x128) zero_off0, View.ld_unit_zero (S := S128x256) zero_off0]

/-! ## The body obligation, at a generic point -/

/-- What the body is called with at point `t`: the invariant, the core's debts, and the three current staging buffers,
    each at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same invariant and debts, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's holds anything, so the kernel's triple
    applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Agg1.lean ====
/-
  The first aggregation's body obligation. The kernel function is run once per control case on whole buffers:
  at a first column block the carried scratch is zeroed and receives the product of the adjacency block and the
  feature block; at a middle column block the product is added to what the scratch held; at a last column block
  the sum is added likewise and then, plus the bias and clamped below at zero, stored into the output window.
  The three runs are joined over the grid: the point's column block (the point's position modulo five) selects
  the case, the invariant hands the scratch over at the running sum the point before left and takes it back at
  this point's, and the output window is idle except at a last column block.
-/
import proofs.«412831_j32925219291401_1_alg».proof.Proof.KB.Agg1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form -/

/-- The first conditional's test: the column block is the first one. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's test: the column block is the last one. -/
abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬ t.val % 5 = 4 → cfg1.idle 3 (grid1.coords t) = true :=
  (by decide +kernel : ∀ t : Fin grid1.N, ¬ t.val % 5 = 4 → idle1 3 (grid1.coords t) = true)
theorem liveAt1_3 : ∀ t : Fin cfg1.N, t.val % 5 = 4 → cfg1.idle 3 (grid1.coords t) = false :=
  (by decide +kernel : ∀ t : Fin grid1.N, t.val % 5 = 4 → idle1 3 (grid1.coords t) = false)
theorem noFlush1_3 (t : Fin cfg1.N) (h : ¬ t.val % 5 = 4) : (cfg1.win 3).flush t = false := by
  cases hf : (cfg1.win 3).flush t with
  | false => rfl
  | true => exact absurd ((flush1_3 t).mp hf) h

/-! ## What the input windows hold when the body runs -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The invariant before the first point, with the carried scratch split off -/

theorem scr_mem1 : cc1_scratch0 ∈ ((Finset.univ.filter fun b : Ref sig .tc => b.isScoped) \ Finset.univ.image (Pipeline.stageRef spec1)) := by
  decide

/-- Every scoped buffer that is no staging buffer at anything, and the generator register at some state: the
    carried scratch at anything, the other such buffers at anything, the register. -/
theorem PhiA1_eq (c : Dev nD) :
    (Pipeline.ΦA spec1 c : sProp 𝕄)
      = iprop((∃ d, owns (c : Thread nD τ) scM1 fullShare d) ∗ restNoScr1 (F := F) c ∗ (∃ r, prngReg c r)) := by
  unfold Pipeline.ΦA Pipeline.scopedRest restNoScr1
  rw [bigSep_erase scr_mem1]
  simp only [scM1, owns_whole]
  exact BI.equiv_iff.mp ⟨BI.sep_assoc, BI.sep_assoc'⟩

theorem PhiA1_split (c : Dev nD) :
    (Pipeline.ΦA spec1 c : sProp 𝕄)
      ⊣⊢ iprop((∃ d, owns (c : Thread nD τ) scM1 fullShare d) ∗ restNoScr1 (F := F) c ∗ (∃ r, prngReg c r)) :=
  BIBase.BiEntails.of_eq (PhiA1_eq c)

/-! ## The invariant, position by position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(owns (c : Thread nD τ) scM1 fullShare (accAt1 V c n hn) ∗ restNoScr1 (F := F) c ∗ (∃ r, prngReg c r)) := rfl

theorem PhiS1_pos (c : Dev nD) (n : ℕ) (h : n ≤ cfg1.N) (hz : n ≠ 0) :
    PhiS1 V c n h
      = iprop(owns (c : Thread nD τ) scM1 fullShare (accAt1 V c (n - 1) (by omega)) ∗ restNoScr1 (F := F) c ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 :=
  Idealize.SL.BI.Entails.refl _

/-- After any point the invariant gives the launch's back: the scratch's running sum is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS]
  · iexists _; iexact HS
  isplitl [HR]
  · iexact HR
  iexact Hg

theorem hout1 (c : Dev nD) : (dat1 V c).Φ (Fin.last cfg1.N) ⊢ Pipeline.ΦA spec1 c :=
  Phi_out1 V c _ (by rw [Fin.val_last]; have : cfg1.N = 25 := N_1; omega)

/-! ## The running sum, case by case -/

/-- At a first column block the sum restarts from zero. -/
theorem accAt1_first (c : Dev nD) (t : Fin cfg1.N) (h0 : t.val % 5 = 0) :
    accAt1 V c t.val t.isLt = k1_pay2 (k1_pay1 (F := F)) (iblk1 V c 0 t) (iblk1 V c 1 t) := by
  obtain ⟨n, hn⟩ := t
  cases n with
  | zero => rfl
  | succ n => exact (if_pos h0).trans rfl

/-- At any other column block the point's product is added to what the point before left. -/
theorem accAt1_next (c : Dev nD) (t : Fin cfg1.N) (h0 : ¬ t.val % 5 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-! ## The kernel function on whole buffers, case by case -/

/-- The zero offsets of a whole-buffer rectangle of rank two. -/
theorem off2_zero : (![0, 0] : Fin 2 → Nat) = fun _ => 0 := by
  funext a; fin_cases a <;> rfl

/-- A list of stores whose last one is through the whole-buffer rectangle covers the buffer. -/
theorem covers_cons_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 1000000 in
/-- At a first column block (the first conditional taken, the second not): the scratch, found at anything, is
    zeroed and then holds the product of the two blocks added to zero; the inputs and the output window's buffer
    are left as found. -/
theorem run1_A (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond1_0 i) (hc1 : ¬cond1_1 i)
    (x0 : Vec F S2048x2048 .bf16) (x1 : Vec F S2048x256 .bf16) (x2 : Vec F S1x256 .f32)
    (xi3 : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 (k1_pay1 (F := F)) x0 x1)) -∗ K ⟨⟩))
      ⊢ wp frame (wpE (defs₀ (F := F)) Variants.none c none) E
          (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero off2_zero _ _ _),
    View.canon_cons_unit_zero (S := S2048x256) off2_zero, View.readCov_unit_zero (S := S2048x256) _ off2_zero]
  simp only [View.readAt_eq_ld, harg2.read_unread, harg3.read_unread, View.ld_unit_zero (S := S2048x2048) off2_zero,
    View.ld_unit_zero (S := S2048x256) off2_zero]

set_option maxHeartbeats 1000000 in
/-- At a column block neither first nor last (neither conditional taken): the scratch, found at `s`, then holds
    `s` plus the product of the two blocks; everything else is left as found. -/
theorem run1_B (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond1_0 i) (hc1 : ¬cond1_1 i)
    (x0 : Vec F S2048x2048 .bf16) (x1 : Vec F S2048x256 .bf16) (x2 : Vec F S1x256 .f32)
    (xi3 : Vec F S2048x256 .f32) (s : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare s
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 s x0 x1)) -∗ K ⟨⟩))
      ⊢ wp frame (wpE (defs₀ (F := F)) Variants.none c none) E
          (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero off2_zero _ _ _),
    View.canon_unit_zero (S := S2048x256) off2_zero]
  simp only [View.readAt_eq_ld, harg2.read_unread, harg3.read_unread, harg6.read_unread,
    View.ld_unit_zero (S := S2048x2048) off2_zero, View.ld_unit_zero (S := S2048x256) off2_zero]

set_option maxHeartbeats 1000000 in
/-- At a last column block (the first conditional not taken, the second taken): the scratch, found at `s`, then
    holds `s` plus the product of the two blocks, and the output window's buffer, found at anything, that sum plus
    the bias clamped below at zero. -/
theorem run1_C (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond1_0 i) (hc1 : cond1_1 i)
    (x0 : Vec F S2048x2048 .bf16) (x1 : Vec F S2048x256 .bf16) (x2 : Vec F S1x256 .f32)
    (s : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 s x0 x1) x2)
            ∗ owns (c : Thread nD τ) arg6 fullShare (k1_pay2 s x0 x1)) -∗ K ⟨⟩))
      ⊢ wp frame (wpE (defs₀ (F := F)) Variants.none c none) E
          (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (covers_cons_unit_zero off2_zero _ _ _),
      View.canon_unit_zero (S := S2048x256) off2_zero, View.readCov_unit_zero (S := S2048x256) _ off2_zero]
    simp only [View.readAt_eq_ld, harg2.read_unread, harg3.read_unread, harg4.read_unread, harg6.read_unread,
      View.ld_unit_zero (S := S2048x2048) off2_zero, View.ld_unit_zero (S := S2048x256) off2_zero,
      View.ld_unit_zero (S := S1x256) off2_zero]
  iexists _; isplitr
  swap; · iexact HS
  ipureintro
  sl_unfold_words
  rw [View.read_writes_eq_canon _ _ _ (covers_cons_unit_zero off2_zero _ _ _),
    View.canon_unit_zero (S := S2048x256) off2_zero]
  simp only [View.readAt_eq_ld, harg2.read_unread, harg3.read_unread, harg6.read_unread,
    View.ld_unit_zero (S := S2048x2048) off2_zero, View.ld_unit_zero (S := S2048x256) off2_zero]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three input windows hold their blocks. The point's column block decides the case:
    at a first one the scratch restarts from zero, elsewhere it adds to what the point before left, and the
    invariant takes it back at the running sum of this point; the output window's buffer is handed back untouched
    except at a last column block, where it receives the clamped sum plus bias. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 25 := lt_of_lt_of_eq t.isLt (show cfg1.N = 25 from N_1)
  by_cases h0 : t.val % 5 = 0
  · have h1 : ¬ t.val % 5 = 4 := by omega
    rw [Dat.leavesExact_idle (dat1 V c) 3 t (idleAt1_3 t h1) (noFlush1_3 t h1)]
    rw [accAt1_first V c t h0]
    by_cases hz : t.val = 0
    · rw [PhiS1_castSucc V c t, PhiS1_zero V c _ _ hz, PhiA1_eq]
      iintro ⟨⟨HS, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt1_next V c t h0]
    rw [PhiS1_castSucc V c t, PhiS1_pos V c _ _ hz]
    by_cases h1 : t.val % 5 = 4
    · rw [show (dat1 V c).leavesExact 3 t = owns (c : Thread nD τ) (st1_3 t) fullShare ((dat1 V c).after 3 t) from by
        unfold Dat.leavesExact; rw [liveAt1_3 t h1], after1_3, accAt1_next V c t h0]
      iintro ⟨⟨HS, HR, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1)
        (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, HR, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Lin2.lean ====
/-
  The second feature transform's body obligation. At a grid point the pipeline calls the kernel body on three whole
  staging buffers: the point's 2048×256 block of feature rows, the 256×128 weight matrix, and the 2048×128 output
  buffer. The body reads the two inputs, reads the output buffer once without using the value, and overwrites the whole
  output buffer with the payload of the two inputs; the inputs stay as they were. Each input's buffer holds its block
  at every point, whether the window was fetched there or not, so the buffer the body leaves is the payload of the two
  blocks: what the proof data promises.
-/
import proofs.«412831_j32925219291401_1_alg».proof.Proof.KB.Lin2Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers before the body -/

/-- The offset of a whole-buffer access is zero on both axes. -/
theorem zero_off2 : (![0, 0] : Fin 2 → Nat) = fun _ => 0 := funext fun a => by fin_cases a <;> rfl

/-- The row-block window's current buffer holds the point's block of rows at every point (it is fetched at every
    point, and the body leaves it in place). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The weight window's current buffer holds the whole weight matrix at every point: fetched at the first point, and
    at the later points its block index has not moved and the body left it in place. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's triple -/

/-- The one store of the body, through the whole output buffer. -/
abbrev rOut2 : Rect S2048x128 := Rect.unit (s := S2048x128) ![0, 0] S2048x128.size inb_S2048x128_S2048x128_0_0

/-- That one store covers the buffer: its rectangle is the whole shape. -/
theorem cover2_2 (p : Vec F S2048x128 .bf16) (y : S2048x128.Idx) :
    ∃ pc ∈ ([⟨rOut2, p⟩] : List (View.Piece (Elt F) S2048x128 .bf16)), y ∈ pc.1.set :=
  ⟨_, List.mem_singleton_self _, View.mem_set_unit_zero (S := S2048x128) zero_off2 inb_S2048x128_S2048x128_0_0 y⟩

set_option maxHeartbeats 1000000 in
/-- The kernel body on whole staging memrefs, the inputs' at contents `x0`, `x1` and the output's at anything, runs
    to the continuation holding the inputs' as they were and the output's at the payload of `x0` and `x1`: two loads
    of the inputs, one load of the output buffer whose value is dropped, one store of the whole output buffer. -/
theorem sound_kernel2 (c : Dev nD) (E : Set ℕ)
    (arg1 : Memref sig .tc .vmem S2048x256 .f32) (harg1 : arg1.IsWhole)
    (arg2 : Memref sig .tc .vmem S256x128 .f32) (harg2 : arg2.IsWhole)
    (arg3 : Memref sig .tc .vmem S2048x128 .bf16) (harg3 : arg3.IsWhole)
    (i : grid2.Coords) (x0 : Vec F S2048x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2_2 _), View.canon_unit_zero zero_off2]
  simp only [View.readAt_eq_ld, View.ld_unit_zero (S := S2048x256) zero_off2, View.ld_unit_zero (S := S256x128) zero_off2]

/-! ## The body obligation, at a generic point -/

/-- What the body is called with at point `t`: the invariant, the core's debts, and the three current staging buffers,
    each at what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same invariant and debts, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, the output's holds anything, so the kernel's triple
    applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Agg3.lean ====
/-
  The second aggregation's body obligation. The kernel function is run once per control case on whole buffers:
  at a first column block the carried scratch is zeroed and receives the product of the adjacency block and the
  feature block; at a middle column block the product is added to what the scratch held; at a last column block
  the sum is added likewise and then, plus the bias and clamped below at zero, stored into the output window.
  The three runs are joined over the grid: the point's column block (the point's position modulo five) selects
  the case, the invariant hands the scratch over at the running sum the point before left and takes it back at
  this point's, and the output window is idle except at a last column block.
-/
import proofs.«412831_j32925219291401_1_alg».proof.Proof.KB.Agg3Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form -/

/-- The first conditional's test: the column block is the first one. -/
abbrev cond3_0 (i : grid3.Coords) : Prop :=
  (Scalar.cmpi .ne (Scalar.extui (Scalar.cmpi .eq (BitVec.ofNat 32 (i 1).val) 0#32)) 0#32) = 1#1

theorem hcond3_0 : ∀ t : Fin cfg3.N, cond3_0 (grid3.coords t) ↔ t.val % 5 = 0 :=
  (by decide +kernel : ∀ t : Fin grid3.N, cond3_0 (grid3.coords t) ↔ t.val % 5 = 0)

/-- The second conditional's test: the column block is the last one. -/
abbrev cond3_1 (i : grid3.Coords) : Prop := k3_cond2 i = 1#1

theorem hcond3_1 : ∀ t : Fin cfg3.N, cond3_1 (grid3.coords t) ↔ t.val % 5 = 4 :=
  (by decide +kernel : ∀ t : Fin grid3.N, cond3_1 (grid3.coords t) ↔ t.val % 5 = 4)

/-! ## Where the output window is idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem idleAt3_3 : ∀ t : Fin cfg3.N, ¬ t.val % 5 = 4 → cfg3.idle 3 (grid3.coords t) = true :=
  (by decide +kernel : ∀ t : Fin grid3.N, ¬ t.val % 5 = 4 → idle3 3 (grid3.coords t) = true)
theorem liveAt3_3 : ∀ t : Fin cfg3.N, t.val % 5 = 4 → cfg3.idle 3 (grid3.coords t) = false :=
  (by decide +kernel : ∀ t : Fin grid3.N, t.val % 5 = 4 → idle3 3 (grid3.coords t) = false)
theorem noFlush3_3 (t : Fin cfg3.N) (h : ¬ t.val % 5 = 4) : (cfg3.win 3).flush t = false := by
  cases hf : (cfg3.win 3).flush t with
  | false => rfl
  | true => exact absurd ((flush3_3 t).mp hf) h

/-! ## What the input windows hold when the body runs -/

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The invariant before the first point, with the carried scratch split off -/

theorem scr_mem3 : cc3_scratch0 ∈ ((Finset.univ.filter fun b : Ref sig .tc => b.isScoped) \ Finset.univ.image (Pipeline.stageRef spec3)) := by
  decide

/-- Every scoped buffer that is no staging buffer at anything, and the generator register at some state: the
    carried scratch at anything, the other such buffers at anything, the register. -/
theorem PhiA3_eq (c : Dev nD) :
    (Pipeline.ΦA spec3 c : sProp 𝕄)
      = iprop((∃ d, owns (c : Thread nD τ) scM3 fullShare d) ∗ restNoScr3 (F := F) c ∗ (∃ r, prngReg c r)) := by
  unfold Pipeline.ΦA Pipeline.scopedRest restNoScr3
  rw [bigSep_erase scr_mem3]
  simp only [scM3, owns_whole]
  exact BI.equiv_iff.mp ⟨BI.sep_assoc, BI.sep_assoc'⟩

theorem PhiA3_split (c : Dev nD) :
    (Pipeline.ΦA spec3 c : sProp 𝕄)
      ⊣⊢ iprop((∃ d, owns (c : Thread nD τ) scM3 fullShare d) ∗ restNoScr3 (F := F) c ∗ (∃ r, prngReg c r)) :=
  BIBase.BiEntails.of_eq (PhiA3_eq c)

/-! ## The invariant, position by position -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn
      = iprop(owns (c : Thread nD τ) scM3 fullShare (accAt3 V c n hn) ∗ restNoScr3 (F := F) c ∗ (∃ r, prngReg c r)) := rfl

theorem PhiS3_pos (c : Dev nD) (n : ℕ) (h : n ≤ cfg3.N) (hz : n ≠ 0) :
    PhiS3 V c n h
      = iprop(owns (c : Thread nD τ) scM3 fullShare (accAt3 V c (n - 1) (by omega)) ∗ restNoScr3 (F := F) c ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-- What the launch hands the region is the invariant before the first point. -/
theorem hin3 (c : Dev nD) : Pipeline.ΦA spec3 c ⊢ (dat3 V c).Φ 0 :=
  Idealize.SL.BI.Entails.refl _

/-- After any point the invariant gives the launch's back: the scratch's running sum is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR, Hg⟩
  isplitl [HS]
  · iexists _; iexact HS
  isplitl [HR]
  · iexact HR
  iexact Hg

theorem hout3 (c : Dev nD) : (dat3 V c).Φ (Fin.last cfg3.N) ⊢ Pipeline.ΦA spec3 c :=
  Phi_out3 V c _ (by rw [Fin.val_last]; have : cfg3.N = 25 := N_3; omega)

/-! ## The running sum, case by case -/

/-- At a first column block the sum restarts from zero. -/
theorem accAt3_first (c : Dev nD) (t : Fin cfg3.N) (h0 : t.val % 5 = 0) :
    accAt3 V c t.val t.isLt = k3_pay2 (k3_pay1 (F := F)) (iblk3 V c 0 t) (iblk3 V c 1 t) := by
  obtain ⟨n, hn⟩ := t
  cases n with
  | zero => rfl
  | succ n => exact (if_pos h0).trans rfl

/-- At any other column block the point's product is added to what the point before left. -/
theorem accAt3_next (c : Dev nD) (t : Fin cfg3.N) (h0 : ¬ t.val % 5 = 0) :
    accAt3 V c t.val t.isLt
      = k3_pay2 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact (if_neg h0).trans rfl

/-! ## The kernel function on whole buffers, case by case -/

/-- The zero offsets of a whole-buffer rectangle of rank two. -/
theorem off2_zero3 : (![0, 0] : Fin 2 → Nat) = fun _ => 0 := by
  funext a; fin_cases a <;> rfl

/-- A list of stores whose last one is through the whole-buffer rectangle covers the buffer. -/
theorem covers_cons_unit_zero3 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 1000000 in
/-- At a first column block (the first conditional taken, the second not): the scratch, found at anything, is
    zeroed and then holds the product of the two blocks added to zero; the inputs and the output window's buffer
    are left as found. -/
theorem run3_A (c : Dev nD) (i : grid3.Coords)
    (arg2 : Memref sig .tc .vmem S2048x2048 .bf16) (harg2 : arg2.IsWhole)
    (arg3 : Memref sig .tc .vmem S2048x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond3_0 i) (hc1 : ¬cond3_1 i)
    (x0 : Vec F S2048x2048 .bf16) (x1 : Vec F S2048x128 .bf16) (x2 : Vec F S1x128 .f32)
    (xi3 : Vec F S2048x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k3_pay2 (k3_pay1 (F := F)) x0 x1)) -∗ K ⟨⟩))
      ⊢ wp frame (wpE (defs₀ (F := F)) Variants.none c none) E
          (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero3 off2_zero3 _ _ _),
    View.canon_cons_unit_zero (S := S2048x128) off2_zero3, View.readCov_unit_zero (S := S2048x128) _ off2_zero3]
  simp only [View.readAt_eq_ld, harg2.read_unread, harg3.read_unread, View.ld_unit_zero (S := S2048x2048) off2_zero3,
    View.ld_unit_zero (S := S2048x128) off2_zero3]

set_option maxHeartbeats 1000000 in
/-- At a column block neither first nor last (neither conditional taken): the scratch, found at `s`, then holds
    `s` plus the product of the two blocks; everything else is left as found. -/
theorem run3_B (c : Dev nD) (i : grid3.Coords)
    (arg2 : Memref sig .tc .vmem S2048x2048 .bf16) (harg2 : arg2.IsWhole)
    (arg3 : Memref sig .tc .vmem S2048x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : ¬cond3_1 i)
    (x0 : Vec F S2048x2048 .bf16) (x1 : Vec F S2048x128 .bf16) (x2 : Vec F S1x128 .f32)
    (xi3 : Vec F S2048x128 .f32) (s : Vec F S2048x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare s
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k3_pay2 s x0 x1)) -∗ K ⟨⟩))
      ⊢ wp frame (wpE (defs₀ (F := F)) Variants.none c none) E
          (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero3 off2_zero3 _ _ _),
    View.canon_unit_zero (S := S2048x128) off2_zero3]
  simp only [View.readAt_eq_ld, harg2.read_unread, harg3.read_unread, harg6.read_unread,
    View.ld_unit_zero (S := S2048x2048) off2_zero3, View.ld_unit_zero (S := S2048x128) off2_zero3]

set_option maxHeartbeats 1000000 in
/-- At a last column block (the first conditional not taken, the second taken): the scratch, found at `s`, then
    holds `s` plus the product of the two blocks, and the output window's buffer, found at anything, that sum plus
    the bias clamped below at zero. -/
theorem run3_C (c : Dev nD) (i : grid3.Coords)
    (arg2 : Memref sig .tc .vmem S2048x2048 .bf16) (harg2 : arg2.IsWhole)
    (arg3 : Memref sig .tc .vmem S2048x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : cond3_1 i)
    (x0 : Vec F S2048x2048 .bf16) (x1 : Vec F S2048x128 .bf16) (x2 : Vec F S1x128 .f32)
    (s : Vec F S2048x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare x2
            ∗ owns (c : Thread nD τ) arg5 fullShare (k3_pay3 (k3_pay2 s x0 x1) x2)
            ∗ owns (c : Thread nD τ) arg6 fullShare (k3_pay2 s x0 x1)) -∗ K ⟨⟩))
      ⊢ wp frame (wpE (defs₀ (F := F)) Variants.none c none) E
          (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (covers_cons_unit_zero3 off2_zero3 _ _ _),
      View.canon_unit_zero (S := S2048x128) off2_zero3, View.readCov_unit_zero (S := S2048x128) _ off2_zero3]
    simp only [View.readAt_eq_ld, harg2.read_unread, harg3.read_unread, harg4.read_unread, harg6.read_unread,
      View.ld_unit_zero (S := S2048x2048) off2_zero3, View.ld_unit_zero (S := S2048x128) off2_zero3,
      View.ld_unit_zero (S := S1x128) off2_zero3]
  iexists _; isplitr
  swap; · iexact HS
  ipureintro
  sl_unfold_words
  rw [View.read_writes_eq_canon _ _ _ (covers_cons_unit_zero3 off2_zero3 _ _ _),
    View.canon_unit_zero (S := S2048x128) off2_zero3]
  simp only [View.readAt_eq_ld, harg2.read_unread, harg3.read_unread, harg6.read_unread,
    View.ld_unit_zero (S := S2048x2048) off2_zero3, View.ld_unit_zero (S := S2048x128) off2_zero3]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The three input windows hold their blocks. The point's column block decides the case:
    at a first one the scratch restarts from zero, elsewhere it adds to what the point before left, and the
    invariant takes it back at the running sum of this point; the output window's buffer is handed back untouched
    except at a last column block, where it receives the clamped sum plus bias. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 25 := lt_of_lt_of_eq t.isLt (show cfg3.N = 25 from N_3)
  by_cases h0 : t.val % 5 = 0
  · have h1 : ¬ t.val % 5 = 4 := by omega
    rw [Dat.leavesExact_idle (dat3 V c) 3 t (idleAt3_3 t h1) (noFlush3_3 t h1)]
    rw [accAt3_first V c t h0]
    by_cases hz : t.val = 0
    · rw [PhiS3_castSucc V c t, PhiS3_zero V c _ _ hz, PhiA3_eq]
      iintro ⟨⟨HS, HR, Hg⟩, Ho, ⟨%d0, H0⟩, ⟨%d1, H1⟩, ⟨%d2, H2⟩, ⟨%d3, H3⟩⟩
      iapply (run3_A c (grid3.coords t) _ _ _ _ _ _ _ _ _ _ ((hcond3_0 t).mpr h0) (fun h => h1 ((hcond3_1 t).mp h))
        (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨HS, HR, Hg⟩, Ho, ⟨%d0, H0⟩, ⟨%d1, H1⟩, ⟨%d2, H2⟩, ⟨%d3, H3⟩⟩
      iapply (run3_A c (grid3.coords t) _ _ _ _ _ _ _ _ _ _ ((hcond3_0 t).mpr h0) (fun h => h1 ((hcond3_1 t).mp h))
        (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt3_next V c t h0]
    rw [PhiS3_castSucc V c t, PhiS3_pos V c _ _ hz]
    by_cases h1 : t.val % 5 = 4
    · rw [show (dat3 V c).leavesExact 3 t = owns (c : Thread nD τ) (st3_3 t) fullShare ((dat3 V c).after 3 t) from by
        unfold Dat.leavesExact; rw [liveAt3_3 t h1], after3_3, accAt3_next V c t h0]
      iintro ⟨⟨HS, HR, Hg⟩, Ho, ⟨%d0, H0⟩, ⟨%d1, H1⟩, ⟨%d2, H2⟩, ⟨%d3, H3⟩⟩
      iapply (run3_C c (grid3.coords t) _ _ _ _ _ _ _ _ _ _ (fun h => h0 ((hcond3_0 t).mp h)) ((hcond3_1 t).mpr h1)
        (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t h1) (noFlush3_3 t h1)]
      iintro ⟨⟨HS, HR, Hg⟩, Ho, ⟨%d0, H0⟩, ⟨%d1, H1⟩, ⟨%d2, H2⟩, ⟨%d3, H3⟩⟩
      iapply (run3_B c (grid3.coords t) _ _ _ _ _ _ _ _ _ _ (fun h => h0 ((hcond3_0 t).mp h)) (fun h => h1 ((hcond3_1 t).mp h))
        (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region's proof data, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KI.Lin0Defs.lean ====
/-
  The first feature transform (a row block of the padded features times the whole weight matrix), as proof data of
  its pipeline: at a grid point the body finds the point's block of rows and the weight matrix, and leaves in the
  output window's buffer their matrix product (into a zero accumulator), rounded to the narrow float format.
-/
import proofs.«412831_j32925219291401_1_alg».proof.Proof.Gen.KernelIdeal.Launch
import proofs.«412831_j32925219291401_1_alg».proof.Proof.Gen.KernelIdeal.Skeleton
import proofs.«412831_j32925219291401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body at point `t` each input's buffer still at
    its block, the output's at the product of the two blocks; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

end Cert.KernelIdeal.Hand

end
-- ==== Proof.KI.Agg1Defs.lean ====
/-
  The first aggregation (a row block of the adjacency matrix times a row block of the transformed features, summed over
  the column blocks, plus the bias, clamped below at zero), as proof data of its pipeline. The grid is row block by
  column block, the column block running fastest. The kernel keeps the running sum in a scratch buffer between
  points: at the first column block it starts from zero, at every column block it adds the product of the two
  blocks, and at the last column block it stores the clamped sum plus bias into the output window, which is idle
  at all other points.
-/
import proofs.«412831_j32925219291401_1_alg».proof.Proof.Gen.KernelIdeal.Launch
import proofs.«412831_j32925219291401_1_alg».proof.Proof.Gen.KernelIdeal.Skeleton
import proofs.«412831_j32925219291401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum the scratch buffer holds after point `n`: at a first column block the product of the point's
    blocks added to zero, otherwise added to what the point before left. -/
def accAt1 (c : Dev nD) : (n : ℕ) → n < cfg1.N → Vec F S2048x256 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

/-- The scratch buffer the kernel carries between points. -/
abbrev scM1 : Memref sig .tc .vmem S2048x256 .f32 := Memref.whole cc1_scratch0

/-- The core's scoped buffers that are neither a staging buffer of this pipeline nor the carried scratch, each at
    some contents. -/
def restNoScr1 (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

/-- The invariant before position `n`: before the first point every scoped buffer at anything; afterwards the
    carried scratch at the running sum the point before left, the other scoped buffers at anything; the generator
    register at some state throughout. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restNoScr1 (F := F) c ∗ (∃ r, prngReg c r))

/-- The proof data: the arrays as the region finds them; after the body each input's buffer still at its block, the
    output's (consulted only at a last column block) at the running sum plus bias clamped below at zero; the
    invariant carries the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

end Cert.KernelIdeal.Hand

end
-- ==== Proof.KI.Lin2Defs.lean ====
/-
  The second feature transform (a row block of the first layer's output times the whole weight matrix), as proof data of
  its pipeline: at a grid point the body finds the point's block of rows and the weight matrix, and leaves in the
  output window's buffer their matrix product (into a zero accumulator), rounded to the narrow float format.
-/
import proofs.«412831_j32925219291401_1_alg».proof.Proof.Gen.KernelIdeal.Launch
import proofs.«412831_j32925219291401_1_alg».proof.Proof.Gen.KernelIdeal.Skeleton
import proofs.«412831_j32925219291401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as the region finds them; after the body at point `t` each input's buffer still at
    its block, the output's at the product of the two blocks; nothing carried between points; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay1 (iblk2 V c 0 t) (iblk2 V c 1 t) := by dsimp only [dat2]

end Cert.KernelIdeal.Hand

end
-- ==== Proof.KI.Agg3Defs.lean ====
/-
  The second aggregation (a row block of the adjacency matrix times a row block of the transformed features, summed over
  the column blocks, plus the bias, clamped below at zero), as proof data of its pipeline. The grid is row block by
  column block, the column block running fastest. The kernel keeps the running sum in a scratch buffer between
  points: at the first column block it starts from zero, at every column block it adds the product of the two
  blocks, and at the last column block it stores the clamped sum plus bias into the output window, which is idle
  at all other points.
-/
import proofs.«412831_j32925219291401_1_alg».proof.Proof.Gen.KernelIdeal.Launch
import proofs.«412831_j32925219291401_1_alg».proof.Proof.Gen.KernelIdeal.Skeleton
import proofs.«412831_j32925219291401_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum the scratch buffer holds after point `n`: at a first column block the product of the point's
    blocks added to zero, otherwise added to what the point before left. -/
def accAt3 (c : Dev nD) : (n : ℕ) → n < cfg3.N → Vec F S2048x128 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (accAt3 c n (Nat.lt_of_succ_lt hn)) (iblk3 V c 0 ⟨n + 1, hn⟩) (iblk3 V c 1 ⟨n + 1, hn⟩)

/-- The scratch buffer the kernel carries between points. -/
abbrev scM3 : Memref sig .tc .vmem S2048x128 .f32 := Memref.whole cc3_scratch0

/-- The core's scoped buffers that are neither a staging buffer of this pipeline nor the carried scratch, each at
    some contents. -/
def restNoScr3 (c : Dev nD) : sProp 𝕄 :=
  bigSep (((Finset.univ.filter fun b : Ref sig .tc => b.isScoped) \ Finset.univ.image (Pipeline.stageRef spec3)).erase cc3_scratch0)
    fun b => iprop(∃ f : Buf (Elt F) ((c.tc : Thread nD τ).loc b), ((c.tc : Thread nD τ).loc b) ↦{fullShare} f)

/-- The invariant before position `n`: before the first point every scoped buffer at anything; afterwards the
    carried scratch at the running sum the point before left, the other scoped buffers at anything; the generator
    register at some state throughout. -/
def PhiS3 (c : Dev nD) : (n : ℕ) → n ≤ cfg3.N → sProp 𝕄
  | 0, _ => Pipeline.ΦA spec3 c
  | n + 1, hn => iprop(owns (c : Thread nD τ) scM3 fullShare (accAt3 V c n hn) ∗ restNoScr3 (F := F) c ∗ (∃ r, prngReg c r))

/-- The proof data: the arrays as the region finds them; after the body each input's buffer still at its block, the
    output's (consulted only at a last column block) at the running sum plus bias clamped below at zero; the
    invariant carries the scratch; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (accAt3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (accAt3 V c t.val t.isLt) (iblk3 V c 2 t) := by dsimp only [dat3]

end Cert.KernelIdeal.Hand

end
-- ==== Proof.KI.Run.lean ====
/-
  The run of the whole program: @main is eleven items — host lines, the first feature transform, a host line, the
  first aggregation, the second feature transform, a host line, the second aggregation, a host line. Each kernel
  region is entered from the unscoped buffers at known contents and left with its output array at what its pipeline
  wrote back (the fold of its write-backs over the array it found) and every other buffer as it was. Chaining the
  items gives: every weakly fair execution ends, nothing faults, the result buffer holds the last host line's value
  of the last region's output, and the argument arrays end as launched.
-/
import proofs.«412831_j32925219291401_1_alg».proof.Proof.Gen.KernelIdeal.Regions
import proofs.«412831_j32925219291401_1_alg».proof.Proof.KI.Lin0Defs
import proofs.«412831_j32925219291401_1_alg».proof.Proof.KI.Agg1Defs
import proofs.«412831_j32925219291401_1_alg».proof.Proof.KI.Lin2Defs
import proofs.«412831_j32925219291401_1_alg».proof.Proof.KI.Agg3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- A core's buffer contents read at the TensorCore's references. -/
abbrev atTc (W : Dev nD → Valuation τ sig (Elt F)) : (c : Dev nD) → (b : Ref sig .tc) → Buf (Elt F) ((c : Thread nD τ).loc b) :=
  fun c b => W c b

/-- The contents the four regions leave in their output arrays, as one family: the first feature transform's in
    `main_v47`, the first aggregation's in `main_v49`, the second transform's in `main_v50`, the second
    aggregation's in `main_v52`; any other reference at its launch contents (never read). -/
def mkOuts (o5 : (c : Dev nD) → Buf (Elt F) ((c : Thread nD τ).loc main_v47)) (o7 : (c : Dev nD) → Buf (Elt F) ((c : Thread nD τ).loc main_v49))
    (o8 : (c : Dev nD) → Buf (Elt F) ((c : Thread nD τ).loc main_v50)) (o10 : (c : Dev nD) → Buf (Elt F) ((c : Thread nD τ).loc main_v52)) : Outs (F := F) :=
  fun _ r c =>
    if h : r = main_v47 then h ▸ o5 c
    else if h : r = main_v49 then h ▸ o7 c
    else if h : r = main_v50 then h ▸ o8 c
    else if h : r = main_v52 then h ▸ o10 c
    else m ((c : Thread nD τ).loc r)

theorem mkOuts_47 (o5 o7 o8 o10) (J : ℕ) (c : Dev nD) : mkOuts m o5 o7 o8 o10 J main_v47 c = o5 c := by
  unfold mkOuts; rw [dif_pos rfl]
theorem mkOuts_49 (o5 o7 o8 o10) (J : ℕ) (c : Dev nD) : mkOuts m o5 o7 o8 o10 J main_v49 c = o7 c := by
  unfold mkOuts; rw [dif_neg (by decide), dif_pos rfl]
theorem mkOuts_50 (o5 o7 o8 o10) (J : ℕ) (c : Dev nD) : mkOuts m o5 o7 o8 o10 J main_v50 c = o8 c := by
  unfold mkOuts; rw [dif_neg (by decide), dif_neg (by decide), dif_pos rfl]
theorem mkOuts_52 (o5 o7 o8 o10) (J : ℕ) (c : Dev nD) : mkOuts m o5 o7 o8 o10 J main_v52 c = o10 c := by
  unfold mkOuts; rw [dif_neg (by decide), dif_neg (by decide), dif_neg (by decide), dif_pos rfl]

/-- What the first feature transform leaves in its output array: its write-backs folded over what it found. -/
def o5 (c : Dev nD) : Buf (Elt F) ((c : Thread nD τ).loc main_v47) := (dat0 (atTc (V4 m)) c).arrAt 2 cfg0.N
/-- The family with only that named. -/
def outsA : Outs (F := F) := mkOuts m (o5 m) (fun c => m ((c : Thread nD τ).loc main_v49)) (fun c => m ((c : Thread nD τ).loc main_v50)) (fun c => m ((c : Thread nD τ).loc main_v52))
/-- What the first aggregation leaves in its output array. -/
def o7 (c : Dev nD) : Buf (Elt F) ((c : Thread nD τ).loc main_v49) := (dat1 (atTc (V6 m (outsA m))) c).arrAt 3 cfg1.N
def outsB : Outs (F := F) := mkOuts m (o5 m) (o7 m) (fun c => m ((c : Thread nD τ).loc main_v50)) (fun c => m ((c : Thread nD τ).loc main_v52))
/-- What the second feature transform leaves in its output array. -/
def o8 (c : Dev nD) : Buf (Elt F) ((c : Thread nD τ).loc main_v50) := (dat2 (atTc (V7 m (outsB m))) c).arrAt 2 cfg2.N
def outsC : Outs (F := F) := mkOuts m (o5 m) (o7 m) (o8 m) (fun c => m ((c : Thread nD τ).loc main_v52))
/-- What the second aggregation leaves in its output array. -/
def o10 (c : Dev nD) : Buf (Elt F) ((c : Thread nD τ).loc main_v52) := (dat3 (atTc (V9 m (outsC m))) c).arrAt 3 cfg3.N
/-- The contents the four regions leave. -/
def outs : Outs (F := F) := mkOuts m (o5 m) (o7 m) (o8 m) (o10 m)

theorem outs_47 (J : ℕ) (c : Dev nD) : outs m J main_v47 c = o5 m c := mkOuts_47 m _ _ _ _ J c
theorem outs_49 (J : ℕ) (c : Dev nD) : outs m J main_v49 c = o7 m c := mkOuts_49 m _ _ _ _ J c
theorem outs_50 (J : ℕ) (c : Dev nD) : outs m J main_v50 c = o8 m c := mkOuts_50 m _ _ _ _ J c
theorem outs_52 (J : ℕ) (c : Dev nD) : outs m J main_v52 c = o10 m c := mkOuts_52 m _ _ _ _ J c

/-- The buffers between items read the family only at the four named places, so the partial families give the same
    contents up to the item that first reads a later place. -/
theorem V6_outsA (c : Dev nD) : V6 m (outsA m) c = V6 m (outs m) c := by
  show StableHlo.after hostOps1 (Function.update (V4 m c) main_v47 (outsA m 5 main_v47 c))
    = StableHlo.after hostOps1 (Function.update (V4 m c) main_v47 (outs m 5 main_v47 c))
  rw [outs_47, show outsA m 5 main_v47 c = o5 m c from mkOuts_47 m _ _ _ _ 5 c]
theorem V7_outsB (c : Dev nD) : V7 m (outsB m) c = V7 m (outs m) c := by
  show Function.update (StableHlo.after hostOps1 (Function.update (V4 m c) main_v47 (outsB m 5 main_v47 c))) main_v49 (outsB m 7 main_v49 c)
    = Function.update (StableHlo.after hostOps1 (Function.update (V4 m c) main_v47 (outs m 5 main_v47 c))) main_v49 (outs m 7 main_v49 c)
  rw [outs_47, outs_49, show outsB m 5 main_v47 c = o5 m c from mkOuts_47 m _ _ _ _ 5 c,
    show outsB m 7 main_v49 c = o7 m c from mkOuts_49 m _ _ _ _ 7 c]
theorem V9_outsC (c : Dev nD) : V9 m (outsC m) c = V9 m (outs m) c := by
  show StableHlo.after hostOps3 (Function.update (Function.update (StableHlo.after hostOps1 (Function.update (V4 m c) main_v47 (outsC m 5 main_v47 c))) main_v49 (outsC m 7 main_v49 c)) main_v50 (outsC m 8 main_v50 c))
    = StableHlo.after hostOps3 (Function.update (Function.update (StableHlo.after hostOps1 (Function.update (V4 m c) main_v47 (outs m 5 main_v47 c))) main_v49 (outs m 7 main_v49 c)) main_v50 (outs m 8 main_v50 c))
  rw [outs_47, outs_49, outs_50, show outsC m 5 main_v47 c = o5 m c from mkOuts_47 m _ _ _ _ 5 c,
    show outsC m 7 main_v49 c = o7 m c from mkOuts_49 m _ _ _ _ 7 c, show outsC m 8 main_v50 c = o8 m c from mkOuts_50 m _ _ _ _ 8 c]

theorem V6_outsA' : V6 m (outsA m) = V6 m (outs m) := funext (V6_outsA m)
theorem V7_outsB' : V7 m (outsB m) = V7 m (outs m) := funext (V7_outsB m)
theorem V9_outsC' : V9 m (outsC m) = V9 m (outs m) := funext (V9_outsC m)

/-! ## The proof data family and what rides beside the buffers -/

/-- Every pipeline's proof data, each at its region's entry contents: a literal match on the pipeline. -/
def pdats : (p : Fin 4) → (c : Dev nD) → Dat τ (Elt F) Unit ℕ (UR sig nD τ) ℕ (cfgs p) c
  | ⟨0, _⟩ => fun c => dat0 (atTc (V4 m)) c
  | ⟨1, _⟩ => fun c => dat1 (atTc (V6 m (outsA m))) c
  | ⟨2, _⟩ => fun c => dat2 (atTc (V7 m (outsB m))) c
  | ⟨3, _⟩ => fun c => dat3 (atTc (V9 m (outsC m))) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The first feature transform as a segment -/

/-- At the region's exit its arrays hold what the pipeline leaves: the inputs what they held, the output the family's entry. -/
theorem hF0 (c : Dev nD) (w : Fin cfg0.W) : (pdats m 0 c).arrAt w cfg0.N = atTc (V5 m (outs m)) c (Pipeline.arrRef spec0 w) := by
  match w with
  | ⟨0, _⟩ =>
    refine (((pdats m 0 c).arrAt_in 0 rfl _).trans (A_eq0 (atTc (V4 m)) c 0)).trans ?_
    exact (V5_of m (outs m) c main_v46 (by decide)).symm
  | ⟨1, _⟩ =>
    refine (((pdats m 0 c).arrAt_in 1 rfl _).trans (A_eq0 (atTc (V4 m)) c 1)).trans ?_
    exact (V5_of m (outs m) c main_arg2 (by decide)).symm
  | ⟨2, _⟩ =>
    show (dat0 (atTc (V4 m)) c).arrAt 2 cfg0.N = Function.update (V4 m c) main_v47 (outs m 5 main_v47 c) main_v47
    rw [Function.update_self, outs_47]; rfl

theorem hrest0 (c : Dev nD) : ∀ b, b ∉ Finset.univ.image (Pipeline.arrRef spec0) → atTc (V5 m (outs m)) c b = atTc (V4 m) c b := by
  intro b hb
  refine V5_of m (outs m) c b ?_
  intro hmem
  rw [List.mem_singleton] at hmem
  exact hb (Finset.mem_image.mpr ⟨2, Finset.mem_univ _, hmem.symm⟩)

set_option backward.isDefEq.respectTransparency.types false in
/-- The first feature transform over the thread state: entered from the unscoped buffers after the host lines before
    it, left with its output array at what its write-backs leave. -/
def reg0 (hb0 : ∀ c, BodyObligation (dat0 (F := F) (atTc (V4 m)) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (V4 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V4 m) c) (atTc (V5 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The first aggregation as a segment -/

/-- The output array at the region's exit is the family's entry. -/
theorem hFout1 (c : Dev nD) : (pdats m 1 c).arrAt 3 cfg1.N = atTc (V7 m (outs m)) c main_v49 := by
  have h1 : atTc (V7 m (outs m)) c main_v49 = outs m 7 main_v49 c := by
    show Function.update (V6 m (outs m) c) main_v49 (outs m 7 main_v49 c) main_v49 = _
    rw [Function.update_self]
  rw [h1, outs_49]; rfl

theorem hF1 (c : Dev nD) (w : Fin cfg1.W) : (pdats m 1 c).arrAt w cfg1.N = atTc (V7 m (outs m)) c (Pipeline.arrRef spec1 w) := by
  match w with
  | ⟨0, _⟩ =>
    refine (((pdats m 1 c).arrAt_in 0 rfl _).trans (A_eq1 (atTc (V6 m (outsA m))) c 0)).trans ?_
    refine (show atTc (V6 m (outsA m)) c main_v45 = atTc (V6 m (outs m)) c main_v45 from by rw [V6_outsA']).trans ?_
    exact (V7_of m (outs m) c main_v45 (by decide)).symm
  | ⟨1, _⟩ =>
    refine (((pdats m 1 c).arrAt_in 1 rfl _).trans (A_eq1 (atTc (V6 m (outsA m))) c 1)).trans ?_
    refine (show atTc (V6 m (outsA m)) c main_v47 = atTc (V6 m (outs m)) c main_v47 from by rw [V6_outsA']).trans ?_
    exact (V7_of m (outs m) c main_v47 (by decide)).symm
  | ⟨2, _⟩ =>
    refine (((pdats m 1 c).arrAt_in 2 rfl _).trans (A_eq1 (atTc (V6 m (outsA m))) c 2)).trans ?_
    refine (show atTc (V6 m (outsA m)) c main_v48 = atTc (V6 m (outs m)) c main_v48 from by rw [V6_outsA']).trans ?_
    exact (V7_of m (outs m) c main_v48 (by decide)).symm
  | ⟨3, _⟩ => exact hFout1 m c

theorem hrest1 (c : Dev nD) : ∀ b, b ∉ Finset.univ.image (Pipeline.arrRef spec1) → atTc (V7 m (outs m)) c b = atTc (V6 m (outs m)) c b := by
  intro b hb
  refine V7_of m (outs m) c b ?_
  intro hmem
  rw [List.mem_singleton] at hmem
  exact hb (Finset.mem_image.mpr ⟨3, Finset.mem_univ _, hmem.symm⟩)

theorem hA1 (c : Dev nD) (w : Fin cfg1.W) : (pdats m 1 c).A w = atTc (V6 m (outs m)) c (Pipeline.arrRef spec1 w) :=
  (A_eq1 (atTc (V6 m (outsA m))) c w).trans (by rw [V6_outsA'])

set_option backward.isDefEq.respectTransparency.types false in
def reg1 (hb1 : ∀ c, BodyObligation (dat1 (F := F) (atTc (V6 m (outsA m))) c) (defs₀ (F := F)) Variants.none () Set.univ)
    (ho1 : ∀ c, (dat1 (F := F) (atTc (V6 m (outsA m))) c).Φ (Fin.last cfg1.N) ⊢ Pipeline.ΦA spec1 c) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (V6 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V6 m (outs m)) c) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from ho1 c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V6 m (outs m)) c) (atTc (V7 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second feature transform as a segment -/

/-- The output array at the region's exit is the family's entry. -/
theorem hFout2 (c : Dev nD) : (pdats m 2 c).arrAt 2 cfg2.N = atTc (V8 m (outs m)) c main_v50 := by
  have h1 : atTc (V8 m (outs m)) c main_v50 = outs m 8 main_v50 c := by
    show Function.update (V7 m (outs m) c) main_v50 (outs m 8 main_v50 c) main_v50 = _
    rw [Function.update_self]
  rw [h1, outs_50]; rfl

theorem hF2 (c : Dev nD) (w : Fin cfg2.W) : (pdats m 2 c).arrAt w cfg2.N = atTc (V8 m (outs m)) c (Pipeline.arrRef spec2 w) := by
  match w with
  | ⟨0, _⟩ =>
    refine (((pdats m 2 c).arrAt_in 0 rfl _).trans (A_eq2 (atTc (V7 m (outsB m))) c 0)).trans ?_
    refine (show atTc (V7 m (outsB m)) c main_v49 = atTc (V7 m (outs m)) c main_v49 from by rw [V7_outsB']).trans ?_
    exact (V8_of m (outs m) c main_v49 (by decide)).symm
  | ⟨1, _⟩ =>
    refine (((pdats m 2 c).arrAt_in 1 rfl _).trans (A_eq2 (atTc (V7 m (outsB m))) c 1)).trans ?_
    refine (show atTc (V7 m (outsB m)) c main_arg4 = atTc (V7 m (outs m)) c main_arg4 from by rw [V7_outsB']).trans ?_
    exact (V8_of m (outs m) c main_arg4 (by decide)).symm
  | ⟨2, _⟩ => exact hFout2 m c

theorem hrest2 (c : Dev nD) : ∀ b, b ∉ Finset.univ.image (Pipeline.arrRef spec2) → atTc (V8 m (outs m)) c b = atTc (V7 m (outs m)) c b := by
  intro b hb
  refine V8_of m (outs m) c b ?_
  intro hmem
  rw [List.mem_singleton] at hmem
  exact hb (Finset.mem_image.mpr ⟨2, Finset.mem_univ _, hmem.symm⟩)

theorem hA2 (c : Dev nD) (w : Fin cfg2.W) : (pdats m 2 c).A w = atTc (V7 m (outs m)) c (Pipeline.arrRef spec2 w) :=
  (A_eq2 (atTc (V7 m (outsB m))) c w).trans (by rw [V7_outsB'])

set_option backward.isDefEq.respectTransparency.types false in
def reg2 (hb2 : ∀ c, BodyObligation (dat2 (F := F) (atTc (V7 m (outsB m))) c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (V7 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V7 m (outs m)) c) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V7 m (outs m)) c) (atTc (V8 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second aggregation as a segment -/

/-- The output array at the region's exit is the family's entry. -/
theorem hFout3 (c : Dev nD) : (pdats m 3 c).arrAt 3 cfg3.N = atTc (V10 m (outs m)) c main_v52 := by
  have h1 : atTc (V10 m (outs m)) c main_v52 = outs m 10 main_v52 c := by
    show Function.update (V9 m (outs m) c) main_v52 (outs m 10 main_v52 c) main_v52 = _
    rw [Function.update_self]
  rw [h1, outs_52]; rfl

theorem hF3 (c : Dev nD) (w : Fin cfg3.W) : (pdats m 3 c).arrAt w cfg3.N = atTc (V10 m (outs m)) c (Pipeline.arrRef spec3 w) := by
  match w with
  | ⟨0, _⟩ =>
    refine (((pdats m 3 c).arrAt_in 0 rfl _).trans (A_eq3 (atTc (V9 m (outsC m))) c 0)).trans ?_
    refine (show atTc (V9 m (outsC m)) c main_v45 = atTc (V9 m (outs m)) c main_v45 from by rw [V9_outsC']).trans ?_
    exact (V10_of m (outs m) c main_v45 (by decide)).symm
  | ⟨1, _⟩ =>
    refine (((pdats m 3 c).arrAt_in 1 rfl _).trans (A_eq3 (atTc (V9 m (outsC m))) c 1)).trans ?_
    refine (show atTc (V9 m (outsC m)) c main_v50 = atTc (V9 m (outs m)) c main_v50 from by rw [V9_outsC']).trans ?_
    exact (V10_of m (outs m) c main_v50 (by decide)).symm
  | ⟨2, _⟩ =>
    refine (((pdats m 3 c).arrAt_in 2 rfl _).trans (A_eq3 (atTc (V9 m (outsC m))) c 2)).trans ?_
    refine (show atTc (V9 m (outsC m)) c main_v51 = atTc (V9 m (outs m)) c main_v51 from by rw [V9_outsC']).trans ?_
    exact (V10_of m (outs m) c main_v51 (by decide)).symm
  | ⟨3, _⟩ => exact hFout3 m c

theorem hrest3 (c : Dev nD) : ∀ b, b ∉ Finset.univ.image (Pipeline.arrRef spec3) → atTc (V10 m (outs m)) c b = atTc (V9 m (outs m)) c b := by
  intro b hb
  refine V10_of m (outs m) c b ?_
  intro hmem
  rw [List.mem_singleton] at hmem
  exact hb (Finset.mem_image.mpr ⟨3, Finset.mem_univ _, hmem.symm⟩)

theorem hA3 (c : Dev nD) (w : Fin cfg3.W) : (pdats m 3 c).A w = atTc (V9 m (outs m)) c (Pipeline.arrRef spec3 w) :=
  (A_eq3 (atTc (V9 m (outsC m))) c w).trans (by rw [V9_outsC'])

set_option backward.isDefEq.respectTransparency.types false in
def reg3 (hb3 : ∀ c, BodyObligation (dat3 (F := F) (atTc (V9 m (outsC m))) c) (defs₀ (F := F)) Variants.none () Set.univ)
    (ho3 : ∀ c, (dat3 (F := F) (atTc (V9 m (outsC m))) c).Φ (Fin.last cfg3.N) ⊢ Pipeline.ΦA spec3 c) :
    Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hb3 c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (V9 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V9 m (outs m)) c) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from ho3 c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V9 m (outs m)) c) (atTc (V10 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN, given each region's body obligation (and, for the two aggregations, that their invariant after the last
    point gives the scoped buffers back at anything): every weakly fair execution of @main from memory `m` with zero
    counters terminates, nothing faulting; the result buffer ends at the last host line's value over the last region's
    output, and every argument array as launched. -/
theorem run_value
    (hb0 : ∀ c, BodyObligation (dat0 (F := F) (atTc (V4 m)) c) (defs₀ (F := F)) Variants.none () Set.univ)
    (hb1 : ∀ c, BodyObligation (dat1 (F := F) (atTc (V6 m (outsA m))) c) (defs₀ (F := F)) Variants.none () Set.univ)
    (ho1 : ∀ c, (dat1 (F := F) (atTc (V6 m (outsA m))) c).Φ (Fin.last cfg1.N) ⊢ Pipeline.ΦA spec1 c)
    (hb2 : ∀ c, BodyObligation (dat2 (F := F) (atTc (V7 m (outsB m))) c) (defs₀ (F := F)) Variants.none () Set.univ)
    (hb3 : ∀ c, BodyObligation (dat3 (F := F) (atTc (V9 m (outsC m))) c) (defs₀ (F := F)) Variants.none () Set.univ)
    (ho3 : ∀ c, (dat3 (F := F) (atTc (V9 m (outsC m))) c).Φ (Fin.last cfg3.N) ⊢ Pipeline.ΦA spec3 c) :
    θ_run defs (onTc (τ := τ) (main (F := F))) ⟨m, fun _ => 0, ρ⟩ (fun r => ∀ c : Dev nD,
      r.2.mem ((c.tc : Thread nD τ).loc main_v53) = V11 m (outs m) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m hb0) (reg1 m hb1 ho1) (reg2 m hb2) (reg3 m hb3 ho3))
    (fun c Q => by
      rewrite [main_chain c, Seg.run_eq_chain,
        show (segs m (outs m) 𝒱₀ L lv (fun _ c => R c) () (pdats m) (reg0 m hb0) (reg1 m hb1 ho1) (reg2 m hb2) (reg3 m hb3 ho3) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by iintro ⟨-, H⟩; iexact H)⟩)
    (hinit := ?_)
    (QY := fun c s => s.mem ((c.tc : Thread nD τ).loc main_v53) = V11 m (outs m) c main_v53
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the generator register and the dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last contents
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨h (Proc.devRef .tc main_v53) (Finset.mem_filter.mpr ⟨StableHlo.devRef_mem_tcRefs main_v53, by decide⟩),
        (h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c),
        (h (Proc.devRef .tc main_arg4) (Finset.mem_filter.mpr ⟨StableHlo.devRef_mem_tcRefs main_arg4, by decide⟩)).trans (V11_main_arg4 m (outs m) c),
        (h (Proc.devRef .tc main_arg5) (Finset.mem_filter.mpr ⟨StableHlo.devRef_mem_tcRefs main_arg5, by decide⟩)).trans (V11_main_arg5 m (outs m) c)⟩
    · iexact HSI

end Cert.KernelIdeal.Hand

end
-- ==== Proof.KI.Lin0.lean ====
/-
  The first feature transform's body obligation. At a grid point the pipeline calls the kernel body on three whole
  staging buffers: the point's 2048×128 block of feature rows, the 128×256 weight matrix, and the 2048×256 output
  buffer. The body reads the two inputs, reads the output buffer once without using the value, and overwrites the whole
  output buffer with the payload of the two inputs; the inputs stay as they were. Each input's buffer holds its block
  at every point, whether the window was fetched there or not, so the buffer the body leaves is the payload of the two
  blocks: what the proof data promises.
-/
import proofs.«412831_j32925219291401_1_alg».proof.Proof.KI.Lin0Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers before the body -/

/-- The offset of a whole-buffer access is zero on both axes. -/
theorem zero_off0 : (![0, 0] : Fin 2 → Nat) = fun _ => 0 := funext fun a => by fin_cases a <;> rfl

/-- The row-block window's current buffer holds the point's block of rows at every point (it is fetched at every
    point, and the body leaves it in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight window's current buffer holds the whole weight matrix at every point: fetched at the first point, and
    at the later points its block index has not moved and the body left it in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The one store of the body, through the whole output buffer. -/
abbrev rOut0 : Rect S2048x256 := Rect.unit (s := S2048x256) ![0, 0] S2048x256.size inb_S2048x256_S2048x256_0_0

/-- That one store covers the buffer: its rectangle is the whole shape. -/
theorem cover0_2 (p : Vec F S2048x256 .bf16) (y : S2048x256.Idx) :
    ∃ pc ∈ ([⟨rOut0, p⟩] : List (View.Piece (Elt F) S2048x256 .bf16)), y ∈ pc.1.set :=
  ⟨_, List.mem_singleton_self _, View.mem_set_unit_zero (S := S2048x256) zero_off0 inb_S2048x256_S2048x256_0_0 y⟩

set_option maxHeartbeats 1000000 in
/-- The kernel body on whole staging memrefs, the inputs' at contents `x0`, `x1` and the output's at anything, runs
    to the continuation holding the inputs' as they were and the output's at the payload of `x0` and `x1`: two loads
    of the inputs, one load of the output buffer whose value is dropped, one store of the whole output buffer. -/
theorem sound_kernel0 (c : Dev nD) (E : Set ℕ)
    (arg1 : Memref sig .tc .vmem S2048x128 .f32) (harg1 : arg1.IsWhole)
    (arg2 : Memref sig .tc .vmem S128x256 .f32) (harg2 : arg2.IsWhole)
    (arg3 : Memref sig .tc .vmem S2048x256 .bf16) (harg3 : arg3.IsWhole)
    (i : grid0.Coords) (x0 : Vec F S2048x128 .f32) (x1 : Vec F S128x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero zero_off0]
  simp only [View.readAt_eq_ld, View.ld_unit_zero (S := S2048x128) zero_off0, View.ld_unit_zero (S := S128x256) zero_off0]

/-! ## The body obligation, at a generic point -/

/-- What the body is called with at point `t`: the invariant, the core's debts, and the three current staging buffers,
    each at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same invariant and debts, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's holds anything, so the kernel's triple
    applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Agg1.lean ====
/-
  The first aggregation's body obligation. The kernel function is run once per control case on whole buffers:
  at a first column block the carried scratch is zeroed and receives the product of the adjacency block and the
  feature block; at a middle column block the product is added to what the scratch held; at a last column block
  the sum is added likewise and then, plus the bias and clamped below at zero, stored into the output window.
  The three runs are joined over the grid: the point's column block (the point's position modulo five) selects
  the case, the invariant hands the scratch over at the running sum the point before left and takes it back at
  this point's, and the output window is idle except at a last column block.
-/
import proofs.«412831_j32925219291401_1_alg».proof.Proof.KI.Agg1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form -/

/-- The first conditional's test: the column block is the first one. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's test: the column block is the last one. -/
abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬ t.val % 5 = 4 → cfg1.idle 3 (grid1.coords t) = true :=
  (by decide +kernel : ∀ t : Fin grid1.N, ¬ t.val % 5 = 4 → idle1 3 (grid1.coords t) = true)
theorem liveAt1_3 : ∀ t : Fin cfg1.N, t.val % 5 = 4 → cfg1.idle 3 (grid1.coords t) = false :=
  (by decide +kernel : ∀ t : Fin grid1.N, t.val % 5 = 4 → idle1 3 (grid1.coords t) = false)
theorem noFlush1_3 (t : Fin cfg1.N) (h : ¬ t.val % 5 = 4) : (cfg1.win 3).flush t = false := by
  cases hf : (cfg1.win 3).flush t with
  | false => rfl
  | true => exact absurd ((flush1_3 t).mp hf) h

/-! ## What the input windows hold when the body runs -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The invariant before the first point, with the carried scratch split off -/

theorem scr_mem1 : cc1_scratch0 ∈ ((Finset.univ.filter fun b : Ref sig .tc => b.isScoped) \ Finset.univ.image (Pipeline.stageRef spec1)) := by
  decide

/-- Every scoped buffer that is no staging buffer at anything, and the generator register at some state: the
    carried scratch at anything, the other such buffers at anything, the register. -/
theorem PhiA1_eq (c : Dev nD) :
    (Pipeline.ΦA spec1 c : sProp 𝕄)
      = iprop((∃ d, owns (c : Thread nD τ) scM1 fullShare d) ∗ restNoScr1 (F := F) c ∗ (∃ r, prngReg c r)) := by
  unfold Pipeline.ΦA Pipeline.scopedRest restNoScr1
  rw [bigSep_erase scr_mem1]
  simp only [scM1, owns_whole]
  exact BI.equiv_iff.mp ⟨BI.sep_assoc, BI.sep_assoc'⟩

theorem PhiA1_split (c : Dev nD) :
    (Pipeline.ΦA spec1 c : sProp 𝕄)
      ⊣⊢ iprop((∃ d, owns (c : Thread nD τ) scM1 fullShare d) ∗ restNoScr1 (F := F) c ∗ (∃ r, prngReg c r)) :=
  BIBase.BiEntails.of_eq (PhiA1_eq c)

/-! ## The invariant, position by position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(owns (c : Thread nD τ) scM1 fullShare (accAt1 V c n hn) ∗ restNoScr1 (F := F) c ∗ (∃ r, prngReg c r)) := rfl

theorem PhiS1_pos (c : Dev nD) (n : ℕ) (h : n ≤ cfg1.N) (hz : n ≠ 0) :
    PhiS1 V c n h
      = iprop(owns (c : Thread nD τ) scM1 fullShare (accAt1 V c (n - 1) (by omega)) ∗ restNoScr1 (F := F) c ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 :=
  Idealize.SL.BI.Entails.refl _

/-- After any point the invariant gives the launch's back: the scratch's running sum is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS]
  · iexists _; iexact HS
  isplitl [HR]
  · iexact HR
  iexact Hg

theorem hout1 (c : Dev nD) : (dat1 V c).Φ (Fin.last cfg1.N) ⊢ Pipeline.ΦA spec1 c :=
  Phi_out1 V c _ (by rw [Fin.val_last]; have : cfg1.N = 25 := N_1; omega)

/-! ## The running sum, case by case -/

/-- At a first column block the sum restarts from zero. -/
theorem accAt1_first (c : Dev nD) (t : Fin cfg1.N) (h0 : t.val % 5 = 0) :
    accAt1 V c t.val t.isLt = k1_pay2 (k1_pay1 (F := F)) (iblk1 V c 0 t) (iblk1 V c 1 t) := by
  obtain ⟨n, hn⟩ := t
  cases n with
  | zero => rfl
  | succ n => exact (if_pos h0).trans rfl

/-- At any other column block the point's product is added to what the point before left. -/
theorem accAt1_next (c : Dev nD) (t : Fin cfg1.N) (h0 : ¬ t.val % 5 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0).trans rfl

/-! ## The kernel function on whole buffers, case by case -/

/-- The zero offsets of a whole-buffer rectangle of rank two. -/
theorem off2_zero : (![0, 0] : Fin 2 → Nat) = fun _ => 0 := by
  funext a; fin_cases a <;> rfl

/-- A list of stores whose last one is through the whole-buffer rectangle covers the buffer. -/
theorem covers_cons_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 1000000 in
/-- At a first column block (the first conditional taken, the second not): the scratch, found at anything, is
    zeroed and then holds the product of the two blocks added to zero; the inputs and the output window's buffer
    are left as found. -/
theorem run1_A (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond1_0 i) (hc1 : ¬cond1_1 i)
    (x0 : Vec F S2048x2048 .bf16) (x1 : Vec F S2048x256 .bf16) (x2 : Vec F S1x256 .f32)
    (xi3 : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 (k1_pay1 (F := F)) x0 x1)) -∗ K ⟨⟩))
      ⊢ wp frame (wpE (defs₀ (F := F)) Variants.none c none) E
          (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero off2_zero _ _ _),
    View.canon_cons_unit_zero (S := S2048x256) off2_zero, View.readCov_unit_zero (S := S2048x256) _ off2_zero]
  simp only [View.readAt_eq_ld, harg2.read_unread, harg3.read_unread, View.ld_unit_zero (S := S2048x2048) off2_zero,
    View.ld_unit_zero (S := S2048x256) off2_zero]

set_option maxHeartbeats 1000000 in
/-- At a column block neither first nor last (neither conditional taken): the scratch, found at `s`, then holds
    `s` plus the product of the two blocks; everything else is left as found. -/
theorem run1_B (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond1_0 i) (hc1 : ¬cond1_1 i)
    (x0 : Vec F S2048x2048 .bf16) (x1 : Vec F S2048x256 .bf16) (x2 : Vec F S1x256 .f32)
    (xi3 : Vec F S2048x256 .f32) (s : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare s
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 s x0 x1)) -∗ K ⟨⟩))
      ⊢ wp frame (wpE (defs₀ (F := F)) Variants.none c none) E
          (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero off2_zero _ _ _),
    View.canon_unit_zero (S := S2048x256) off2_zero]
  simp only [View.readAt_eq_ld, harg2.read_unread, harg3.read_unread, harg6.read_unread,
    View.ld_unit_zero (S := S2048x2048) off2_zero, View.ld_unit_zero (S := S2048x256) off2_zero]

set_option maxHeartbeats 1000000 in
/-- At a last column block (the first conditional not taken, the second taken): the scratch, found at `s`, then
    holds `s` plus the product of the two blocks, and the output window's buffer, found at anything, that sum plus
    the bias clamped below at zero. -/
theorem run1_C (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S1x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond1_0 i) (hc1 : cond1_1 i)
    (x0 : Vec F S2048x2048 .bf16) (x1 : Vec F S2048x256 .bf16) (x2 : Vec F S1x256 .f32)
    (s : Vec F S2048x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 s x0 x1) x2)
            ∗ owns (c : Thread nD τ) arg6 fullShare (k1_pay2 s x0 x1)) -∗ K ⟨⟩))
      ⊢ wp frame (wpE (defs₀ (F := F)) Variants.none c none) E
          (cc1__agg_kernel i arg2 harg2 arg3 harg3 arg4 harg4 arg5 harg5 arg6 harg6) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (covers_cons_unit_zero off2_zero _ _ _),
      View.canon_unit_zero (S := S2048x256) off2_zero, View.readCov_unit_zero (S := S2048x256) _ off2_zero]
    simp only [View.readAt_eq_ld, harg2.read_unread, harg3.read_unread, harg4.read_unread, harg6.read_unread,
      View.ld_unit_zero (S := S2048x2048) off2_zero, View.ld_unit_zero (S := S2048x256) off2_zero,
      View.ld_unit_zero (S := S1x256) off2_zero]
  iexists _; isplitr
  swap; · iexact HS
  ipureintro
  sl_unfold_words
  rw [View.read_writes_eq_canon _ _ _ (covers_cons_unit_zero off2_zero _ _ _),
    View.canon_unit_zero (S := S2048x256) off2_zero]
  simp only [View.readAt_eq_ld, harg2.read_unread, harg3.read_unread, harg6.read_unread,
    View.ld_unit_zero (S := S2048x2048) off2_zero, View.ld_unit_zero (S := S2048x256) off2_zero]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three input windows hold their blocks. The point's column block decides the case:
    at a first one the scratch restarts from zero, elsewhere it adds to what the point before left, and the
    invariant takes it back at the running sum of this point; the output window's buffer is handed back untouched
    except at a last column block, where it receives the clamped sum plus bias. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 25 := lt_of_lt_of_eq t.isLt (show cfg1.N = 25 from N_1)
  by_cases h0 : t.val % 5 = 0
  · have h1 : ¬ t.val % 5 = 4 := by omega
    rw [Dat.leavesExact_idle (dat1 V c) 3 t (idleAt1_3 t h1) (noFlush1_3 t h1)]
    rw [accAt1_first V c t h0]
    by_cases hz : t.val = 0
    · rw [PhiS1_castSucc V c t, PhiS1_zero V c _ _ hz, PhiA1_eq]
      iintro ⟨⟨HS, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt1_next V c t h0]
    rw [PhiS1_castSucc V c t, PhiS1_pos V c _ _ hz]
    by_cases h1 : t.val % 5 = 4
    · rw [show (dat1 V c).leavesExact 3 t = owns (c : Thread nD τ) (st1_3 t) fullShare ((dat1 V c).after 3 t) from by
        unfold Dat.leavesExact; rw [liveAt1_3 t h1], after1_3, accAt1_next V c t h0]
      iintro ⟨⟨HS, HR, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1)
        (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, HR, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
/-
  The second feature transform's body obligation. At a grid point the pipeline calls the kernel body on three whole
  staging buffers: the point's 2048×256 block of feature rows, the 256×128 weight matrix, and the 2048×128 output
  buffer. The body reads the two inputs, reads the output buffer once without using the value, and overwrites the whole
  output buffer with the payload of the two inputs; the inputs stay as they were. Each input's buffer holds its block
  at every point, whether the window was fetched there or not, so the buffer the body leaves is the payload of the two
  blocks: what the proof data promises.
-/
import proofs.«412831_j32925219291401_1_alg».proof.Proof.KI.Lin2Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers before the body -/

/-- The offset of a whole-buffer access is zero on both axes. -/
theorem zero_off2 : (![0, 0] : Fin 2 → Nat) = fun _ => 0 := funext fun a => by fin_cases a <;> rfl

/-- The row-block window's current buffer holds the point's block of rows at every point (it is fetched at every
    point, and the body leaves it in place). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The weight window's current buffer holds the whole weight matrix at every point: fetched at the first point, and
    at the later points its block index has not moved and the body left it in place. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-! ## The body's triple -/

/-- The one store of the body, through the whole output buffer. -/
abbrev rOut2 : Rect S2048x128 := Rect.unit (s := S2048x128) ![0, 0] S2048x128.size inb_S2048x128_S2048x128_0_0

/-- That one store covers the buffer: its rectangle is the whole shape. -/
theorem cover2_2 (p : Vec F S2048x128 .bf16) (y : S2048x128.Idx) :
    ∃ pc ∈ ([⟨rOut2, p⟩] : List (View.Piece (Elt F) S2048x128 .bf16)), y ∈ pc.1.set :=
  ⟨_, List.mem_singleton_self _, View.mem_set_unit_zero (S := S2048x128) zero_off2 inb_S2048x128_S2048x128_0_0 y⟩

set_option maxHeartbeats 1000000 in
/-- The kernel body on whole staging memrefs, the inputs' at contents `x0`, `x1` and the output's at anything, runs
    to the continuation holding the inputs' as they were and the output's at the payload of `x0` and `x1`: two loads
    of the inputs, one load of the output buffer whose value is dropped, one store of the whole output buffer. -/
theorem sound_kernel2 (c : Dev nD) (E : Set ℕ)
    (arg1 : Memref sig .tc .vmem S2048x256 .f32) (harg1 : arg1.IsWhole)
    (arg2 : Memref sig .tc .vmem S256x128 .f32) (harg2 : arg2.IsWhole)
    (arg3 : Memref sig .tc .vmem S2048x128 .bf16) (harg3 : arg3.IsWhole)
    (i : grid2.Coords) (x0 : Vec F S2048x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover2_2 _), View.canon_unit_zero zero_off2]
  simp only [View.readAt_eq_ld, View.ld_unit_zero (S := S2048x256) zero_off2, View.ld_unit_zero (S := S256x128) zero_off2]

/-! ## The body obligation, at a generic point -/

/-- What the body is called with at point `t`: the invariant, the core's debts, and the three current staging buffers,
    each at what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same invariant and debts, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, the output's holds anything, so the kernel's triple
    applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Agg3.lean ====
/-
  The second aggregation's body obligation. The kernel function is run once per control case on whole buffers:
  at a first column block the carried scratch is zeroed and receives the product of the adjacency block and the
  feature block; at a middle column block the product is added to what the scratch held; at a last column block
  the sum is added likewise and then, plus the bias and clamped below at zero, stored into the output window.
  The three runs are joined over the grid: the point's column block (the point's position modulo five) selects
  the case, the invariant hands the scratch over at the running sum the point before left and takes it back at
  this point's, and the output window is idle except at a last column block.
-/
import proofs.«412831_j32925219291401_1_alg».proof.Proof.KI.Agg3Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form -/

/-- The first conditional's test: the column block is the first one. -/
abbrev cond3_0 (i : grid3.Coords) : Prop :=
  (Scalar.cmpi .ne (Scalar.extui (Scalar.cmpi .eq (BitVec.ofNat 32 (i 1).val) 0#32)) 0#32) = 1#1

theorem hcond3_0 : ∀ t : Fin cfg3.N, cond3_0 (grid3.coords t) ↔ t.val % 5 = 0 :=
  (by decide +kernel : ∀ t : Fin grid3.N, cond3_0 (grid3.coords t) ↔ t.val % 5 = 0)

/-- The second conditional's test: the column block is the last one. -/
abbrev cond3_1 (i : grid3.Coords) : Prop := k3_cond2 i = 1#1

theorem hcond3_1 : ∀ t : Fin cfg3.N, cond3_1 (grid3.coords t) ↔ t.val % 5 = 4 :=
  (by decide +kernel : ∀ t : Fin grid3.N, cond3_1 (grid3.coords t) ↔ t.val % 5 = 4)

/-! ## Where the output window is idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem idleAt3_3 : ∀ t : Fin cfg3.N, ¬ t.val % 5 = 4 → cfg3.idle 3 (grid3.coords t) = true :=
  (by decide +kernel : ∀ t : Fin grid3.N, ¬ t.val % 5 = 4 → idle3 3 (grid3.coords t) = true)
theorem liveAt3_3 : ∀ t : Fin cfg3.N, t.val % 5 = 4 → cfg3.idle 3 (grid3.coords t) = false :=
  (by decide +kernel : ∀ t : Fin grid3.N, t.val % 5 = 4 → idle3 3 (grid3.coords t) = false)
theorem noFlush3_3 (t : Fin cfg3.N) (h : ¬ t.val % 5 = 4) : (cfg3.win 3).flush t = false := by
  cases hf : (cfg3.win 3).flush t with
  | false => rfl
  | true => exact absurd ((flush3_3 t).mp hf) h

/-! ## What the input windows hold when the body runs -/

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The invariant before the first point, with the carried scratch split off -/

theorem scr_mem3 : cc3_scratch0 ∈ ((Finset.univ.filter fun b : Ref sig .tc => b.isScoped) \ Finset.univ.image (Pipeline.stageRef spec3)) := by
  decide

/-- Every scoped buffer that is no staging buffer at anything, and the generator register at some state: the
    carried scratch at anything, the other such buffers at anything, the register. -/
theorem PhiA3_eq (c : Dev nD) :
    (Pipeline.ΦA spec3 c : sProp 𝕄)
      = iprop((∃ d, owns (c : Thread nD τ) scM3 fullShare d) ∗ restNoScr3 (F := F) c ∗ (∃ r, prngReg c r)) := by
  unfold Pipeline.ΦA Pipeline.scopedRest restNoScr3
  rw [bigSep_erase scr_mem3]
  simp only [scM3, owns_whole]
  exact BI.equiv_iff.mp ⟨BI.sep_assoc, BI.sep_assoc'⟩

theorem PhiA3_split (c : Dev nD) :
    (Pipeline.ΦA spec3 c : sProp 𝕄)
      ⊣⊢ iprop((∃ d, owns (c : Thread nD τ) scM3 fullShare d) ∗ restNoScr3 (F := F) c ∗ (∃ r, prngReg c r)) :=
  BIBase.BiEntails.of_eq (PhiA3_eq c)

/-! ## The invariant, position by position -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn
      = iprop(owns (c : Thread nD τ) scM3 fullShare (accAt3 V c n hn) ∗ restNoScr3 (F := F) c ∗ (∃ r, prngReg c r)) := rfl

theorem PhiS3_pos (c : Dev nD) (n : ℕ) (h : n ≤ cfg3.N) (hz : n ≠ 0) :
    PhiS3 V c n h
      = iprop(owns (c : Thread nD τ) scM3 fullShare (accAt3 V c (n - 1) (by omega)) ∗ restNoScr3 (F := F) c ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-- What the launch hands the region is the invariant before the first point. -/
theorem hin3 (c : Dev nD) : Pipeline.ΦA spec3 c ⊢ (dat3 V c).Φ 0 :=
  Idealize.SL.BI.Entails.refl _

/-- After any point the invariant gives the launch's back: the scratch's running sum is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS, HR, Hg⟩
  isplitl [HS]
  · iexists _; iexact HS
  isplitl [HR]
  · iexact HR
  iexact Hg

theorem hout3 (c : Dev nD) : (dat3 V c).Φ (Fin.last cfg3.N) ⊢ Pipeline.ΦA spec3 c :=
  Phi_out3 V c _ (by rw [Fin.val_last]; have : cfg3.N = 25 := N_3; omega)

/-! ## The running sum, case by case -/

/-- At a first column block the sum restarts from zero. -/
theorem accAt3_first (c : Dev nD) (t : Fin cfg3.N) (h0 : t.val % 5 = 0) :
    accAt3 V c t.val t.isLt = k3_pay2 (k3_pay1 (F := F)) (iblk3 V c 0 t) (iblk3 V c 1 t) := by
  obtain ⟨n, hn⟩ := t
  cases n with
  | zero => rfl
  | succ n => exact (if_pos h0).trans rfl

/-- At any other column block the point's product is added to what the point before left. -/
theorem accAt3_next (c : Dev nD) (t : Fin cfg3.N) (h0 : ¬ t.val % 5 = 0) :
    accAt3 V c t.val t.isLt
      = k3_pay2 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact (if_neg h0).trans rfl

/-! ## The kernel function on whole buffers, case by case -/

/-- The zero offsets of a whole-buffer rectangle of rank two. -/
theorem off2_zero3 : (![0, 0] : Fin 2 → Nat) = fun _ => 0 := by
  funext a; fin_cases a <;> rfl

/-- A list of stores whose last one is through the whole-buffer rectangle covers the buffer. -/
theorem covers_cons_unit_zero3 {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 1000000 in
/-- At a first column block (the first conditional taken, the second not): the scratch, found at anything, is
    zeroed and then holds the product of the two blocks added to zero; the inputs and the output window's buffer
    are left as found. -/
theorem run3_A (c : Dev nD) (i : grid3.Coords)
    (arg2 : Memref sig .tc .vmem S2048x2048 .bf16) (harg2 : arg2.IsWhole)
    (arg3 : Memref sig .tc .vmem S2048x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond3_0 i) (hc1 : ¬cond3_1 i)
    (x0 : Vec F S2048x2048 .bf16) (x1 : Vec F S2048x128 .bf16) (x2 : Vec F S1x128 .f32)
    (xi3 : Vec F S2048x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k3_pay2 (k3_pay1 (F := F)) x0 x1)) -∗ K ⟨⟩))
      ⊢ wp frame (wpE (defs₀ (F := F)) Variants.none c none) E
          (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero3 off2_zero3 _ _ _),
    View.canon_cons_unit_zero (S := S2048x128) off2_zero3, View.readCov_unit_zero (S := S2048x128) _ off2_zero3]
  simp only [View.readAt_eq_ld, harg2.read_unread, harg3.read_unread, View.ld_unit_zero (S := S2048x2048) off2_zero3,
    View.ld_unit_zero (S := S2048x128) off2_zero3]

set_option maxHeartbeats 1000000 in
/-- At a column block neither first nor last (neither conditional taken): the scratch, found at `s`, then holds
    `s` plus the product of the two blocks; everything else is left as found. -/
theorem run3_B (c : Dev nD) (i : grid3.Coords)
    (arg2 : Memref sig .tc .vmem S2048x2048 .bf16) (harg2 : arg2.IsWhole)
    (arg3 : Memref sig .tc .vmem S2048x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : ¬cond3_1 i)
    (x0 : Vec F S2048x2048 .bf16) (x1 : Vec F S2048x128 .bf16) (x2 : Vec F S1x128 .f32)
    (xi3 : Vec F S2048x128 .f32) (s : Vec F S2048x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare s
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k3_pay2 s x0 x1)) -∗ K ⟨⟩))
      ⊢ wp frame (wpE (defs₀ (F := F)) Variants.none c none) E
          (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1
  obtain rfl := harg4.eq_unread hf2; obtain rfl := harg5.eq_unread hf3
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (covers_cons_unit_zero3 off2_zero3 _ _ _),
    View.canon_unit_zero (S := S2048x128) off2_zero3]
  simp only [View.readAt_eq_ld, harg2.read_unread, harg3.read_unread, harg6.read_unread,
    View.ld_unit_zero (S := S2048x2048) off2_zero3, View.ld_unit_zero (S := S2048x128) off2_zero3]

set_option maxHeartbeats 1000000 in
/-- At a last column block (the first conditional not taken, the second taken): the scratch, found at `s`, then
    holds `s` plus the product of the two blocks, and the output window's buffer, found at anything, that sum plus
    the bias clamped below at zero. -/
theorem run3_C (c : Dev nD) (i : grid3.Coords)
    (arg2 : Memref sig .tc .vmem S2048x2048 .bf16) (harg2 : arg2.IsWhole)
    (arg3 : Memref sig .tc .vmem S2048x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬cond3_0 i) (hc1 : cond3_1 i)
    (x0 : Vec F S2048x2048 .bf16) (x1 : Vec F S2048x128 .bf16) (x2 : Vec F S1x128 .f32)
    (s : Vec F S2048x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare x2
            ∗ owns (c : Thread nD τ) arg5 fullShare (k3_pay3 (k3_pay2 s x0 x1) x2)
            ∗ owns (c : Thread nD τ) arg6 fullShare (k3_pay2 s x0 x1)) -∗ K ⟨⟩))
      ⊢ wp frame (wpE (defs₀ (F := F)) Variants.none c none) E
          (cc3__agg_kernel i arg2 harg2 arg3 harg3 arg4 harg4 arg5 harg5 arg6 harg6) K := by
  simp only [cc3__agg_kernel_eq_skeleton]; unfold cc3__agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1
  obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (covers_cons_unit_zero3 off2_zero3 _ _ _),
      View.canon_unit_zero (S := S2048x128) off2_zero3, View.readCov_unit_zero (S := S2048x128) _ off2_zero3]
    simp only [View.readAt_eq_ld, harg2.read_unread, harg3.read_unread, harg4.read_unread, harg6.read_unread,
      View.ld_unit_zero (S := S2048x2048) off2_zero3, View.ld_unit_zero (S := S2048x128) off2_zero3,
      View.ld_unit_zero (S := S1x128) off2_zero3]
  iexists _; isplitr
  swap; · iexact HS
  ipureintro
  sl_unfold_words
  rw [View.read_writes_eq_canon _ _ _ (covers_cons_unit_zero3 off2_zero3 _ _ _),
    View.canon_unit_zero (S := S2048x128) off2_zero3]
  simp only [View.readAt_eq_ld, harg2.read_unread, harg3.read_unread, harg6.read_unread,
    View.ld_unit_zero (S := S2048x2048) off2_zero3, View.ld_unit_zero (S := S2048x128) off2_zero3]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The three input windows hold their blocks. The point's column block decides the case:
    at a first one the scratch restarts from zero, elsewhere it adds to what the point before left, and the
    invariant takes it back at the running sum of this point; the output window's buffer is handed back untouched
    except at a last column block, where it receives the clamped sum plus bias. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 25 := lt_of_lt_of_eq t.isLt (show cfg3.N = 25 from N_3)
  by_cases h0 : t.val % 5 = 0
  · have h1 : ¬ t.val % 5 = 4 := by omega
    rw [Dat.leavesExact_idle (dat3 V c) 3 t (idleAt3_3 t h1) (noFlush3_3 t h1)]
    rw [accAt3_first V c t h0]
    by_cases hz : t.val = 0
    · rw [PhiS3_castSucc V c t, PhiS3_zero V c _ _ hz, PhiA3_eq]
      iintro ⟨⟨HS, HR, Hg⟩, Ho, ⟨%d0, H0⟩, ⟨%d1, H1⟩, ⟨%d2, H2⟩, ⟨%d3, H3⟩⟩
      iapply (run3_A c (grid3.coords t) _ _ _ _ _ _ _ _ _ _ ((hcond3_0 t).mpr h0) (fun h => h1 ((hcond3_1 t).mp h))
        (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨HS, HR, Hg⟩, Ho, ⟨%d0, H0⟩, ⟨%d1, H1⟩, ⟨%d2, H2⟩, ⟨%d3, H3⟩⟩
      iapply (run3_A c (grid3.coords t) _ _ _ _ _ _ _ _ _ _ ((hcond3_0 t).mpr h0) (fun h => h1 ((hcond3_1 t).mp h))
        (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt3_next V c t h0]
    rw [PhiS3_castSucc V c t, PhiS3_pos V c _ _ hz]
    by_cases h1 : t.val % 5 = 4
    · rw [show (dat3 V c).leavesExact 3 t = owns (c : Thread nD τ) (st3_3 t) fullShare ((dat3 V c).after 3 t) from by
        unfold Dat.leavesExact; rw [liveAt3_3 t h1], after3_3, accAt3_next V c t h0]
      iintro ⟨⟨HS, HR, Hg⟩, Ho, ⟨%d0, H0⟩, ⟨%d1, H1⟩, ⟨%d2, H2⟩, ⟨%d3, H3⟩⟩
      iapply (run3_C c (grid3.coords t) _ _ _ _ _ _ _ _ _ _ (fun h => h0 ((hcond3_0 t).mp h)) ((hcond3_1 t).mpr h1)
        (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t h1) (noFlush3_3 t h1)]
      iintro ⟨⟨HS, HR, Hg⟩, Ho, ⟨%d0, H0⟩, ⟨%d1, H1⟩, ⟨%d2, H2⟩, ⟨%d3, H3⟩⟩
      iapply (run3_B c (grid3.coords t) _ _ _ _ _ _ _ _ _ _ (fun h => h0 ((hcond3_0 t).mp h)) (fun h => h1 ((hcond3_1 t).mp h))
        (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region's proof data, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KI.Lin0Val.lean ====
/-
  The first feature transform's output array, read at an index, at the ideal values.

  At a grid point the body leaves in the output buffer the payload of the point's 2048×128 block of feature rows and of
  the 128×256 weight matrix. On the extended reals a change of float format is the identity, so the payload at (p, q) is
  the matrix product into the zero accumulator: the sum over k of block (p, k) times weight (k, q). Point t's block of
  rows is rows 2048·t … 2048·t + 2047 of the feature array, and the point writes its result back to the same rows of
  the output array; the five points' row blocks cover the 10240 rows. So the output array ends holding, at (i, j), the
  sum over k of feature (i, k) times weight (k, j).
-/
import proofs.«412831_j32925219291401_1_alg».proof.Proof.KI.Lin0Defs
import proofs.«412831_j32925219291401_1_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window cellOf)

-- the TensorCore's buffer contents when the region is entered, at the ideal values
variable (V : (c : Dev nD) → (b : Ref sig .tc) → Buf (Elt Ideal) ((c : Thread nD τ).loc b))

/-! ## The payload at an index -/

/-- The body's payload at (p, q): the row p of the first operand times the column q of the second. The two roundings
    to the narrow format and the rounding of the product are the identity on the extended reals, the reshape to the
    same shape is the identity, and the matrix product into the zero accumulator is the plain sum of products. -/
theorem lin0_pay_apply (x0 : Vec Ideal S2048x128 .f32) (x1 : Vec Ideal S128x256 .f32) (p : Fin 2048) (q : Fin 256) :
    (k0_pay1 x0 x1 : S2048x256.Idx → EReal) (ix2 p q)
      = ∑ k : Fin 128, (x0 : S2048x128.Idx → EReal) (ix2 p k) * (x1 : S128x256.Idx → EReal) (ix2 k q) := by
  unfold k0_pay1
  refine (Cert.LibPlainDot.matmul_zero_apply dot_S2048x128_S128x256_S2048x256_1_0_0_1_n_n rfl none
    (truncf .bf16 (shapeCast S2048x128 x0 shapeCasts_S2048x128_S2048x128) bitsLt_bf16_f32)
    (truncf .bf16 x1 bitsLt_bf16_f32) p q).trans ?_
  refine Finset.sum_congr rfl fun k _ => ?_
  refine congrArg (· * (x1 : S128x256.Idx → EReal) (ix2 k q)) ?_
  exact congrFun (shapeCast_self x0 shapeCasts_S2048x128_S2048x128) (ix2 p k)

/-- The payload of two blocks at an index of the output block, when the first block's row there is row `r` of an
    array `X` and the second block's column there is column `col` of an array `W`: row `r` of `X` times column
    `col` of `W`. -/
theorem lin0_pay_rows (x0 : Vec Ideal S2048x128 .f32) (x1 : Vec Ideal S128x256 .f32)
    (X : S10240x128.Idx → EReal) (W : S128x256.Idx → EReal) (y : S2048x256.Idx) (r : Fin 10240) (col : Fin 256)
    (h0 : ∀ k : Fin 128, (x0 : S2048x128.Idx → EReal) (ix2 (y 0) k) = X (ix2 r k))
    (h1 : ∀ k : Fin 128, (x1 : S128x256.Idx → EReal) (ix2 k (y 1)) = W (ix2 k col)) :
    (k0_pay1 x0 x1 : S2048x256.Idx → EReal) y = ∑ k : Fin 128, X (ix2 r k) * W (ix2 k col) := by
  obtain ⟨p, q, rfl⟩ : ∃ (p : Fin 2048) (q : Fin 256), y = ix2 p q := ⟨y 0, y 1, eq_ix2 y⟩
  rw [lin0_pay_apply]
  refine Finset.sum_congr rfl fun k _ => ?_
  have h0' : (x0 : S2048x128.Idx → EReal) (ix2 p k) = X (ix2 r k) := h0 k
  have h1' : (x1 : S128x256.Idx → EReal) (ix2 k q) = W (ix2 k col) := h1 k
  rw [h0', h1']

/-! ## From blocks to the array -/

/-- The feature array as the region finds it, as a function on its literal index type. -/
abbrev lin0X (c : Dev nD) : S10240x128.Idx → EReal := V c main_v46
/-- The weight matrix as the region finds it. -/
abbrev lin0W (c : Dev nD) : S128x256.Idx → EReal := V c main_arg2

/-- The product of the feature array and the weight matrix as the region finds them, index by index. -/
def lin0G (c : Dev nD) : S10240x256.Idx → EReal := fun idx =>
  ∑ k : Fin 128, lin0X V c (ix2 (idx 0) k) * lin0W V c (ix2 k (idx 1))

/-- The block indices at a point: the feature window and the output window are at row block `t`, column block 0;
    the weight window is at block (0, 0). -/
theorem lin0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product array. -/
theorem lin0_flushed (c : Dev nD) (t : Fin cfg0.N) :
    (dat0 V c).flushed 2 t = ((cfg0.win 2).blk t).view.read (Elt Ideal) (lin0G V c) := by
  show (cfg0.win 2).cut (grid0.coords t) ((dat0 V c).after 2 t) = _
  rw [after0_2]
  obtain ⟨e0, e1, e2, e3, e4, e5⟩ := lin0_index t
  funext y
  show (k0_pay1 (iblk0 V c 0 t) (iblk0 V c 1 t) : S2048x256.Idx → EReal) y
    = ∑ k : Fin 128, lin0X V c (ix2 ((((cfg0.win 2).blk t).view.emb y) 0) k)
        * lin0W V c (ix2 k ((((cfg0.win 2).blk t).view.emb y) 1))
  refine lin0_pay_rows (iblk0 V c 0 t) (iblk0 V c 1 t) (lin0X V c) (lin0W V c) y
    ((((cfg0.win 2).blk t).view.emb y) 0) ((((cfg0.win 2).blk t).view.emb y) 1) (fun k => ?_) (fun k => ?_)
  · -- the feature block's row: the same row block as the output's, all 128 columns
    show lin0X V c (((cfg0.win 0).blk t).view.emb (ix2 (y 0) k)) = _
    refine congrArg (lin0X V c) ?_
    funext a; apply Fin.ext
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 128 + 1 * k.val = k.val; omega
  · -- the weight block is the whole matrix; the output block spans all 256 columns
    show lin0W V c (((cfg0.win 1).blk t).view.emb (ix2 k (y 1))) = _
    refine congrArg (lin0W V c) ?_
    funext a; apply Fin.ext
    match a with
    | ⟨0, _⟩ => show win0_1.index t (0 : Fin 2) * 128 + 1 * k.val = k.val; omega
    | ⟨1, _⟩ => show win0_1.index t (1 : Fin 2) * 256 + 1 * (y 1).val = win0_2.index t (1 : Fin 2) * 256 + 1 * (y 1).val; omega

/-- An index of the output array is in point `t`'s block iff each coordinate is in the block's range on its axis. -/
theorem lin0_mem_blk (t : Fin cfg0.N) (i : S10240x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v47).slice (win0_2.rect t)).set ↔ _
  rw [View.set_slice_whole, Rect.mem_set_unit]
  exact Iff.rfl

/-- Every index of the output array is in some point's block: row `r` is in the block of point `r / 2048`. -/
theorem lin0_cover (i : S10240x256.Idx) :
    ∃ t : Fin cfg0.N, (cfg0.win 2).flush t = true ∧ i ∈ ((cfg0.win 2).blk t).view.set := by
  have hi0 : (i 0).val < 10240 := (i 0).isLt
  have hi1 : (i 1).val < 256 := (i 1).isLt
  have hlt : (i 0).val / 2048 < cfg0.N := by show _ < grid0.N; rw [N_0]; omega
  obtain ⟨-, -, -, -, e4, e5⟩ := lin0_index ⟨(i 0).val / 2048, hlt⟩
  have e4' : win0_2.index ⟨(i 0).val / 2048, hlt⟩ (0 : Fin 2) = (i 0).val / 2048 := e4
  refine ⟨⟨(i 0).val / 2048, hlt⟩, flush0_2 _, ?_⟩
  rw [lin0_mem_blk]
  intro a
  match a with
  | ⟨0, _⟩ => show win0_2.index ⟨(i 0).val / 2048, hlt⟩ (0 : Fin 2) * 2048 ≤ (i 0).val ∧ (i 0).val < win0_2.index ⟨(i 0).val / 2048, hlt⟩ (0 : Fin 2) * 2048 + 2048; omega
  | ⟨1, _⟩ => show win0_2.index ⟨(i 0).val / 2048, hlt⟩ (1 : Fin 2) * 256 ≤ (i 1).val ∧ (i 1).val < win0_2.index ⟨(i 0).val / 2048, hlt⟩ (1 : Fin 2) * 256 + 256; omega

/-- So the output array ends holding the product array. -/
theorem lin0_arr (c : Dev nD) : (dat0 V c).arrAt 2 cfg0.N = lin0G V c :=
  (dat0 V c).arrAt_eq_of_cover 2 (lin0G V c) (fun t _ => lin0_flushed V c t) lin0_cover

/-- The output array after the region, at (i, j): row i of the feature array times column j of the weight matrix. -/
theorem lin0_final (c : Dev nD) (i : Fin 10240) (j : Fin 256) :
    ((dat0 V c).arrAt 2 cfg0.N : S10240x256.Idx → EReal) (ix2 i j)
      = ∑ k : Fin 128, lin0X V c (ix2 i k) * lin0W V c (ix2 k j) := by
  rw [lin0_arr]
  rfl

end Cert.KernelIdeal.Hand

end
-- ==== Proof.KI.Agg1Val.lean ====
/-
  The first aggregation, read as a value. The region multiplies the adjacency matrix (10240 × 10240) by the transformed
  features (10240 × 256), adds the bias row to every row and clamps below at zero. It does so block by block: the grid
  point `t = 5 r + k` takes rows `2048 r ..` and columns `2048 k ..` of the adjacency matrix against rows `2048 k ..` of
  the features, and adds the product to a running sum that restarts at `k = 0`; at `k = 4` the running sum plus bias,
  clamped, is stored as rows `2048 r ..` of the output.

  Read at an entry over the extended reals: one step adds `∑ s < 2048, A (2048 r + p, 2048 k + s) * H (2048 k + s, f)`
  to entry `(p, f)`; by induction on the point the running sum after `t` is the sum of these over the column blocks up
  to `k`; the five blocks' sums together are the sum over all 10240 columns, each column lying in exactly one block;
  and every output row `d` is stored by the point `5 (d / 2048) + 4`. Hence entry `(d, f)` of the output is
  `max (∑ s, A (d, s) * H (s, f) + b (0, f)) 0`.
-/
import proofs.«412831_j32925219291401_1_alg».proof.Proof.KI.Agg1Defs
import proofs.«412831_j32925219291401_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)
open scoped BigOperators

/-- The reset value read at an entry: zero. -/
theorem pay1_apply (p : Fin 2048) (f : Fin 256) : k1_pay1 (F := Ideal) (ix2 p f) = 0 := by
  unfold k1_pay1
  rw [shapeCast_self]
  exact Ideal.ofBits_zero_f32

/-- One step of the running sum read at an entry: the old entry plus the row of the left block against the column
    of the right block. -/
theorem pay2_apply (acc : Vec Ideal S2048x256 .f32) (a : Vec Ideal S2048x2048 .bf16) (h : Vec Ideal S2048x256 .bf16)
    (p : Fin 2048) (f : Fin 256) :
    k1_pay2 acc a h (ix2 p f) = acc (ix2 p f) + ∑ s : Fin 2048, a (ix2 p s) * h (ix2 s f) := by
  unfold k1_pay2
  rw [shapeCast_self, shapeCast_self, shapeCast_self]
  refine (addf_apply _ _ _).trans ?_
  exact congrArg (acc (ix2 p f) + ·)
    (Cert.LibPlainDot.matmul_zero_apply dot_S2048x2048_S2048x256_S2048x256_1_0_0_1_n_n rfl none a h p f)

/-- The stored value read at an entry: the sum plus the bias of its column, clamped below at zero. -/
theorem pay3_apply (s : Vec Ideal S2048x256 .f32) (b : Vec Ideal S1x256 .f32) (p : Fin 2048) (f : Fin 256) :
    k1_pay3 s b (ix2 p f) = max (s (ix2 p f) + b (ix2 (0 : Fin 1) f)) 0 := by
  unfold k1_pay3
  rw [shapeCast_self]
  refine (maximumf_apply _ _ _).trans ?_
  refine congrArg₂ max ?_ Ideal.ofBits_zero_f32
  refine (addf_apply _ _ _).trans ?_
  exact congrArg (s (ix2 p f) + ·) (broadcastTo_1b_ab_apply b broadcasts_S1x256_S2048x256 p f)

-- the TensorCore's buffer contents when the region is entered
variable (V : (c : Dev nD) → (b : Ref sig .tc) → Buf (Elt Ideal) ((c : Thread nD τ).loc b))

/-! ## The arrays and the blocks at their literal types -/

/-- The adjacency matrix, the transformed features and the bias as the region finds them. -/
abbrev Aarr (c : Dev nD) : Vec Ideal S10240x10240 .bf16 := V c main_v45
abbrev Harr (c : Dev nD) : Vec Ideal S10240x256 .bf16 := V c main_v47
abbrev barr (c : Dev nD) : Vec Ideal S1x256 .f32 := V c main_v48

/-- The three input blocks of point `t`. -/
abbrev ablk (c : Dev nD) (t : Fin cfg1.N) : Vec Ideal S2048x2048 .bf16 := iblk1 V c 0 t
abbrev hblk (c : Dev nD) (t : Fin cfg1.N) : Vec Ideal S2048x256 .bf16 := iblk1 V c 1 t
abbrev bblk (c : Dev nD) (t : Fin cfg1.N) : Vec Ideal S1x256 .f32 := iblk1 V c 2 t

/-- Entry `(i, j)` of the adjacency matrix for natural coordinates (zero outside the matrix). -/
def Aat (c : Dev nD) (i j : ℕ) : EReal :=
  if h : i < 10240 ∧ j < 10240 then Aarr V c (ix2 ⟨i, h.1⟩ ⟨j, h.2⟩) else 0

/-- Entry `(i, f)` of the transformed features for a natural row (zero outside). -/
def Hat (c : Dev nD) (i : ℕ) (f : Fin 256) : EReal :=
  if h : i < 10240 then Harr V c (ix2 ⟨i, h⟩ f) else 0

/-! ## Where the blocks lie: point `t` is row block `t / 5`, column block `t % 5` -/

theorem idx1 : ∀ t : Fin cfg1.N,
    win1_0.index t 0 = t.val / 5 ∧ win1_0.index t 1 = t.val % 5 ∧
    win1_1.index t 0 = t.val % 5 ∧ win1_1.index t 1 = 0 ∧
    win1_2.index t 0 = 0 ∧ win1_2.index t 1 = 0 ∧
    win1_3.index t 0 = t.val / 5 ∧ win1_3.index t 1 = 0 :=
  (by decide +kernel : ∀ t : Fin grid1.N, _)

theorem N1 : cfg1.N = 25 := N_1

/-- The adjacency block of point `t` holds rows `2048 (t / 5) + p`, columns `2048 (t % 5) + s`. -/
theorem ablk_apply (c : Dev nD) (t : Fin cfg1.N) (p s : Fin 2048) :
    ablk V c t (ix2 p s) = Aat V c (2048 * (t.val / 5) + p.val) (2048 * (t.val % 5) + s.val) := by
  have ht : t.val < 25 := N1 ▸ t.isLt
  have hi := idx1 t
  unfold Aat
  rw [dif_pos ⟨by omega, by omega⟩]
  unfold ablk iblk1
  rw [View.read_apply]
  show V c main_v45 _ = V c main_v45 _
  congr 1
  funext a
  apply Fin.ext
  match a with
  | ⟨0, _⟩ => show win1_0.index t 0 * 2048 + 1 * p.val = 2048 * (t.val / 5) + p.val; rw [hi.1]; omega
  | ⟨1, _⟩ => show win1_0.index t 1 * 2048 + 1 * s.val = 2048 * (t.val % 5) + s.val; rw [hi.2.1]; omega

/-- The feature block of point `t` holds rows `2048 (t % 5) + s`. -/
theorem hblk_apply (c : Dev nD) (t : Fin cfg1.N) (s : Fin 2048) (f : Fin 256) :
    hblk V c t (ix2 s f) = Hat V c (2048 * (t.val % 5) + s.val) f := by
  have ht : t.val < 25 := N1 ▸ t.isLt
  have hi := idx1 t
  unfold Hat
  rw [dif_pos (by omega)]
  unfold hblk iblk1
  rw [View.read_apply]
  show V c main_v47 _ = V c main_v47 _
  congr 1
  funext a
  apply Fin.ext
  match a with
  | ⟨0, _⟩ => show win1_1.index t 0 * 2048 + 1 * s.val = 2048 * (t.val % 5) + s.val; rw [hi.2.2.1]; omega
  | ⟨1, _⟩ => show win1_1.index t 1 * 256 + 1 * f.val = f.val; rw [hi.2.2.2.1]; omega

/-- The bias block is the whole bias at every point. -/
theorem bblk_apply (c : Dev nD) (t : Fin cfg1.N) (q : Fin 1) (f : Fin 256) :
    bblk V c t (ix2 q f) = barr V c (ix2 q f) := by
  have hi := idx1 t
  unfold bblk iblk1
  rw [View.read_apply]
  show V c main_v48 _ = V c main_v48 _
  congr 1
  funext a
  apply Fin.ext
  match a with
  | ⟨0, _⟩ => show win1_2.index t 0 * 1 + 1 * q.val = q.val; rw [hi.2.2.2.2.1]; omega
  | ⟨1, _⟩ => show win1_2.index t 1 * 256 + 1 * f.val = f.val; rw [hi.2.2.2.2.2.1]; omega

/-! ## The running sum -/

/-- At a first column block the running sum starts from zero. -/
theorem accAt1_reset (c : Dev nD) (n : ℕ) (hn : n < cfg1.N) (h0 : n % 5 = 0) :
    accAt1 V c n hn = k1_pay2 (k1_pay1 (F := Ideal)) (iblk1 V c 0 ⟨n, hn⟩) (iblk1 V c 1 ⟨n, hn⟩) := by
  cases n with
  | zero => rfl
  | succ m => unfold accAt1; rw [if_pos h0]

/-- At a later column block it adds to what the point before left. -/
theorem accAt1_step (c : Dev nD) (n : ℕ) (hn : n + 1 < cfg1.N) (h0 : ¬(n + 1) % 5 = 0) :
    accAt1 V c (n + 1) hn
      = k1_pay2 (accAt1 V c n (Nat.lt_of_succ_lt hn)) (iblk1 V c 0 ⟨n + 1, hn⟩) (iblk1 V c 1 ⟨n + 1, hn⟩) := by
  rw [accAt1, if_neg h0]

/-- The contribution of column block `j` to entry `(p, f)` of row block `r`. -/
def term1 (c : Dev nD) (r : ℕ) (p : Fin 2048) (f : Fin 256) (j : ℕ) : EReal :=
  ∑ s : Fin 2048, Aat V c (2048 * r + p.val) (2048 * j + s.val) * Hat V c (2048 * j + s.val) f

/-- One step of the running sum at point `t`, read at an entry. -/
theorem step_apply (c : Dev nD) (t : Fin cfg1.N) (acc : Vec Ideal S2048x256 .f32) (p : Fin 2048) (f : Fin 256) :
    k1_pay2 acc (ablk V c t) (hblk V c t) (ix2 p f) = acc (ix2 p f) + term1 V c (t.val / 5) p f (t.val % 5) := by
  rw [pay2_apply]
  unfold term1
  refine congrArg (acc (ix2 p f) + ·) (Finset.sum_congr rfl fun s _ => ?_)
  rw [ablk_apply, hblk_apply]

/-- After point `n` the running sum holds, at entry `(p, f)`, the contributions of the column blocks up to
    `n % 5` of row block `n / 5`. -/
theorem acc_eq (c : Dev nD) : ∀ (n : ℕ) (hn : n < cfg1.N) (p : Fin 2048) (f : Fin 256),
    accAt1 V c n hn (ix2 p f) = ∑ j ∈ Finset.range (n % 5 + 1), term1 V c (n / 5) p f j
  | 0, hn, p, f => by
    rw [accAt1_reset V c 0 hn rfl]
    refine (step_apply V c ⟨0, hn⟩ (k1_pay1 (F := Ideal)) p f).trans ?_
    rw [pay1_apply, zero_add]
    show term1 V c (0 / 5) p f (0 % 5) = _
    rw [Finset.sum_range_one]
  | n + 1, hn, p, f => by
    by_cases h0 : (n + 1) % 5 = 0
    · rw [accAt1_reset V c (n + 1) hn h0]
      refine (step_apply V c ⟨n + 1, hn⟩ (k1_pay1 (F := Ideal)) p f).trans ?_
      rw [pay1_apply, zero_add]
      show term1 V c ((n + 1) / 5) p f ((n + 1) % 5) = _
      rw [h0, Finset.sum_range_one]
    · rw [accAt1_step V c n hn h0]
      refine (step_apply V c ⟨n + 1, hn⟩ (accAt1 V c n (Nat.lt_of_succ_lt hn)) p f).trans ?_
      rw [acc_eq c n (Nat.lt_of_succ_lt hn) p f]
      show _ + term1 V c ((n + 1) / 5) p f ((n + 1) % 5) = _
      have e1 : (n + 1) / 5 = n / 5 := by omega
      have e2 : (n + 1) % 5 = n % 5 + 1 := by omega
      rw [e1, e2, Finset.sum_range_succ (fun j => term1 V c (n / 5) p f j) (n % 5 + 1)]

/-! ## The five column blocks together -/

/-- Summing the contributions of all five column blocks is summing over the whole row of the adjacency matrix:
    column `2048 j + s` is met once, in block `j`. -/
theorem sum_blocks (c : Dev nD) (r : ℕ) (hr : r < 5) (p : Fin 2048) (f : Fin 256) :
    ∑ j ∈ Finset.range 5, term1 V c r p f j
      = ∑ s : Fin 10240, Aarr V c (ix2 ⟨2048 * r + p.val, by omega⟩ s) * Harr V c (ix2 s f) := by
  have key : ∀ s : Fin 10240, Aarr V c (ix2 ⟨2048 * r + p.val, by omega⟩ s) * Harr V c (ix2 s f)
      = Aat V c (2048 * r + p.val) s.val * Hat V c s.val f := fun s => by
    unfold Aat Hat
    rw [dif_pos ⟨by omega, s.isLt⟩, dif_pos s.isLt]
  rw [Finset.sum_congr rfl fun s _ => key s, Finset.sum_range]
  unfold term1
  rw [← Fintype.sum_prod_type' (fun (j : Fin 5) (s : Fin 2048) =>
    Aat V c (2048 * r + p.val) (2048 * j.val + s.val) * Hat V c (2048 * j.val + s.val) f)]
  refine (Finset.sum_congr rfl fun x _ => ?_).trans
    (Equiv.sum_comp (finProdFinEquiv (m := 5) (n := 2048))
      (fun s : Fin 10240 => Aat V c (2048 * r + p.val) s.val * Hat V c s.val f))
  show _ = Aat V c (2048 * r + p.val) (x.2.val + 2048 * x.1.val) * Hat V c (x.2.val + 2048 * x.1.val) f
  rw [Nat.add_comm (2048 * x.1.val) x.2.val]

/-! ## From the blocks to the array -/

/-- What the region leaves in the output array: each row of the adjacency matrix against each feature column, plus
    the bias of the column, clamped below at zero. -/
def out1 (c : Dev nD) : Vec Ideal S10240x256 .f32 := fun i =>
  max ((∑ s : Fin 10240, Aarr V c (ix2 (i 0) s) * Harr V c (ix2 s (i 1))) + barr V c (ix2 (0 : Fin 1) (i 1))) 0

/-- At a last column block the stored block's entry `j` is the output's entry in row `2048 (t / 5) + j₀`. -/
theorem flushed_entry (c : Dev nD) (t : Fin cfg1.N) (h4 : t.val % 5 = 4) (j : S2048x256.Idx) (i : S10240x256.Idx)
    (hi0 : (i 0).val = 2048 * (t.val / 5) + (j 0).val) (hi1 : (i 1).val = (j 1).val) :
    k1_pay3 (accAt1 V c t.val t.isLt) (bblk V c t) j = out1 V c i := by
  have ht : t.val < 25 := N1 ▸ t.isLt
  have hr : t.val / 5 < 5 := by omega
  obtain ⟨p, f, rfl⟩ : ∃ (p : Fin 2048) (f : Fin 256), j = ix2 p f := ⟨j 0, j 1, eq_ix2 j⟩
  have hb : 2048 * (t.val / 5) + p.val < 10240 := by omega
  obtain ⟨d, g, rfl⟩ : ∃ (d : Fin 10240) (g : Fin 256), i = ix2 d g := ⟨i 0, i 1, eq_ix2 i⟩
  obtain rfl : d = ⟨2048 * (t.val / 5) + p.val, hb⟩ := Fin.ext hi0
  obtain rfl : g = f := Fin.ext hi1
  rw [pay3_apply, acc_eq, h4, sum_blocks V c (t.val / 5) hr p g, bblk_apply]
  rfl

/-- What a last column block writes back is its block of the output. -/
theorem flushed1_eq (c : Dev nD) (t : Fin cfg1.N) (hf : (cfg1.win 3).flush t = true) :
    (dat1 V c).flushed 3 t = ((cfg1.win 3).blk t).view.read (Elt Ideal) (out1 V c) := by
  have h4 : t.val % 5 = 4 := (flush1_3 t).mp hf
  obtain ⟨-, -, -, -, -, -, e0, e1⟩ := idx1 t
  show (cfg1.win 3).cut (grid1.coords t) ((dat1 V c).after 3 t) = _
  rw [after1_3]
  funext j
  refine flushed_entry V c t h4 _ (((cfg1.win 3).blk t).view.emb j) ?_ ?_
  · show win1_3.index t 0 * 2048 + 1 * (j 0).val = 2048 * (t.val / 5) + (j 0).val
    rw [e0]; omega
  · show win1_3.index t 1 * 256 + 1 * (j 1).val = (j 1).val
    rw [e1]; omega

/-- An index of the output array is in point `t`'s block iff each coordinate is in the block's range. -/
theorem mem_blk1 (t : Fin cfg1.N) (i : S10240x256.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v49).slice (win1_3.rect t)).set ↔ _
  rw [View.set_slice_whole, Rect.mem_set_unit]
  exact Iff.rfl

/-- Row `d` of the output is written back by the last column block of row block `d / 2048`. -/
theorem cover1 (i : S10240x256.Idx) :
    ∃ t : Fin cfg1.N, (cfg1.win 3).flush t = true ∧ i ∈ ((cfg1.win 3).blk t).view.set := by
  have hi0 : (i 0).val < 10240 := idx2_lt0 i
  have hi1 : (i 1).val < 256 := idx2_lt1 i
  have hlt : 5 * ((i 0).val / 2048) + 4 < cfg1.N := by rw [N1]; omega
  have e := idx1 ⟨5 * ((i 0).val / 2048) + 4, hlt⟩
  obtain ⟨-, -, -, -, -, -, e0, e1⟩ := e
  refine ⟨⟨5 * ((i 0).val / 2048) + 4, hlt⟩, (flush1_3 _).mpr (by show (5 * ((i 0).val / 2048) + 4) % 5 = 4; omega), ?_⟩
  rw [mem_blk1]
  intro a
  match a with
  | ⟨0, _⟩ =>
    show win1_3.index ⟨5 * ((i 0).val / 2048) + 4, hlt⟩ 0 * 2048 ≤ (i 0).val
      ∧ (i 0).val < win1_3.index ⟨5 * ((i 0).val / 2048) + 4, hlt⟩ 0 * 2048 + 2048
    rw [e0]; show (5 * ((i 0).val / 2048) + 4) / 5 * 2048 ≤ (i 0).val ∧ (i 0).val < (5 * ((i 0).val / 2048) + 4) / 5 * 2048 + 2048
    omega
  | ⟨1, _⟩ =>
    show win1_3.index ⟨5 * ((i 0).val / 2048) + 4, hlt⟩ 1 * 256 ≤ (i 1).val
      ∧ (i 1).val < win1_3.index ⟨5 * ((i 0).val / 2048) + 4, hlt⟩ 1 * 256 + 256
    rw [e1]; omega

/-- The output array after the region. -/
theorem final1 (c : Dev nD) : (dat1 V c).arrAt 3 cfg1.N = out1 V c :=
  (dat1 V c).arrAt_eq_of_cover 3 (out1 V c) (fun t hf => flushed1_eq V c t hf) cover1

/-- Entry `(d, f)` of the output after the region: row `d` of the adjacency matrix against column `f` of the
    transformed features, plus the bias of column `f`, clamped below at zero. -/
theorem agg1_final (c : Dev nD) (d : Fin 10240) (f : Fin 256) :
    (dat1 V c).arrAt 3 cfg1.N (ValueIdx.ix2 d f)
      = (max ((∑ s : Fin 10240, Aarr V c (ValueIdx.ix2 d s) * Harr V c (ValueIdx.ix2 s f))
          + barr V c (ValueIdx.ix2 (0 : Fin 1) f)) 0 : Ideal .f32) := by
  rw [final1]
  rfl

end Cert.KernelIdeal.Hand

end
-- ==== Proof.KI.Lin2Val.lean ====
/-
  The second feature transform's output array, read at an index, at the ideal values.

  At a grid point the body leaves in the output buffer the payload of the point's 2048×256 block of feature rows and of
  the 256×128 weight matrix. On the extended reals a change of float format is the identity, so the payload at (p, q) is
  the matrix product into the zero accumulator: the sum over k of block (p, k) times weight (k, q). Point t's block of
  rows is rows 2048·t … 2048·t + 2047 of the feature array, and the point writes its result back to the same rows of
  the output array; the five points' row blocks cover the 10240 rows. So the output array ends holding, at (i, j), the
  sum over k of feature (i, k) times weight (k, j).
-/
import proofs.«412831_j32925219291401_1_alg».proof.Proof.KI.Lin2Defs
import proofs.«412831_j32925219291401_1_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window cellOf)

-- the TensorCore's buffer contents when the region is entered, at the ideal values
variable (V : (c : Dev nD) → (b : Ref sig .tc) → Buf (Elt Ideal) ((c : Thread nD τ).loc b))

/-! ## The payload at an index -/

/-- The body's payload at (p, q): the row p of the first operand times the column q of the second. The two roundings
    to the narrow format and the rounding of the product are the identity on the extended reals, the reshape to the
    same shape is the identity, and the matrix product into the zero accumulator is the plain sum of products. -/
theorem lin2_pay_apply (x0 : Vec Ideal S2048x256 .f32) (x1 : Vec Ideal S256x128 .f32) (p : Fin 2048) (q : Fin 128) :
    (k2_pay1 x0 x1 : S2048x128.Idx → EReal) (ix2 p q)
      = ∑ k : Fin 256, (x0 : S2048x256.Idx → EReal) (ix2 p k) * (x1 : S256x128.Idx → EReal) (ix2 k q) := by
  unfold k2_pay1
  refine (Cert.LibPlainDot.matmul_zero_apply dot_S2048x256_S256x128_S2048x128_1_0_0_1_n_n rfl none
    (truncf .bf16 (shapeCast S2048x256 x0 shapeCasts_S2048x256_S2048x256) bitsLt_bf16_f32)
    (truncf .bf16 x1 bitsLt_bf16_f32) p q).trans ?_
  refine Finset.sum_congr rfl fun k _ => ?_
  refine congrArg (· * (x1 : S256x128.Idx → EReal) (ix2 k q)) ?_
  exact congrFun (shapeCast_self x0 shapeCasts_S2048x256_S2048x256) (ix2 p k)

/-- The payload of two blocks at an index of the output block, when the first block's row there is row `r` of an
    array `X` and the second block's column there is column `col` of an array `W`: row `r` of `X` times column
    `col` of `W`. -/
theorem lin2_pay_rows (x0 : Vec Ideal S2048x256 .f32) (x1 : Vec Ideal S256x128 .f32)
    (X : S10240x256.Idx → EReal) (W : S256x128.Idx → EReal) (y : S2048x128.Idx) (r : Fin 10240) (col : Fin 128)
    (h0 : ∀ k : Fin 256, (x0 : S2048x256.Idx → EReal) (ix2 (y 0) k) = X (ix2 r k))
    (h1 : ∀ k : Fin 256, (x1 : S256x128.Idx → EReal) (ix2 k (y 1)) = W (ix2 k col)) :
    (k2_pay1 x0 x1 : S2048x128.Idx → EReal) y = ∑ k : Fin 256, X (ix2 r k) * W (ix2 k col) := by
  obtain ⟨p, q, rfl⟩ : ∃ (p : Fin 2048) (q : Fin 128), y = ix2 p q := ⟨y 0, y 1, eq_ix2 y⟩
  rw [lin2_pay_apply]
  refine Finset.sum_congr rfl fun k _ => ?_
  have h0' : (x0 : S2048x256.Idx → EReal) (ix2 p k) = X (ix2 r k) := h0 k
  have h1' : (x1 : S256x128.Idx → EReal) (ix2 k q) = W (ix2 k col) := h1 k
  rw [h0', h1']

/-! ## From blocks to the array -/

/-- The feature array as the region finds it, as a function on its literal index type. -/
abbrev lin2X (c : Dev nD) : S10240x256.Idx → EReal := V c main_v49
/-- The weight matrix as the region finds it. -/
abbrev lin2W (c : Dev nD) : S256x128.Idx → EReal := V c main_arg4

/-- The product of the feature array and the weight matrix as the region finds them, index by index. -/
def lin2G (c : Dev nD) : S10240x128.Idx → EReal := fun idx =>
  ∑ k : Fin 256, lin2X V c (ix2 (idx 0) k) * lin2W V c (ix2 k (idx 1))

/-- The block indices at a point: the feature window and the output window are at row block `t`, column block 0;
    the weight window is at block (0, 0). -/
theorem lin2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product array. -/
theorem lin2_flushed (c : Dev nD) (t : Fin cfg2.N) :
    (dat2 V c).flushed 2 t = ((cfg2.win 2).blk t).view.read (Elt Ideal) (lin2G V c) := by
  show (cfg2.win 2).cut (grid2.coords t) ((dat2 V c).after 2 t) = _
  rw [after2_2]
  obtain ⟨e0, e1, e2, e3, e4, e5⟩ := lin2_index t
  funext y
  show (k2_pay1 (iblk2 V c 0 t) (iblk2 V c 1 t) : S2048x128.Idx → EReal) y
    = ∑ k : Fin 256, lin2X V c (ix2 ((((cfg2.win 2).blk t).view.emb y) 0) k)
        * lin2W V c (ix2 k ((((cfg2.win 2).blk t).view.emb y) 1))
  refine lin2_pay_rows (iblk2 V c 0 t) (iblk2 V c 1 t) (lin2X V c) (lin2W V c) y
    ((((cfg2.win 2).blk t).view.emb y) 0) ((((cfg2.win 2).blk t).view.emb y) 1) (fun k => ?_) (fun k => ?_)
  · -- the feature block's row: the same row block as the output's, all 256 columns
    show lin2X V c (((cfg2.win 0).blk t).view.emb (ix2 (y 0) k)) = _
    refine congrArg (lin2X V c) ?_
    funext a; apply Fin.ext
    match a with
    | ⟨0, _⟩ => show win2_0.index t (0 : Fin 2) * 2048 + 1 * (y 0).val = win2_2.index t (0 : Fin 2) * 2048 + 1 * (y 0).val; omega
    | ⟨1, _⟩ => show win2_0.index t (1 : Fin 2) * 256 + 1 * k.val = k.val; omega
  · -- the weight block is the whole matrix; the output block spans all 128 columns
    show lin2W V c (((cfg2.win 1).blk t).view.emb (ix2 k (y 1))) = _
    refine congrArg (lin2W V c) ?_
    funext a; apply Fin.ext
    match a with
    | ⟨0, _⟩ => show win2_1.index t (0 : Fin 2) * 256 + 1 * k.val = k.val; omega
    | ⟨1, _⟩ => show win2_1.index t (1 : Fin 2) * 128 + 1 * (y 1).val = win2_2.index t (1 : Fin 2) * 128 + 1 * (y 1).val; omega

/-- An index of the output array is in point `t`'s block iff each coordinate is in the block's range on its axis. -/
theorem lin2_mem_blk (t : Fin cfg2.N) (i : S10240x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v50).slice (win2_2.rect t)).set ↔ _
  rw [View.set_slice_whole, Rect.mem_set_unit]
  exact Iff.rfl

/-- Every index of the output array is in some point's block: row `r` is in the block of point `r / 2048`. -/
theorem lin2_cover (i : S10240x128.Idx) :
    ∃ t : Fin cfg2.N, (cfg2.win 2).flush t = true ∧ i ∈ ((cfg2.win 2).blk t).view.set := by
  have hi0 : (i 0).val < 10240 := (i 0).isLt
  have hi1 : (i 1).val < 128 := (i 1).isLt
  have hlt : (i 0).val / 2048 < cfg2.N := by show _ < grid2.N; rw [N_2]; omega
  obtain ⟨-, -, -, -, e4, e5⟩ := lin2_index ⟨(i 0).val / 2048, hlt⟩
  have e4' : win2_2.index ⟨(i 0).val / 2048, hlt⟩ (0 : Fin 2) = (i 0).val / 2048 := e4
  refine ⟨⟨(i 0).val / 2048, hlt⟩, flush2_2 _, ?_⟩
  rw [lin2_mem_blk]
  intro a
  match a with
  | ⟨0, _⟩ => show win2_2.index ⟨(i 0).val / 2048, hlt⟩ (0 : Fin 2) * 2048 ≤ (i 0).val ∧ (i 0).val < win2_2.index ⟨(i 0).val / 2048, hlt⟩ (0 : Fin 2) * 2048 + 2048; omega
  | ⟨1, _⟩ => show win2_2.index ⟨(i 0).val / 2048, hlt⟩ (1 : Fin 2) * 128 ≤ (i 1).val ∧ (i 1).val < win2_2.index ⟨(i 0).val / 2048, hlt⟩ (1 : Fin 2) * 128 + 128; omega

/-- So the output array ends holding the product array. -/
theorem lin2_arr (c : Dev nD) : (dat2 V c).arrAt 2 cfg2.N = lin2G V c :=
  (dat2 V c).arrAt_eq_of_cover 2 (lin2G V c) (fun t _ => lin2_flushed V c t) lin2_cover

/-- The output array after the region, at (i, j): row i of the feature array times column j of the weight matrix. -/
theorem lin2_final (c : Dev nD) (i : Fin 10240) (j : Fin 128) :
    ((dat2 V c).arrAt 2 cfg2.N : S10240x128.Idx → EReal) (ix2 i j)
      = ∑ k : Fin 256, lin2X V c (ix2 i k) * lin2W V c (ix2 k j) := by
  rw [lin2_arr]
  rfl

end Cert.KernelIdeal.Hand

end
-- ==== Proof.KI.Agg3Val.lean ====
/-
  The second aggregation, read as a value. The region multiplies the adjacency matrix (10240 × 10240) by the transformed
  features (10240 × 128), adds the bias row to every row and clamps below at zero. It does so block by block: the grid
  point `t = 5 r + k` takes rows `2048 r ..` and columns `2048 k ..` of the adjacency matrix against rows `2048 k ..` of
  the features, and adds the product to a running sum that restarts at `k = 0`; at `k = 4` the running sum plus bias,
  clamped, is stored as rows `2048 r ..` of the output.

  Read at an entry over the extended reals: one step adds `∑ s < 2048, A (2048 r + p, 2048 k + s) * H (2048 k + s, f)`
  to entry `(p, f)`; by induction on the point the running sum after `t` is the sum of these over the column blocks up
  to `k`; the five blocks' sums together are the sum over all 10240 columns, each column lying in exactly one block;
  and every output row `d` is stored by the point `5 (d / 2048) + 4`. Hence entry `(d, f)` of the output is
  `max (∑ s, A (d, s) * H (s, f) + b (0, f)) 0`.
-/
import proofs.«412831_j32925219291401_1_alg».proof.Proof.KI.Agg3Defs
import proofs.«412831_j32925219291401_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)
open scoped BigOperators

/-- The reset value read at an entry: zero. -/
theorem pay1_apply3 (p : Fin 2048) (f : Fin 128) : k3_pay1 (F := Ideal) (ix2 p f) = 0 := by
  unfold k3_pay1
  rw [shapeCast_self]
  exact Ideal.ofBits_zero_f32

/-- One step of the running sum read at an entry: the old entry plus the row of the left block against the column
    of the right block. -/
theorem pay2_apply3 (acc : Vec Ideal S2048x128 .f32) (a : Vec Ideal S2048x2048 .bf16) (h : Vec Ideal S2048x128 .bf16)
    (p : Fin 2048) (f : Fin 128) :
    k3_pay2 acc a h (ix2 p f) = acc (ix2 p f) + ∑ s : Fin 2048, a (ix2 p s) * h (ix2 s f) := by
  unfold k3_pay2
  rw [shapeCast_self, shapeCast_self, shapeCast_self]
  refine (addf_apply _ _ _).trans ?_
  exact congrArg (acc (ix2 p f) + ·)
    (Cert.LibPlainDot.matmul_zero_apply dot_S2048x2048_S2048x128_S2048x128_1_0_0_1_n_n rfl none a h p f)

/-- The stored value read at an entry: the sum plus the bias of its column, clamped below at zero. -/
theorem pay3_apply3 (s : Vec Ideal S2048x128 .f32) (b : Vec Ideal S1x128 .f32) (p : Fin 2048) (f : Fin 128) :
    k3_pay3 s b (ix2 p f) = max (s (ix2 p f) + b (ix2 (0 : Fin 1) f)) 0 := by
  unfold k3_pay3
  rw [shapeCast_self]
  refine (maximumf_apply _ _ _).trans ?_
  refine congrArg₂ max ?_ Ideal.ofBits_zero_f32
  refine (addf_apply _ _ _).trans ?_
  exact congrArg (s (ix2 p f) + ·) (broadcastTo_1b_ab_apply b broadcasts_S1x128_S2048x128 p f)

-- the TensorCore's buffer contents when the region is entered
variable (V : (c : Dev nD) → (b : Ref sig .tc) → Buf (Elt Ideal) ((c : Thread nD τ).loc b))

/-! ## The arrays and the blocks at their literal types -/

/-- The adjacency matrix, the transformed features and the bias as the region finds them. -/
abbrev Aarr3 (c : Dev nD) : Vec Ideal S10240x10240 .bf16 := V c main_v45
abbrev Harr3 (c : Dev nD) : Vec Ideal S10240x128 .bf16 := V c main_v50
abbrev barr3 (c : Dev nD) : Vec Ideal S1x128 .f32 := V c main_v51

/-- The three input blocks of point `t`. -/
abbrev ablk3 (c : Dev nD) (t : Fin cfg3.N) : Vec Ideal S2048x2048 .bf16 := iblk3 V c 0 t
abbrev hblk3 (c : Dev nD) (t : Fin cfg3.N) : Vec Ideal S2048x128 .bf16 := iblk3 V c 1 t
abbrev bblk3 (c : Dev nD) (t : Fin cfg3.N) : Vec Ideal S1x128 .f32 := iblk3 V c 2 t

/-- Entry `(i, j)` of the adjacency matrix for natural coordinates (zero outside the matrix). -/
def Aat3 (c : Dev nD) (i j : ℕ) : EReal :=
  if h : i < 10240 ∧ j < 10240 then Aarr3 V c (ix2 ⟨i, h.1⟩ ⟨j, h.2⟩) else 0

/-- Entry `(i, f)` of the transformed features for a natural row (zero outside). -/
def Hat3 (c : Dev nD) (i : ℕ) (f : Fin 128) : EReal :=
  if h : i < 10240 then Harr3 V c (ix2 ⟨i, h⟩ f) else 0

/-! ## Where the blocks lie: point `t` is row block `t / 5`, column block `t % 5` -/

theorem idx3 : ∀ t : Fin cfg3.N,
    win3_0.index t 0 = t.val / 5 ∧ win3_0.index t 1 = t.val % 5 ∧
    win3_1.index t 0 = t.val % 5 ∧ win3_1.index t 1 = 0 ∧
    win3_2.index t 0 = 0 ∧ win3_2.index t 1 = 0 ∧
    win3_3.index t 0 = t.val / 5 ∧ win3_3.index t 1 = 0 :=
  (by decide +kernel : ∀ t : Fin grid3.N, _)

theorem N3 : cfg3.N = 25 := N_3

/-- The adjacency block of point `t` holds rows `2048 (t / 5) + p`, columns `2048 (t % 5) + s`. -/
theorem ablk3_apply (c : Dev nD) (t : Fin cfg3.N) (p s : Fin 2048) :
    ablk3 V c t (ix2 p s) = Aat3 V c (2048 * (t.val / 5) + p.val) (2048 * (t.val % 5) + s.val) := by
  have ht : t.val < 25 := N3 ▸ t.isLt
  have hi := idx3 t
  unfold Aat3
  rw [dif_pos ⟨by omega, by omega⟩]
  unfold ablk3 iblk3
  rw [View.read_apply]
  show V c main_v45 _ = V c main_v45 _
  congr 1
  funext a
  apply Fin.ext
  match a with
  | ⟨0, _⟩ => show win3_0.index t 0 * 2048 + 1 * p.val = 2048 * (t.val / 5) + p.val; rw [hi.1]; omega
  | ⟨1, _⟩ => show win3_0.index t 1 * 2048 + 1 * s.val = 2048 * (t.val % 5) + s.val; rw [hi.2.1]; omega

/-- The feature block of point `t` holds rows `2048 (t % 5) + s`. -/
theorem hblk3_apply (c : Dev nD) (t : Fin cfg3.N) (s : Fin 2048) (f : Fin 128) :
    hblk3 V c t (ix2 s f) = Hat3 V c (2048 * (t.val % 5) + s.val) f := by
  have ht : t.val < 25 := N3 ▸ t.isLt
  have hi := idx3 t
  unfold Hat3
  rw [dif_pos (by omega)]
  unfold hblk3 iblk3
  rw [View.read_apply]
  show V c main_v50 _ = V c main_v50 _
  congr 1
  funext a
  apply Fin.ext
  match a with
  | ⟨0, _⟩ => show win3_1.index t 0 * 2048 + 1 * s.val = 2048 * (t.val % 5) + s.val; rw [hi.2.2.1]; omega
  | ⟨1, _⟩ => show win3_1.index t 1 * 128 + 1 * f.val = f.val; rw [hi.2.2.2.1]; omega

/-- The bias block is the whole bias at every point. -/
theorem bblk3_apply (c : Dev nD) (t : Fin cfg3.N) (q : Fin 1) (f : Fin 128) :
    bblk3 V c t (ix2 q f) = barr3 V c (ix2 q f) := by
  have hi := idx3 t
  unfold bblk3 iblk3
  rw [View.read_apply]
  show V c main_v51 _ = V c main_v51 _
  congr 1
  funext a
  apply Fin.ext
  match a with
  | ⟨0, _⟩ => show win3_2.index t 0 * 1 + 1 * q.val = q.val; rw [hi.2.2.2.2.1]; omega
  | ⟨1, _⟩ => show win3_2.index t 1 * 128 + 1 * f.val = f.val; rw [hi.2.2.2.2.2.1]; omega

/-! ## The running sum -/

/-- At a first column block the running sum starts from zero. -/
theorem accAt3_reset (c : Dev nD) (n : ℕ) (hn : n < cfg3.N) (h0 : n % 5 = 0) :
    accAt3 V c n hn = k3_pay2 (k3_pay1 (F := Ideal)) (iblk3 V c 0 ⟨n, hn⟩) (iblk3 V c 1 ⟨n, hn⟩) := by
  cases n with
  | zero => rfl
  | succ m => unfold accAt3; rw [if_pos h0]

/-- At a later column block it adds to what the point before left. -/
theorem accAt3_step (c : Dev nD) (n : ℕ) (hn : n + 1 < cfg3.N) (h0 : ¬(n + 1) % 5 = 0) :
    accAt3 V c (n + 1) hn
      = k3_pay2 (accAt3 V c n (Nat.lt_of_succ_lt hn)) (iblk3 V c 0 ⟨n + 1, hn⟩) (iblk3 V c 1 ⟨n + 1, hn⟩) := by
  rw [accAt3, if_neg h0]

/-- The contribution of column block `j` to entry `(p, f)` of row block `r`. -/
def term3 (c : Dev nD) (r : ℕ) (p : Fin 2048) (f : Fin 128) (j : ℕ) : EReal :=
  ∑ s : Fin 2048, Aat3 V c (2048 * r + p.val) (2048 * j + s.val) * Hat3 V c (2048 * j + s.val) f

/-- One step of the running sum at point `t`, read at an entry. -/
theorem step3_apply (c : Dev nD) (t : Fin cfg3.N) (acc : Vec Ideal S2048x128 .f32) (p : Fin 2048) (f : Fin 128) :
    k3_pay2 acc (ablk3 V c t) (hblk3 V c t) (ix2 p f) = acc (ix2 p f) + term3 V c (t.val / 5) p f (t.val % 5) := by
  rw [pay2_apply3]
  unfold term3
  refine congrArg (acc (ix2 p f) + ·) (Finset.sum_congr rfl fun s _ => ?_)
  rw [ablk3_apply, hblk3_apply]

/-- After point `n` the running sum holds, at entry `(p, f)`, the contributions of the column blocks up to
    `n % 5` of row block `n / 5`. -/
theorem acc3_eq (c : Dev nD) : ∀ (n : ℕ) (hn : n < cfg3.N) (p : Fin 2048) (f : Fin 128),
    accAt3 V c n hn (ix2 p f) = ∑ j ∈ Finset.range (n % 5 + 1), term3 V c (n / 5) p f j
  | 0, hn, p, f => by
    rw [accAt3_reset V c 0 hn rfl]
    refine (step3_apply V c ⟨0, hn⟩ (k3_pay1 (F := Ideal)) p f).trans ?_
    rw [pay1_apply3, zero_add]
    show term3 V c (0 / 5) p f (0 % 5) = _
    rw [Finset.sum_range_one]
  | n + 1, hn, p, f => by
    by_cases h0 : (n + 1) % 5 = 0
    · rw [accAt3_reset V c (n + 1) hn h0]
      refine (step3_apply V c ⟨n + 1, hn⟩ (k3_pay1 (F := Ideal)) p f).trans ?_
      rw [pay1_apply3, zero_add]
      show term3 V c ((n + 1) / 5) p f ((n + 1) % 5) = _
      rw [h0, Finset.sum_range_one]
    · rw [accAt3_step V c n hn h0]
      refine (step3_apply V c ⟨n + 1, hn⟩ (accAt3 V c n (Nat.lt_of_succ_lt hn)) p f).trans ?_
      rw [acc3_eq c n (Nat.lt_of_succ_lt hn) p f]
      show _ + term3 V c ((n + 1) / 5) p f ((n + 1) % 5) = _
      have e1 : (n + 1) / 5 = n / 5 := by omega
      have e2 : (n + 1) % 5 = n % 5 + 1 := by omega
      rw [e1, e2, Finset.sum_range_succ (fun j => term3 V c (n / 5) p f j) (n % 5 + 1)]

/-! ## The five column blocks together -/

/-- Summing the contributions of all five column blocks is summing over the whole row of the adjacency matrix:
    column `2048 j + s` is met once, in block `j`. -/
theorem sum_blocks3 (c : Dev nD) (r : ℕ) (hr : r < 5) (p : Fin 2048) (f : Fin 128) :
    ∑ j ∈ Finset.range 5, term3 V c r p f j
      = ∑ s : Fin 10240, Aarr3 V c (ix2 ⟨2048 * r + p.val, by omega⟩ s) * Harr3 V c (ix2 s f) := by
  have key : ∀ s : Fin 10240, Aarr3 V c (ix2 ⟨2048 * r + p.val, by omega⟩ s) * Harr3 V c (ix2 s f)
      = Aat3 V c (2048 * r + p.val) s.val * Hat3 V c s.val f := fun s => by
    unfold Aat3 Hat3
    rw [dif_pos ⟨by omega, s.isLt⟩, dif_pos s.isLt]
  rw [Finset.sum_congr rfl fun s _ => key s, Finset.sum_range]
  unfold term3
  rw [← Fintype.sum_prod_type' (fun (j : Fin 5) (s : Fin 2048) =>
    Aat3 V c (2048 * r + p.val) (2048 * j.val + s.val) * Hat3 V c (2048 * j.val + s.val) f)]
  refine (Finset.sum_congr rfl fun x _ => ?_).trans
    (Equiv.sum_comp (finProdFinEquiv (m := 5) (n := 2048))
      (fun s : Fin 10240 => Aat3 V c (2048 * r + p.val) s.val * Hat3 V c s.val f))
  show _ = Aat3 V c (2048 * r + p.val) (x.2.val + 2048 * x.1.val) * Hat3 V c (x.2.val + 2048 * x.1.val) f
  rw [Nat.add_comm (2048 * x.1.val) x.2.val]

/-! ## From the blocks to the array -/

/-- What the region leaves in the output array: each row of the adjacency matrix against each feature column, plus
    the bias of the column, clamped below at zero. -/
def out3 (c : Dev nD) : Vec Ideal S10240x128 .f32 := fun i =>
  max ((∑ s : Fin 10240, Aarr3 V c (ix2 (i 0) s) * Harr3 V c (ix2 s (i 1))) + barr3 V c (ix2 (0 : Fin 1) (i 1))) 0

/-- At a last column block the stored block's entry `j` is the output's entry in row `2048 (t / 5) + j₀`. -/
theorem flushed3_entry (c : Dev nD) (t : Fin cfg3.N) (h4 : t.val % 5 = 4) (j : S2048x128.Idx) (i : S10240x128.Idx)
    (hi0 : (i 0).val = 2048 * (t.val / 5) + (j 0).val) (hi1 : (i 1).val = (j 1).val) :
    k3_pay3 (accAt3 V c t.val t.isLt) (bblk3 V c t) j = out3 V c i := by
  have ht : t.val < 25 := N3 ▸ t.isLt
  have hr : t.val / 5 < 5 := by omega
  obtain ⟨p, f, rfl⟩ : ∃ (p : Fin 2048) (f : Fin 128), j = ix2 p f := ⟨j 0, j 1, eq_ix2 j⟩
  have hb : 2048 * (t.val / 5) + p.val < 10240 := by omega
  obtain ⟨d, g, rfl⟩ : ∃ (d : Fin 10240) (g : Fin 128), i = ix2 d g := ⟨i 0, i 1, eq_ix2 i⟩
  obtain rfl : d = ⟨2048 * (t.val / 5) + p.val, hb⟩ := Fin.ext hi0
  obtain rfl : g = f := Fin.ext hi1
  rw [pay3_apply3, acc3_eq, h4, sum_blocks3 V c (t.val / 5) hr p g, bblk3_apply]
  rfl

/-- What a last column block writes back is its block of the output. -/
theorem flushed3_eq (c : Dev nD) (t : Fin cfg3.N) (hf : (cfg3.win 3).flush t = true) :
    (dat3 V c).flushed 3 t = ((cfg3.win 3).blk t).view.read (Elt Ideal) (out3 V c) := by
  have h4 : t.val % 5 = 4 := (flush3_3 t).mp hf
  obtain ⟨-, -, -, -, -, -, e0, e1⟩ := idx3 t
  show (cfg3.win 3).cut (grid3.coords t) ((dat3 V c).after 3 t) = _
  rw [after3_3]
  funext j
  refine flushed3_entry V c t h4 _ (((cfg3.win 3).blk t).view.emb j) ?_ ?_
  · show win3_3.index t 0 * 2048 + 1 * (j 0).val = 2048 * (t.val / 5) + (j 0).val
    rw [e0]; omega
  · show win3_3.index t 1 * 128 + 1 * (j 1).val = (j 1).val
    rw [e1]; omega

/-- An index of the output array is in point `t`'s block iff each coordinate is in the block's range. -/
theorem mem_blk3 (t : Fin cfg3.N) (i : S10240x128.Idx) :
    i ∈ ((cfg3.win 3).blk t).view.set ↔ ∀ a : Fin 2, win3_3.index t a * S2048x128.size a ≤ (i a).val
      ∧ (i a).val < win3_3.index t a * S2048x128.size a + S2048x128.size a := by
  show i ∈ ((View.whole main_v52).slice (win3_3.rect t)).set ↔ _
  rw [View.set_slice_whole, Rect.mem_set_unit]
  exact Iff.rfl

/-- Row `d` of the output is written back by the last column block of row block `d / 2048`. -/
theorem cover3 (i : S10240x128.Idx) :
    ∃ t : Fin cfg3.N, (cfg3.win 3).flush t = true ∧ i ∈ ((cfg3.win 3).blk t).view.set := by
  have hi0 : (i 0).val < 10240 := idx2_lt0 i
  have hi1 : (i 1).val < 128 := idx2_lt1 i
  have hlt : 5 * ((i 0).val / 2048) + 4 < cfg3.N := by rw [N3]; omega
  have e := idx3 ⟨5 * ((i 0).val / 2048) + 4, hlt⟩
  obtain ⟨-, -, -, -, -, -, e0, e1⟩ := e
  refine ⟨⟨5 * ((i 0).val / 2048) + 4, hlt⟩, (flush3_3 _).mpr (by show (5 * ((i 0).val / 2048) + 4) % 5 = 4; omega), ?_⟩
  rw [mem_blk3]
  intro a
  match a with
  | ⟨0, _⟩ =>
    show win3_3.index ⟨5 * ((i 0).val / 2048) + 4, hlt⟩ 0 * 2048 ≤ (i 0).val
      ∧ (i 0).val < win3_3.index ⟨5 * ((i 0).val / 2048) + 4, hlt⟩ 0 * 2048 + 2048
    rw [e0]; show (5 * ((i 0).val / 2048) + 4) / 5 * 2048 ≤ (i 0).val ∧ (i 0).val < (5 * ((i 0).val / 2048) + 4) / 5 * 2048 + 2048
    omega
  | ⟨1, _⟩ =>
    show win3_3.index ⟨5 * ((i 0).val / 2048) + 4, hlt⟩ 1 * 128 ≤ (i 1).val
      ∧ (i 1).val < win3_3.index ⟨5 * ((i 0).val / 2048) + 4, hlt⟩ 1 * 128 + 128
    rw [e1]; omega

/-- The output array after the region. -/
theorem final3 (c : Dev nD) : (dat3 V c).arrAt 3 cfg3.N = out3 V c :=
  (dat3 V c).arrAt_eq_of_cover 3 (out3 V c) (fun t hf => flushed3_eq V c t hf) cover3

/-- Entry `(d, f)` of the output after the region: row `d` of the adjacency matrix against column `f` of the
    transformed features, plus the bias of column `f`, clamped below at zero. -/
theorem agg3_final (c : Dev nD) (d : Fin 10240) (f : Fin 128) :
    (dat3 V c).arrAt 3 cfg3.N (ValueIdx.ix2 d f)
      = (max ((∑ s : Fin 10240, Aarr3 V c (ValueIdx.ix2 d s) * Harr3 V c (ValueIdx.ix2 s f))
          + barr3 V c (ValueIdx.ix2 (0 : Fin 1) f)) 0 : Ideal .f32) := by
  rw [final3]
  rfl

end Cert.KernelIdeal.Hand

end
-- ==== Proof.Spec.lean ====
/-
  The two programs as plain functions over the extended reals, one graph-convolution layer at a time.

  A graph on 10000 nodes is given by 650000 directed edges `e` (the input's edges followed by one loop per node), each
  with a source `src e`, a destination `dst e` and a weight `nrm e`. One layer maps node features `x` (a row per node)
  to `max (agg + b) 0`, where `agg` at node `d` is the sum over the edges INTO `d` of the weight times the transformed
  features `x W` of the edge's source.

  `refLayer` is that sum edge by edge. `kerLayer` is the same layer through the dense weighted adjacency matrix `adj`,
  on an index range padded to 10240: entry `(d, s)` of `adj` collects the weights of the edges from `s` into `d`, and the layer
  multiplies that matrix with the transformed features of ALL 10240 padded rows. The two agree on the first 10000
  rows because no edge has an end in the padding, so the padded columns of `adj` vanish, and because a finite factor
  distributes over a finite sum.
-/
import Idealize.ShloMosaic.PureOps.Ideal
import Idealize.ShloMosaic.Lib.ValueIdx

noncomputable section

namespace Cert.Gcn

/-- The number of edges, loops included. -/
abbrev E : ℕ := 650000

variable {Fi Fo : ℕ}

/-- One layer, edge by edge: at node `d` and feature `f`, zero plus the sum over the edges into `d` of the source's
    transformed feature times the edge's weight, plus the bias, clamped below at zero. -/
def refLayer (src dst : Fin E → Fin 10000) (nrm : Fin E → EReal) (x : Fin 10000 → Fin Fi → EReal)
    (W : Fin Fi → Fin Fo → EReal) (b : Fin Fo → EReal) (d : Fin 10000) (f : Fin Fo) : EReal :=
  max ((0 + ∑ e ∈ Finset.univ.filter (fun e : Fin E => dst e = d), (∑ k : Fin Fi, x (src e) k * W k f) * nrm e) + b f) 0

/-- The dense weighted adjacency matrix on the padded range: zero plus the weights of the edges from `s` into `d`. -/
def adj (src dst : Fin E → Fin 10000) (nrm : Fin E → EReal) (d s : Fin 10240) : EReal :=
  0 + ∑ e ∈ Finset.univ.filter (fun e : Fin E => (dst e).val = d.val ∧ (src e).val = s.val), nrm e

/-- One layer through a dense matrix `A` on the padded range: the matrix times the transformed features, plus the
    bias, clamped below at zero. -/
def kerLayer (A : Fin 10240 → Fin 10240 → EReal) (X : Fin 10240 → Fin Fi → EReal)
    (W : Fin Fi → Fin Fo → EReal) (b : Fin Fo → EReal) (d : Fin 10240) (f : Fin Fo) : EReal :=
  max ((∑ s : Fin 10240, A d s * (∑ k : Fin Fi, X s k * W k f)) + b f) 0

/-- The features padded with zero rows. -/
def padRows (x : Fin 10000 → Fin Fi → EReal) (i : Fin 10240) (k : Fin Fi) : EReal :=
  if h : i.val < 10000 then x ⟨i.val, h⟩ k else 0

end Cert.Gcn

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.LibScatterAddPairs.lean ====
/-
  An accumulating scatter into a matrix at index PAIRS, read at an index, at the extended reals.

  The accumulating scatter of updates into an operand holds, at each operand index, the operand's element plus the sum of
  the updates that land there. An update lands, on every operand axis, at its start (the start index's component for that
  axis, read as a signed integer and not clamped) plus its window coordinate (zero on an inserted axis); an update that
  lands outside the operand on some axis is dropped.

  The shape here: a matrix operand [S, T], a table of start indices [R, 2] whose row n is a PAIR (column 0 addresses
  operand axis 0, column 1 addresses operand axis 1), one scalar update per row [R]. Both operand axes are addressed by
  the start index and both are inserted, so there is no window coordinate on either, and update n lands on (o, t)
  exactly when idx[n, 0], read signed, is o and idx[n, 1], read signed, is t: element (o, t) is the operand's plus the
  updates n whose pair is (o, t).
-/
import Idealize.ShloMosaic.PureOps.Ideal
import Idealize.ShloMosaic.Lib.ValueIdx
import proofs.«412831_j32925219291401_1_alg».proof.Proof.LibScatterConst

noncomputable section

namespace Cert.LibScatterAddPairs

open Idealize.ShloMosaic Idealize.ShloMosaic.ValueIdx

/-- PAIRS, one update: update `n` lands on `(o, t)` exactly when the two components of its start index, read signed, are
    `o` and `t`. On operand axis `a` the start is the index word at `[n, a]` (the axis is the `a`-th one the start index
    addresses, and the index vector lies along axis 1 of the table); both operand axes are inserted, so the window
    coordinate is zero on both. -/
theorem pairs_lands_iff {S T R : ℕ} (d : ScatterDims ⟨2, ![S, T]⟩ ⟨2, ![R, 2]⟩ ⟨1, ![R]⟩)
    (huw : d.updateWindowDims = []) (hiw : d.insertedWindowDims = [0, 1]) (hsd : d.scatterDimsToOperandDims = [0, 1])
    (hiv : d.indexVectorDim = 1) (idx : IVec ⟨2, ![R, 2]⟩ 32) (n : (⟨1, ![R]⟩ : Shape).Idx) (o : Fin S) (t : Fin T) :
    d.resultIdx? n idx = some (ix2 o t) ↔
      (idx (ix2 (n 0) (0 : Fin 2))).toInt = (o.val : ℤ) ∧ (idx (ix2 (n 0) (1 : Fin 2))).toInt = (t.val : ℤ) := by
  rw [Cert.LibScatterConst.resultIdx?_eq_some_iff]
  obtain ⟨uw, iw, sd, iv, wf⟩ := d
  dsimp only at huw hiw hsd hiv
  subst huw hiw hsd hiv
  -- operand axis 0 is the first axis the start index addresses: its start is the index word at [n, 0] …
  have hstart0 : ScatterDims.start (s := ⟨2, ![S, T]⟩) (si := ⟨2, ![R, 2]⟩) (u := ⟨1, ![R]⟩) ⟨[], [0, 1], [0, 1], 1, wf⟩ n idx 0
      = (idx (ix2 (n 0) (0 : Fin 2))).toInt := by
    unfold ScatterDims.start
    refine (dif_pos (show (0 : Fin 2) ∈ ([0, 1] : List (Fin 2)) by decide)).trans ?_
    congr 2
    funext b; refine Fin.ext ?_
    match b with
    | ⟨0, _⟩ => rfl
    | ⟨1, _⟩ => rfl
  -- … operand axis 1 is the second: its start is the index word at [n, 1]
  have hstart1 : ScatterDims.start (s := ⟨2, ![S, T]⟩) (si := ⟨2, ![R, 2]⟩) (u := ⟨1, ![R]⟩) ⟨[], [0, 1], [0, 1], 1, wf⟩ n idx 1
      = (idx (ix2 (n 0) (1 : Fin 2))).toInt := by
    unfold ScatterDims.start
    refine (dif_pos (show (1 : Fin 2) ∈ ([0, 1] : List (Fin 2)) by decide)).trans ?_
    congr 2
    funext b; refine Fin.ext ?_
    match b with
    | ⟨0, _⟩ => rfl
    | ⟨1, _⟩ => rfl
  -- both operand axes are inserted: no window coordinate on either
  have hwin : ∀ a : Fin 2,
      ScatterDims.window (s := ⟨2, ![S, T]⟩) (si := ⟨2, ![R, 2]⟩) (u := ⟨1, ![R]⟩) ⟨[], [0, 1], [0, 1], 1, wf⟩ n a = 0 := by
    intro a
    unfold ScatterDims.window
    exact dif_neg (show a ∉ (List.finRange 2).filter (· ∉ ([0, 1] : List (Fin 2))) by revert a; decide)
  constructor
  · intro h
    have h0 := h 0
    have h1 := h 1
    rw [hstart0, hwin 0, Nat.cast_zero, add_zero] at h0
    rw [hstart1, hwin 1, Nat.cast_zero, add_zero] at h1
    exact ⟨h0, h1⟩
  · rintro ⟨h0, h1⟩ a
    match a with
    | ⟨0, _⟩ =>
      show ScatterDims.start _ n idx 0 + (ScatterDims.window _ n 0 : ℤ) = _
      rw [hstart0, hwin 0, Nat.cast_zero, add_zero]
      exact h0
    | ⟨1, _⟩ =>
      show ScatterDims.start _ n idx 1 + (ScatterDims.window _ n 1 : ℤ) = _
      rw [hstart1, hwin 1, Nat.cast_zero, add_zero]
      exact h1

/-- PAIRS: element `(o, t)` is the operand's plus the sum of the updates whose start index, read signed, is the pair
    `(o, t)`. -/
theorem scatterAdd_pairs_apply {S T R : ℕ} (d : ScatterDims ⟨2, ![S, T]⟩ ⟨2, ![R, 2]⟩ ⟨1, ![R]⟩)
    (huw : d.updateWindowDims = []) (hiw : d.insertedWindowDims = [0, 1]) (hsd : d.scatterDimsToOperandDims = [0, 1])
    (hiv : d.indexVectorDim = 1)
    (x : (⟨2, ![S, T]⟩ : Shape).Idx → EReal) (idx : IVec ⟨2, ![R, 2]⟩ 32) (upd : (⟨1, ![R]⟩ : Shape).Idx → EReal)
    (o : Fin S) (t : Fin T) :
    Ideal.hostScatterAdd d x idx upd (ix2 o t)
      = x (ix2 o t) + ∑ n ∈ Finset.univ.filter
          (fun n : (⟨1, ![R]⟩ : Shape).Idx => (idx (ix2 (n 0) (0 : Fin 2))).toInt = (o.val : ℤ)
            ∧ (idx (ix2 (n 0) (1 : Fin 2))).toInt = (t.val : ℤ)), upd n := by
  -- the two sums run over the same set of update indices
  unfold Ideal.hostScatterAdd
  congr 1
  refine Finset.sum_congr (Finset.filter_congr fun n _ => ?_) fun _ _ => rfl
  exact pairs_lands_iff d huw hiw hsd hiv idx n o t

end Cert.LibScatterAddPairs

end
-- ==== Proof.HostK.lean ====
/-
  What the program's host operations compute, read at an index, at the extended reals.

  Between its four matrix products the program runs plain array operations. This module reads their results one element
  at a time:
    * the edge arrays: the source and destination columns of the edge list (each followed by one loop per node) and the
      edge weights are the same terms as the reference program's, operation by operation;
    * the dense weighted adjacency matrix: the accumulating scatter of the edge weights into the zero 10240 × 10240 matrix
      at the index pairs (destination, source), each index word wrapped into the padded range first (a negative word
      has 10240 added; under the range hypotheses no word is negative, so the wrap changes nothing), followed by a
      change of float format that is the identity at the extended reals: element (d, s) is zero plus the weights of the
      edges from s into d;
    * the node features padded with 240 zero rows below (the padding value is the integer zero converted, which is zero);
    * the two bias vectors reshaped to one-row matrices;
    * the result: the first 10000 rows of the last product's output;
  and records which arrays each stretch of host operations leaves untouched.
-/
import proofs.«412831_j32925219291401_1_alg».proof.Proof.Gen.KernelIdeal.Regions
import proofs.«412831_j32925219291401_1_alg».proof.Proof.RefRead
import proofs.«412831_j32925219291401_1_alg».proof.Proof.Spec
import proofs.«412831_j32925219291401_1_alg».proof.Proof.LibScatterAddPairs
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Hand

open Idealize.ShloMosaic Idealize.ShloMosaic.TcCoe Idealize.ShloMosaic.ValueIdx
open Cert.KernelIdeal Cert.KernelIdeal.Gen

variable (m : (ℓ : Loc nD τ sig) → Buf (Elt Ideal) ℓ) (outs : Outs (F := Ideal)) (c : Dev nD)

/-! ## The result: the first 10000 rows of the last output -/

/-- The result array is the slice from the origin of the last product's output. -/
theorem hostK_out_eq :
    (V11 m outs c main_v53 : S10000x128.Idx → EReal)
      = extractStridedSlice S10000x128 ![0, 0] (outs 10 main_v52 c : S10240x128.Idx → EReal) slices_S10240x128_S10000x128_0_0 := by
  dsimp only [V11, hostOps4]
  after_results
  dsimp only [V10]
  rw [Function.update_self]

/-- Row `d < 10000` of the result is row `d` of the last product's output. -/
theorem hostK_out (d : Fin 10000) (f : Fin 128) :
    (V11 m outs c main_v53 : S10000x128.Idx → EReal) (ix2 d f)
      = (outs 10 main_v52 c : S10240x128.Idx → EReal) (ix2 (⟨d.val, by omega⟩ : Fin 10240) f) := by
  rw [hostK_out_eq]
  exact extractStridedSlice_apply _ _ _ _ _ (fun ax => by
    match ax with
    | ⟨0, _⟩ => exact (Nat.zero_add _).symm
    | ⟨1, _⟩ => exact (Nat.zero_add _).symm)

/-! ## The bias vectors as one-row matrices -/

/-- The first layer's bias row is the reshape of the bias vector as launched: no earlier item writes that argument. -/
theorem hostK_b1_eq :
    (V6 m outs c main_v48 : S1x256.Idx → EReal)
      = shapeCast S1x256 (m (c, Proc.devRef .tc main_arg3) : S256.Idx → EReal) shapeCasts_S256_S1x256 := by
  dsimp only [V6, hostOps1]
  after_results
  rw [V5_of m outs c main_arg3 (by decide), V4_of m c main_arg3 (by decide), V3_of m c main_arg3 (by decide),
    V2_of m c main_arg3 (by decide), V1_of m c main_arg3 (by decide)]
  rfl

/-- Entry `(0, f)` of the first layer's bias row is entry `f` of the bias vector: the same row-major position. -/
theorem hostK_b1 (f : Fin 256) :
    (V6 m outs c main_v48 : S1x256.Idx → EReal) (ix2 (0 : Fin 1) f)
      = (m (c, Proc.devRef .tc main_arg3) : S256.Idx → EReal) (ix1 f) := by
  rw [hostK_b1_eq]
  refine shapeCast_apply (s := S256) (t := S1x256) _ _ _ _ ?_
  show ((⟨1, ![256]⟩ : Shape).rowMajor (ix1 f)).val = ((⟨2, ![1, 256]⟩ : Shape).rowMajor (ix2 (0 : Fin 1) f)).val
  rw [Shape.rowMajor_val_one, Shape.rowMajor_val_two]
  show f.val = 0 * 256 + f.val
  omega

/-- The second layer's bias row is the reshape of the bias vector as launched. -/
theorem hostK_b2_eq :
    (V9 m outs c main_v51 : S1x128.Idx → EReal)
      = shapeCast S1x128 (m (c, Proc.devRef .tc main_arg5) : S128.Idx → EReal) shapeCasts_S128_S1x128 := by
  dsimp only [V9, hostOps3]
  after_results
  rw [V8_of m outs c main_arg5 (by decide), V7_of m outs c main_arg5 (by decide), V6_of m outs c main_arg5 (by decide),
    V5_of m outs c main_arg5 (by decide), V4_of m c main_arg5 (by decide), V3_of m c main_arg5 (by decide),
    V2_of m c main_arg5 (by decide), V1_of m c main_arg5 (by decide)]
  rfl

/-- Entry `(0, f)` of the second layer's bias row is entry `f` of the bias vector. -/
theorem hostK_b2 (f : Fin 128) :
    (V9 m outs c main_v51 : S1x128.Idx → EReal) (ix2 (0 : Fin 1) f)
      = (m (c, Proc.devRef .tc main_arg5) : S128.Idx → EReal) (ix1 f) := by
  rw [hostK_b2_eq]
  refine shapeCast_apply (s := S128) (t := S1x128) _ _ _ _ ?_
  show ((⟨1, ![128]⟩ : Shape).rowMajor (ix1 f)).val = ((⟨2, ![1, 128]⟩ : Shape).rowMajor (ix2 (0 : Fin 1) f)).val
  rw [Shape.rowMajor_val_one, Shape.rowMajor_val_two]
  show f.val = 0 * 128 + f.val
  omega

/-! ## The node features padded with zero rows -/

/-- The padded features are the host padding of the features as launched, 240 rows below, with the integer zero
    converted as the padding value. -/
theorem hostK_pad_eq :
    (V4 m c main_v46 : S10240x128.Idx → EReal)
      = pad S10240x128 ![0, 0] ![240, 0] ![0, 0] (m (c, Proc.devRef .tc main_arg0) : S10000x128.Idx → EReal)
          (sitofp (F := Ideal) .f32 (constantI S_ 32 0#32) : S_.Idx → EReal) pads_S10000x128_S10240x128_02400_000 h_S_ := by
  dsimp only [V4, hostOps0_3]
  after_results
  rfl

/-- Row `i` of the padded features is row `i` of the features when `i < 10000`, and zero below. -/
theorem hostK_pad (i : Fin 10240) (k : Fin 128) :
    (V4 m c main_v46 : S10240x128.Idx → EReal) (ix2 i k)
      = Cert.Gcn.padRows (fun i k => (m (c, Proc.devRef .tc main_arg0) : S10000x128.Idx → EReal) (ix2 i k)) i k := by
  rw [hostK_pad_eq]
  unfold Cert.Gcn.padRows
  by_cases h : i.val < 10000
  · -- inside the operand: no low padding and no interior padding, so the coordinates are the operand's
    rw [dif_pos h]
    refine pad_apply_of_inside (s := S10000x128) (t := S10240x128) _ _ _ _ _ _ _ _ (ix2 (⟨i.val, h⟩ : Fin 10000) k) (fun a => ?_)
    match a with
    | ⟨0, _⟩ => show i.val = 0 + i.val * (0 + 1); omega
    | ⟨1, _⟩ => show k.val = 0 + k.val * (0 + 1); omega
  · -- below the operand on axis 0: the padding value, the integer zero converted
    rw [dif_neg h]
    refine (pad_apply_of_not_inside (s := S10000x128) (t := S10240x128) _ _ _ _ _ _ _ _ (0 : Fin 2) (fun hc => h ?_)).trans ?_
    · have h3 := hc.2.2
      have : ((ix2 i k : S10240x128.Idx) ((0 : Fin 2).cast pads_S10000x128_S10240x128_02400_000.1)).val = i.val := rfl
      rw [this] at h3
      change (i.val - 0) / (0 + 1) < 10000 at h3
      omega
    · show Scalar.sitofp (F := Ideal) .f32 (0#32) = 0
      exact sitofp_zero

/-! ## What each stretch leaves untouched -/

/-- The adjacency matrix is not written after the third stretch: it is still there before the first aggregation … -/
theorem V6_main_v45 : V6 m outs c main_v45 = V3 m c main_v45 :=
  (V6_of m outs c main_v45 (by decide)).trans <| (V5_of m outs c main_v45 (by decide)).trans (V4_of m c main_v45 (by decide))

/-- … and before the second. -/
theorem V9_main_v45 : V9 m outs c main_v45 = V3 m c main_v45 :=
  (V9_of m outs c main_v45 (by decide)).trans <| (V8_of m outs c main_v45 (by decide)).trans <|
    (V7_of m outs c main_v45 (by decide)).trans (V6_main_v45 m outs c)

/-- The first layer's weights are as launched before the first product. -/
theorem V4_main_arg2 : V4 m c main_arg2 = m (c, Proc.devRef .tc main_arg2) :=
  (V4_of m c main_arg2 (by decide)).trans <| (V3_of m c main_arg2 (by decide)).trans <|
    (V2_of m c main_arg2 (by decide)).trans <| (V1_of m c main_arg2 (by decide)).trans rfl

/-- The first product's output is what the first region left, before the first aggregation. -/
theorem V6_main_v47 : V6 m outs c main_v47 = outs 5 main_v47 c :=
  (V6_of m outs c main_v47 (by decide)).trans (Function.update_self ..)

/-- The first aggregation's output is what the second region left. -/
theorem V7_main_v49 : V7 m outs c main_v49 = outs 7 main_v49 c := Function.update_self ..

/-- The second layer's weights are as launched before the second product. -/
theorem V7_main_arg4 : V7 m outs c main_arg4 = m (c, Proc.devRef .tc main_arg4) :=
  (V7_of m outs c main_arg4 (by decide)).trans <| (V6_of m outs c main_arg4 (by decide)).trans <|
    (V5_of m outs c main_arg4 (by decide)).trans <| (V4_of m c main_arg4 (by decide)).trans <|
    (V3_of m c main_arg4 (by decide)).trans <| (V2_of m c main_arg4 (by decide)).trans <|
    (V1_of m c main_arg4 (by decide)).trans rfl

/-- The second product's output is what the third region left, before the second aggregation. -/
theorem V9_main_v50 : V9 m outs c main_v50 = outs 8 main_v50 c :=
  (V9_of m outs c main_v50 (by decide)).trans (Function.update_self ..)

/-! ## The edge arrays: the same terms as the reference program's

The first operations of the program — the two edge columns with the loops appended, the degree count, its inverse
square root under a select, the two gathers and their product — are the reference program's own first operations. The two
terms are compared at an arbitrary float instance, where no float operation unfolds; the two programs' shape
facts are propositions, so the terms agree up to proof irrelevance. -/

section AnyFloat

variable {F : FTy → Type} [FloatOps F] (mF : (ℓ : Loc nD τ sig) → Buf (Elt F) ℓ)

/-- After the first seven operations: the source column with the loops appended. -/
theorem head7_src :
    StableHlo.after (List.take 7 hostOps0) (V0 mF c) (Proc.devRef .tc main_v3)
      = Cert.ReferenceIdeal.ReadP.val_main_v3 (F := F) (mF (c, Proc.devRef .tc main_arg1)) := by
  dsimp only [hostOps0, List.take]
  after_results
  unfold Cert.ReferenceIdeal.ReadP.val_main_v3 Cert.ReferenceIdeal.ReadP.val_main_v2 Cert.ReferenceIdeal.ReadP.val_main_v1
    Cert.ReferenceIdeal.ReadP.val_main_v0
  rfl

/-- After the first seven operations: the destination column with the loops appended. -/
theorem head7_dst :
    StableHlo.after (List.take 7 hostOps0) (V0 mF c) (Proc.devRef .tc main_v6)
      = Cert.ReferenceIdeal.ReadP.val_main_v6 (F := F) (mF (c, Proc.devRef .tc main_arg1)) := by
  dsimp only [hostOps0, List.take]
  after_results
  unfold Cert.ReferenceIdeal.ReadP.val_main_v6 Cert.ReferenceIdeal.ReadP.val_main_v5 Cert.ReferenceIdeal.ReadP.val_main_v4
    Cert.ReferenceIdeal.ReadP.val_main_v0
  rfl

/-- The three first stretches in two parts: the first seven operations, then the rest. -/
theorem V3_split7 :
    V3 mF c = StableHlo.after hostOps0_2 (StableHlo.after hostOps0_1
      (StableHlo.after (List.drop 7 hostOps0) (StableHlo.after (List.take 7 hostOps0) (V0 mF c)))) := rfl

/-- No later operation of the three stretches writes the source column … -/
theorem rest_src (X : Valuation τ sig (Elt F)) :
    StableHlo.after hostOps0_2 (StableHlo.after hostOps0_1 (StableHlo.after (List.drop 7 hostOps0) X)) (Proc.devRef .tc main_v3)
      = X (Proc.devRef .tc main_v3) := by
  dsimp only [hostOps0_2, hostOps0_1, hostOps0, List.drop]
  after_results_simp

/-- … nor the destination column. -/
theorem rest_dst (X : Valuation τ sig (Elt F)) :
    StableHlo.after hostOps0_2 (StableHlo.after hostOps0_1 (StableHlo.after (List.drop 7 hostOps0) X)) (Proc.devRef .tc main_v6)
      = X (Proc.devRef .tc main_v6) := by
  dsimp only [hostOps0_2, hostOps0_1, hostOps0, List.drop]
  after_results_simp

/-- The rest of the three stretches, from any contents that hold the reference's two edge columns: the edge weights are
    the reference's. -/
theorem rest_norm (X : Valuation τ sig (Elt F)) (x1 : (⟨S2x640000, .i32⟩ : BufTy).Contents (Elt F))
    (h3 : X (Proc.devRef .tc main_v3) = Cert.ReferenceIdeal.ReadP.val_main_v3 (F := F) x1)
    (h6 : X (Proc.devRef .tc main_v6) = Cert.ReferenceIdeal.ReadP.val_main_v6 (F := F) x1) :
    StableHlo.after hostOps0_2 (StableHlo.after hostOps0_1 (StableHlo.after (List.drop 7 hostOps0) X)) (Proc.devRef .tc main_v29)
      = Cert.ReferenceIdeal.ReadP.val_main_v29 (F := F) x1 := by
  dsimp only [hostOps0_2, hostOps0_1, hostOps0, List.drop]
  after_results_simp
  rw [h3, h6]
  rfl

/-- The source column after the third stretch is the reference's. -/
theorem hostG_src :
    V3 mF c main_v3 = Cert.ReferenceIdeal.ReadP.val_main_v3 (F := F) (mF (c, Proc.devRef .tc main_arg1)) :=
  (congrFun (V3_split7 c mF) _).trans <| (rest_src _).trans (head7_src c mF)

/-- The destination column after the third stretch is the reference's. -/
theorem hostG_dst :
    V3 mF c main_v6 = Cert.ReferenceIdeal.ReadP.val_main_v6 (F := F) (mF (c, Proc.devRef .tc main_arg1)) :=
  (congrFun (V3_split7 c mF) _).trans <| (rest_dst _).trans (head7_dst c mF)

/-- The edge weights after the third stretch are the reference's. -/
theorem hostG_norm :
    V3 mF c main_v29 = Cert.ReferenceIdeal.ReadP.val_main_v29 (F := F) (mF (c, Proc.devRef .tc main_arg1)) :=
  (congrFun (V3_split7 c mF) _).trans (rest_norm _ _ (head7_src c mF) (head7_dst c mF))

end AnyFloat

/-- The source column is the reference's, at the extended reals. -/
theorem hostK_src :
    V3 m c main_v3 = Cert.ReferenceIdeal.ReadP.val_main_v3 (F := Ideal) (m (c, Proc.devRef .tc main_arg1)) :=
  hostG_src c m

/-- The destination column is the reference's, at the extended reals. -/
theorem hostK_dst :
    V3 m c main_v6 = Cert.ReferenceIdeal.ReadP.val_main_v6 (F := Ideal) (m (c, Proc.devRef .tc main_arg1)) :=
  hostG_dst c m

/-- The edge weights are the reference's, at the extended reals. -/
theorem hostK_norm :
    V3 m c main_v29 = Cert.ReferenceIdeal.ReadP.val_main_v29 (F := Ideal) (m (c, Proc.devRef .tc main_arg1)) :=
  hostG_norm c m

/-! ## The dense weighted adjacency matrix -/

/-- An index word wrapped into the padded range: a negative word has 10240 added. -/
abbrev wrapK (z : S650000.Idx → BitVec 32) : S650000.Idx → BitVec 32 :=
  select (cmpi .slt z (broadcastInDim S650000 ![] bcast_S_S650000 (constantI S_ 32 0#32)))
    (addi z (broadcastInDim S650000 ![] bcast_S_S650000 (constantI S_ 32 10240#32))) z

/-- A word that is not negative is left as it is. -/
theorem wrapK_of_nonneg (z : S650000.Idx → BitVec 32) (i : S650000.Idx) (h : 0 ≤ (z i).toInt) : wrapK z i = z i := by
  show Scalar.select (IntOp.cmpi .slt (z i) 0#32) (IntOp.addi (z i) 10240#32) (z i) = z i
  have hf : (z i).slt 0#32 = false := by
    unfold BitVec.slt
    exact decide_eq_false (by rw [BitVec.toInt_zero]; omega)
  have hc : IntOp.cmpi .slt (z i) 0#32 = 0#1 := by
    show BitVec.ofBool ((z i).slt 0#32) = 0#1
    rw [hf]; rfl
  rw [hc]
  exact select_zero _ _

/-- The third stretch of host operations in two parts: its first 35 operations, then the last six (the two index
    columns, their concatenation, the scatter, the format change, a constant). -/
theorem V3_split :
    V3 m c = StableHlo.after (List.drop 35 hostOps0_2) (StableHlo.after (List.take 35 hostOps0_2) (V2 m c)) := rfl

/-- After the first 35 operations: the zero matrix. -/
theorem head_v30 (W : Valuation τ sig (Elt Ideal)) :
    (StableHlo.after (List.take 35 hostOps0_2) W (Proc.devRef .tc main_v30) : S10240x10240.Idx → EReal)
      = broadcastInDim S10240x10240 ![] bcast_S_S10240x10240 (constant (F := Ideal) S_ .f32 0x00000000#32) := by
  dsimp only [hostOps0_2, List.take]
  after_results_simp

/-- After the first 35 operations: the destination column, wrapped. -/
theorem head_v35 (W : Valuation τ sig (Elt Ideal)) :
    (StableHlo.after (List.take 35 hostOps0_2) W (Proc.devRef .tc main_v35) : S650000.Idx → BitVec 32)
      = wrapK (W (Proc.devRef .tc main_v6)) := by
  dsimp only [hostOps0_2, List.take]
  after_results_simp

/-- After the first 35 operations: the source column, wrapped. -/
theorem head_v40 (W : Valuation τ sig (Elt Ideal)) :
    (StableHlo.after (List.take 35 hostOps0_2) W (Proc.devRef .tc main_v40) : S650000.Idx → BitVec 32)
      = wrapK (W (Proc.devRef .tc main_v3)) := by
  dsimp only [hostOps0_2, List.take]
  after_results_simp

/-- The last six operations: the matrix is the format change of the scatter of the weights into the zero matrix at the
    two wrapped columns side by side. -/
theorem tail_v45 (R : Valuation τ sig (Elt Ideal)) :
    (StableHlo.after (List.drop 35 hostOps0_2) R (Proc.devRef .tc main_v45) : S10240x10240.Idx → EReal)
      = truncf .bf16 (Host.scatterAdd (F := Ideal) scatter_S10240x10240_S650000x2_S650000_n_01_01_1
          (R (Proc.devRef .tc main_v30) : S10240x10240.Idx → EReal)
          (concatenate S650000x2 1
            [⟨S650000x1, broadcastInDim S650000x1 ![0] bcast_S650000_S650000x1_0 (R (Proc.devRef .tc main_v35) : S650000.Idx → BitVec 32)⟩,
             ⟨S650000x1, broadcastInDim S650000x1 ![0] bcast_S650000_S650000x1_0 (R (Proc.devRef .tc main_v40) : S650000.Idx → BitVec 32)⟩]
            concatenates_S650000x1_S650000x1_S650000x2_d1)
          (R (Proc.devRef .tc main_v29) : S650000.Idx → EReal)) bitsLt_bf16_f32 := by
  dsimp only [hostOps0_2, List.drop]
  after_results

/-- The last six operations do not write the weights. -/
theorem tail_v29 (R : Valuation τ sig (Elt Ideal)) :
    StableHlo.after (List.drop 35 hostOps0_2) R (Proc.devRef .tc main_v29) = R (Proc.devRef .tc main_v29) := by
  dsimp only [hostOps0_2, List.drop]
  after_results

/-- The adjacency matrix as one term over the edge columns and the weights. -/
theorem hostK_v45_eq :
    (V3 m c main_v45 : S10240x10240.Idx → EReal)
      = truncf .bf16 (Host.scatterAdd (F := Ideal) scatter_S10240x10240_S650000x2_S650000_n_01_01_1
          (broadcastInDim S10240x10240 ![] bcast_S_S10240x10240 (constant (F := Ideal) S_ .f32 0x00000000#32))
          (concatenate S650000x2 1
            [⟨S650000x1, broadcastInDim S650000x1 ![0] bcast_S650000_S650000x1_0 (wrapK (V3 m c main_v6 : S650000.Idx → BitVec 32))⟩,
             ⟨S650000x1, broadcastInDim S650000x1 ![0] bcast_S650000_S650000x1_0 (wrapK (V3 m c main_v3 : S650000.Idx → BitVec 32))⟩]
            concatenates_S650000x1_S650000x1_S650000x2_d1)
          (V3 m c main_v29 : S650000.Idx → EReal)) bitsLt_bf16_f32 := by
  have hv6 : V3 m c main_v6 = V2 m c main_v6 := V3_of m c main_v6 (by decide)
  have hv3 : V3 m c main_v3 = V2 m c main_v3 := V3_of m c main_v3 (by decide)
  have hv29 : V3 m c main_v29 = StableHlo.after (List.take 35 hostOps0_2) (V2 m c) (Proc.devRef .tc main_v29) :=
    (congrFun (V3_split m c) _).trans (tail_v29 _)
  rw [hv6, hv3, hv29]
  refine (congrFun (V3_split m c) _).trans ?_
  refine (tail_v45 _).trans ?_
  rw [head_v30, head_v35, head_v40]

/-- At the extended reals the change of float format is the identity, and the host's accumulating scatter is the exact
    sum. -/
theorem truncf_scatterAdd_apply {s si u : Shape} {w : Nat} (dd : ScatterDims s si u) (x : s.Idx → EReal)
    (idx : IVec si w) (upd : u.Idx → EReal) (h : FTy.bf16.bits < FTy.f32.bits) (i : s.Idx) :
    (truncf .bf16 (Host.scatterAdd (F := Ideal) (φ := .f32) dd x idx upd) h : s.Idx → EReal) i
      = Ideal.hostScatterAdd dd x idx upd i := rfl

/-- The matrix's entry `(d, s)`: zero plus the weights of the edges whose destination word is `d` and whose source word
    is `s`, once every edge's two index words are known to be the node numbers `dst e` and `src e` (so none is negative
    and the wrap changes none). -/
theorem hostK_adj (src dst : Fin 650000 → Fin 10000)
    (hS : ∀ e : Fin 650000, ((V3 m c main_v3 : S650000.Idx → BitVec 32) (ix1 e)).toInt = ((src e).val : ℤ))
    (hD : ∀ e : Fin 650000, ((V3 m c main_v6 : S650000.Idx → BitVec 32) (ix1 e)).toInt = ((dst e).val : ℤ))
    (d s : Fin 10240) :
    (V3 m c main_v45 : S10240x10240.Idx → EReal) (ix2 d s)
      = Cert.Gcn.adj src dst (fun e => (V3 m c main_v29 : S650000.Idx → EReal) (ix1 e)) d s := by
  rw [hostK_v45_eq]
  -- column 0 of the index table at row e: the destination word, wrapped, which is the destination word
  have hc0 : ∀ e : Fin 650000,
      (concatenate S650000x2 1
        [⟨S650000x1, broadcastInDim S650000x1 ![0] bcast_S650000_S650000x1_0 (wrapK (V3 m c main_v6 : S650000.Idx → BitVec 32))⟩,
         ⟨S650000x1, broadcastInDim S650000x1 ![0] bcast_S650000_S650000x1_0 (wrapK (V3 m c main_v3 : S650000.Idx → BitVec 32))⟩]
        concatenates_S650000x1_S650000x1_S650000x2_d1 (ix2 e (0 : Fin 2))).toInt = ((dst e).val : ℤ) := by
    intro e
    rw [concatenate_pair_apply_left (t := S650000x2) (s₁ := S650000x1) (s₂ := S650000x1) 1 _ _ _ (ix2 e (0 : Fin 2)) rfl
      (ix2 e (0 : Fin 1)) (fun b => by match b with | ⟨0, _⟩ => rfl | ⟨1, _⟩ => rfl)]
    rw [broadcastInDim_apply (s := S650000) (t := S650000x1) ![0] bcast_S650000_S650000x1_0 _ (ix2 e (0 : Fin 1)) (ix1 e)
      (fun a => by match a with | ⟨0, _⟩ => rfl)]
    rw [wrapK_of_nonneg _ _ (by rw [hD e]; exact Int.natCast_nonneg _)]
    exact hD e
  -- column 1: the source word
  have hc1 : ∀ e : Fin 650000,
      (concatenate S650000x2 1
        [⟨S650000x1, broadcastInDim S650000x1 ![0] bcast_S650000_S650000x1_0 (wrapK (V3 m c main_v6 : S650000.Idx → BitVec 32))⟩,
         ⟨S650000x1, broadcastInDim S650000x1 ![0] bcast_S650000_S650000x1_0 (wrapK (V3 m c main_v3 : S650000.Idx → BitVec 32))⟩]
        concatenates_S650000x1_S650000x1_S650000x2_d1 (ix2 e (1 : Fin 2))).toInt = ((src e).val : ℤ) := by
    intro e
    rw [concatenate_pair_apply_right (t := S650000x2) (s₁ := S650000x1) (s₂ := S650000x1) 1 _ _ _ (ix2 e (1 : Fin 2)) rfl rfl
      (ix2 e (0 : Fin 1)) (fun b hb => by
        match b with
        | ⟨0, _⟩ => rfl
        | ⟨1, _⟩ => exact absurd rfl hb) rfl]
    rw [broadcastInDim_apply (s := S650000) (t := S650000x1) ![0] bcast_S650000_S650000x1_0 _ (ix2 e (0 : Fin 1)) (ix1 e)
      (fun a => by match a with | ⟨0, _⟩ => rfl)]
    rw [wrapK_of_nonneg _ _ (by rw [hS e]; exact Int.natCast_nonneg _)]
    exact hS e
  -- the scatter at (d, s): the zero matrix's entry plus the weights of the rows whose pair is (d, s)
  rw [truncf_scatterAdd_apply,
    Cert.LibScatterAddPairs.scatterAdd_pairs_apply scatter_S10240x10240_S650000x2_S650000_n_01_01_1 rfl rfl rfl rfl]
  unfold Cert.Gcn.adj
  refine congrArg₂ (· + ·) ?_ ?_
  · -- the zero matrix
    exact (broadcastInDim_apply (s := S_) (t := S10240x10240) ![] bcast_S_S10240x10240 _ (ix2 d s) ix0 (fun a => a.elim0)).trans
      Ideal.ofBits_zero_f32
  · -- the rows of the update vector are the edges
    refine Finset.sum_bij' (fun n _ => n 0) (fun e _ => ix1 e) ?_ ?_ ?_ ?_ ?_
    · intro n hn
      have hn' := (Finset.mem_filter.mp hn).2
      refine Finset.mem_filter.mpr ⟨Finset.mem_univ _, ?_, ?_⟩
      · have h0 := hn'.1
        rw [hc0 (n 0)] at h0
        exact_mod_cast h0
      · have h1 := hn'.2
        rw [hc1 (n 0)] at h1
        exact_mod_cast h1
    · intro e he
      have he' := (Finset.mem_filter.mp he).2
      refine Finset.mem_filter.mpr ⟨Finset.mem_univ _, ?_, ?_⟩
      · exact (hc0 e).trans (by exact_mod_cast he'.1)
      · exact (hc1 e).trans (by exact_mod_cast he'.2)
    · intro n _
      exact (eq_ix1 n).symm
    · intro e _
      rfl
    · intro n _
      exact congrArg _ (eq_ix1 n)

end Cert.KernelIdeal.Hand

end
-- ==== Proof.KVal.lean ====
/-
  The idealized kernel's result as a function of its arguments: the dense layer applied twice.

  The four regions' output arrays in closed form (a plain matrix product for each feature transform; the adjacency
  matrix times the transformed features plus bias, clamped below at zero, for each aggregation) are composed along the
  program: each region finds in its input arrays what the host lines and the regions before it left.
-/
import proofs.«412831_j32925219291401_1_alg».proof.Proof.KI.Run
import proofs.«412831_j32925219291401_1_alg».proof.Proof.KI.Lin0Val
import proofs.«412831_j32925219291401_1_alg».proof.Proof.KI.Agg1Val
import proofs.«412831_j32925219291401_1_alg».proof.Proof.KI.Lin2Val
import proofs.«412831_j32925219291401_1_alg».proof.Proof.KI.Agg3Val
import proofs.«412831_j32925219291401_1_alg».proof.Proof.HostK
import proofs.«412831_j32925219291401_1_alg».proof.Proof.Spec

set_option maxRecDepth 16384

noncomputable section

namespace Cert.KernelIdeal.Hand

open Idealize.ShloMosaic Idealize.ShloMosaic.TcCoe Idealize.ShloMosaic.ValueIdx
open Cert.KernelIdeal Cert.KernelIdeal.Gen Cert.Gcn

variable (m : (ℓ : Loc nD τ sig) → Buf (Elt Ideal) ℓ) (c : Dev nD)

/-! ## The arguments and the adjacency matrix as plain functions -/

/-- The node features. -/
abbrev xK : Fin 10000 → Fin 128 → EReal := fun i k => (m (c, Proc.devRef .tc main_arg0) : S10000x128.Idx → EReal) (ix2 i k)
/-- The two layers' weights and biases. -/
abbrev W1K : Fin 128 → Fin 256 → EReal := fun k j => (m (c, Proc.devRef .tc main_arg2) : S128x256.Idx → EReal) (ix2 k j)
abbrev b1K : Fin 256 → EReal := fun j => (m (c, Proc.devRef .tc main_arg3) : S256.Idx → EReal) (ix1 j)
abbrev W2K : Fin 256 → Fin 128 → EReal := fun k j => (m (c, Proc.devRef .tc main_arg4) : S256x128.Idx → EReal) (ix2 k j)
abbrev b2K : Fin 128 → EReal := fun j => (m (c, Proc.devRef .tc main_arg5) : S128.Idx → EReal) (ix1 j)
/-- The dense matrix the host lines build before the first region. -/
abbrev AK : Fin 10240 → Fin 10240 → EReal := fun d s => (V3 m c main_v45 : S10240x10240.Idx → EReal) (ix2 d s)

/-! ## The four regions' outputs -/

/-- The first feature transform leaves the padded features times the first weights. -/
theorem H1_eq (s : Fin 10240) (k : Fin 256) :
    (o5 m c : S10240x256.Idx → EReal) (ix2 s k) = ∑ k' : Fin 128, padRows (xK m c) s k' * W1K m c k' k := by
  change @Eq EReal _ _
  unfold o5
  rw [lin0_final]
  refine Finset.sum_congr rfl fun k' _ => ?_
  refine congrArg₂ (· * ·) ?_ ?_
  · exact hostK_pad m c s k'
  · show (V4 m c main_arg2 : S128x256.Idx → EReal) (ix2 k' k) = _
    rw [V4_main_arg2]

/-- The first aggregation leaves the first layer's output on the padded range. -/
theorem O1_eq (d : Fin 10240) (f : Fin 256) :
    (o7 m c : S10240x256.Idx → EReal) (ix2 d f) = kerLayer (AK m c) (padRows (xK m c)) (W1K m c) (b1K m c) d f := by
  change @Eq EReal _ _
  unfold o7
  rw [agg1_final]
  unfold kerLayer
  refine congrArg₂ max (congrArg₂ (· + ·) (Finset.sum_congr rfl fun s _ => congrArg₂ (· * ·) ?_ ?_) ?_) rfl
  · show (V6 m (outsA m) c main_v45 : S10240x10240.Idx → EReal) (ix2 d s) = _
    rw [V6_outsA, V6_main_v45]
  · show (V6 m (outsA m) c main_v47 : S10240x256.Idx → EReal) (ix2 s f) = _
    rw [V6_outsA, V6_main_v47, outs_47]
    exact H1_eq m c s f
  · show (V6 m (outsA m) c main_v48 : S1x256.Idx → EReal) (ix2 (0 : Fin 1) f) = _
    rw [V6_outsA]
    exact hostK_b1 m (outs m) c f

/-- The second feature transform leaves the first layer's output times the second weights. -/
theorem H2_eq (s : Fin 10240) (k : Fin 128) :
    (o8 m c : S10240x128.Idx → EReal) (ix2 s k)
      = ∑ k' : Fin 256, kerLayer (AK m c) (padRows (xK m c)) (W1K m c) (b1K m c) s k' * W2K m c k' k := by
  change @Eq EReal _ _
  unfold o8
  rw [lin2_final]
  refine Finset.sum_congr rfl fun k' _ => ?_
  refine congrArg₂ (· * ·) ?_ ?_
  · show (V7 m (outsB m) c main_v49 : S10240x256.Idx → EReal) (ix2 s k') = _
    rw [V7_outsB, V7_main_v49, outs_49]
    exact O1_eq m c s k'
  · show (V7 m (outsB m) c main_arg4 : S256x128.Idx → EReal) (ix2 k' k) = _
    rw [V7_outsB, V7_main_arg4]

/-- The second aggregation leaves the second layer's output on the padded range. -/
theorem O2_eq (d : Fin 10240) (f : Fin 128) :
    (o10 m c : S10240x128.Idx → EReal) (ix2 d f)
      = kerLayer (AK m c) (kerLayer (AK m c) (padRows (xK m c)) (W1K m c) (b1K m c)) (W2K m c) (b2K m c) d f := by
  change @Eq EReal _ _
  unfold o10
  rw [agg3_final]
  conv_rhs => unfold kerLayer
  refine congrArg₂ max (congrArg₂ (· + ·) (Finset.sum_congr rfl fun s _ => congrArg₂ (· * ·) ?_ ?_) ?_) rfl
  · show (V9 m (outsC m) c main_v45 : S10240x10240.Idx → EReal) (ix2 d s) = _
    rw [V9_outsC, V9_main_v45]
  · show (V9 m (outsC m) c main_v50 : S10240x128.Idx → EReal) (ix2 s f) = _
    rw [V9_outsC, V9_main_v50, outs_50]
    exact H2_eq m c s f
  · show (V9 m (outsC m) c main_v51 : S1x128.Idx → EReal) (ix2 (0 : Fin 1) f) = _
    rw [V9_outsC]
    exact hostK_b2 m (outs m) c f

/-- THE KERNEL'S VALUE: entry `(d, f)` of the result is the dense layer applied twice, read in row `d < 10000`. -/
theorem kernel_value (d : Fin 10000) (f : Fin 128) :
    (V11 m (outs m) c main_v53 : S10000x128.Idx → EReal) (ix2 d f)
      = kerLayer (AK m c) (kerLayer (AK m c) (padRows (xK m c)) (W1K m c) (b1K m c)) (W2K m c) (b2K m c) ⟨d.val, by omega⟩ f := by
  change @Eq EReal _ _
  rw [hostK_out m (outs m) c d f, outs_52]
  exact O2_eq m c ⟨d.val, by omega⟩ f

end Cert.KernelIdeal.Hand

end
-- ==== Proof.LibScatterAdd.lean ====
/-
  An accumulating scatter read at an index, at the extended reals.

  The accumulating scatter of updates into an operand holds, at each operand index, the operand's element plus the
  sum of the updates that land there. An update lands, on every operand axis, at its start (the start index's component
  for that axis, read as a signed integer and not clamped; zero on an axis the start index does not address) plus its
  window coordinate (the update's coordinate on the window axis that goes to that operand axis; zero on an inserted
  axis); an update that lands outside the operand on some axis is dropped.

  Two shapes of it:
    * FLAT: a vector operand [N], a column of start indices [R, 1], one scalar update per start index [R]. The one operand
      axis is addressed by the start index and inserted, so update n lands on p exactly when idx[n, 0], read signed, is p:
      element p is the operand's plus the updates n whose start index is p.
    * ROWS: a matrix operand [S, T], a column of start indices [R, 1] naming ROWS, one row update [R, T] per start index.
      Operand axis 0 is addressed by the start index and inserted, operand axis 1 carries the update's window axis 1 from
      start zero, so update (n, t') lands on (o, t) exactly when idx[n, 0], read signed, is o and t' = t. The sum over
      the update indices that land on (o, t), split by coordinates, keeps in each row n at most the one term t' = t:
      element (o, t) is the operand's plus the updates (n, t) of the rows n whose start index is o.
-/
import Idealize.ShloMosaic.PureOps.Ideal
import Idealize.ShloMosaic.Lib.ValueIdx
import proofs.«412831_j32925219291401_1_alg».proof.Proof.LibScatterConst

noncomputable section

namespace Cert.LibScatterAdd

open Idealize.ShloMosaic Idealize.ShloMosaic.ValueIdx

/-- FLAT, one update: update `n` lands on `p` exactly when its start index, read signed, is `p`. The operand's one axis is
    the one the start index addresses, so the start there is the index word at `[n, 0]`; that axis is inserted, so the
    window coordinate is zero. -/
theorem flat_lands_iff {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1) (idx : IVec ⟨2, ![R, 1]⟩ 32) (n : (⟨1, ![R]⟩ : Shape).Idx) (p : Fin N) :
    d.resultIdx? n idx = some (ix1 p) ↔ (idx (ix2 (n 0) (0 : Fin 1))).toInt = (p.val : ℤ) := by
  rw [Cert.LibScatterConst.resultIdx?_eq_some_iff]
  obtain ⟨uw, iw, sd, iv, wf⟩ := d
  dsimp only at huw hiw hsd hiv
  subst huw hiw hsd hiv
  -- the start on the operand's axis: the index word at [n, 0]
  have hstart : ScatterDims.start (s := ⟨1, ![N]⟩) (si := ⟨2, ![R, 1]⟩) (u := ⟨1, ![R]⟩) ⟨[], [0], [0], 1, wf⟩ n idx 0
      = (idx (ix2 (n 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- the operand's axis is inserted: no window coordinate
  have hwin : ScatterDims.window (s := ⟨1, ![N]⟩) (si := ⟨2, ![R, 1]⟩) (u := ⟨1, ![R]⟩) ⟨[], [0], [0], 1, wf⟩ n 0 = 0 := by
    unfold ScatterDims.window
    exact dif_neg (show (0 : Fin 1) ∉ (List.finRange 1).filter (· ∉ ([0] : List (Fin 1))) by decide)
  constructor
  · intro h
    have h0 := h 0
    rw [hstart, hwin, Nat.cast_zero, add_zero] at h0
    exact h0
  · intro h a
    obtain rfl : a = 0 := Subsingleton.elim _ _
    rw [hstart, hwin, Nat.cast_zero, add_zero]
    exact h

/-- FLAT: element `p` is the operand's plus the sum of the updates whose start index, read signed, is `p`. -/
theorem scatterAdd_flat_apply {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![R, 1]⟩ 32) (upd : (⟨1, ![R]⟩ : Shape).Idx → EReal) (p : Fin N) :
    Ideal.hostScatterAdd d x idx upd (ix1 p)
      = x (ix1 p) + ∑ n ∈ Finset.univ.filter
          (fun n : (⟨1, ![R]⟩ : Shape).Idx => (idx (ix2 (n 0) (0 : Fin 1))).toInt = (p.val : ℤ)), upd n := by
  -- the two sums run over the same set of update indices
  unfold Ideal.hostScatterAdd
  congr 1
  refine Finset.sum_congr (Finset.filter_congr fun n _ => ?_) fun _ _ => rfl
  exact flat_lands_iff d huw hiw hsd hiv idx n p

/-- ROWS, one update: update `j = (n, t')` lands on `(o, t)` exactly when the start index of row `n`, read signed, is `o`
    and `t' = t`. On operand axis 0 the start is the index word at `[n, 0]` and the axis is inserted (window coordinate
    zero); operand axis 1 is not addressed by the start index (start zero) and carries the update's axis 1. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff]
  obtain ⟨uw, iw, sd, iv, wf⟩ := d
  dsimp only at huw hiw hsd hiv
  subst huw hiw hsd hiv
  -- operand axis 0: the start is the index word at [n, 0] …
  have hstart0 : ScatterDims.start (s := ⟨2, ![S, T]⟩) (si := ⟨2, ![R, 1]⟩) (u := ⟨2, ![R, T]⟩) ⟨[1], [0], [0], 1, wf⟩ j idx 0
      = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 1 is not addressed by the start index
  have hstart1 : ScatterDims.start (s := ⟨2, ![S, T]⟩) (si := ⟨2, ![R, 1]⟩) (u := ⟨2, ![R, T]⟩) ⟨[1], [0], [0], 1, wf⟩ j idx 1
      = 0 := by
    unfold ScatterDims.start
    exact dif_neg (show (1 : Fin 2) ∉ ([0] : List (Fin 2)) by decide)
  -- operand axis 0 is inserted: no window coordinate …
  have hwin0 : ScatterDims.window (s := ⟨2, ![S, T]⟩) (si := ⟨2, ![R, 1]⟩) (u := ⟨2, ![R, T]⟩) ⟨[1], [0], [0], 1, wf⟩ j 0 = 0 := by
    unfold ScatterDims.window
    exact dif_neg (show (0 : Fin 2) ∉ (List.finRange 2).filter (· ∉ ([0] : List (Fin 2))) by decide)
  -- … operand axis 1 is the one kept axis: its window coordinate is the update's coordinate on its window axis 1
  have hwin1 : ScatterDims.window (s := ⟨2, ![S, T]⟩) (si := ⟨2, ![R, 1]⟩) (u := ⟨2, ![R, T]⟩) ⟨[1], [0], [0], 1, wf⟩ j 1
      = (j 1).val := by
    unfold ScatterDims.window
    exact (dif_pos (show (1 : Fin 2) ∈ (List.finRange 2).filter (· ∉ ([0] : List (Fin 2))) by decide)).trans rfl
  constructor
  · intro h
    have h0 := h 0
    have h1 := h 1
    rw [hstart0, hwin0, Nat.cast_zero, add_zero] at h0
    rw [hstart1, hwin1, zero_add] at h1
    exact ⟨h0, Fin.ext (by exact_mod_cast h1)⟩
  · rintro ⟨h0, h1⟩ a
    match a with
    | ⟨0, _⟩ =>
      show ScatterDims.start _ j idx 0 + (ScatterDims.window _ j 0 : ℤ) = _
      rw [hstart0, hwin0, Nat.cast_zero, add_zero]
      exact h0
    | ⟨1, _⟩ =>
      show ScatterDims.start _ j idx 1 + (ScatterDims.window _ j 1 : ℤ) = _
      rw [hstart1, hwin1, zero_add, h1]

/-- ROWS: element `(o, t)` is the operand's plus the sum over the rows `n` whose start index, read signed, is `o`, of
    update `(n, t)`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  -- both sums as sums of guarded terms; the left one split by the update index's coordinates (n, t')
  rw [Finset.sum_filter, Finset.sum_filter, sum_idx2]
  refine Finset.sum_congr rfl fun n _ => ?_
  by_cases hP : (idx (ix2 n (0 : Fin 1))).toInt = (o.val : ℤ)
  · -- row n starts at o: of its terms only t' = t lands on (o, t)
    rw [if_pos hP, Finset.sum_eq_single t]
    · exact if_pos ((rows_lands_iff d huw hiw hsd hiv idx (ix2 n t) o t).mpr ⟨hP, rfl⟩)
    · intro b _ hb
      exact if_neg (fun h => hb ((rows_lands_iff d huw hiw hsd hiv idx (ix2 n b) o t).mp h).2)
    · intro h; exact absurd (Finset.mem_univ t) h
  · -- row n starts elsewhere: none of its terms lands on (o, t)
    rw [if_neg hP]
    refine Finset.sum_eq_zero fun b _ => ?_
    exact if_neg (fun h => hP ((rows_lands_iff d huw hiw hsd hiv idx (ix2 n b) o t).mp h).1)

end Cert.LibScatterAdd

end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.RefVal.lean ====
/-
  The reference program read at an index: its result is two graph-convolution layers, each the edge-by-edge sum.

  One layer of the reference transforms the node features by a matrix product, gathers for every edge the transformed
  row of the edge's source, scales it by the edge's weight, adds the scaled rows into the row of the edge's destination
  (an accumulating scatter into a zero array), adds the bias and clamps below at zero. Read at a node `d` and a feature
  `f` this is `max ((0 + ∑ over the edges e into d of (∑ k, x (src e) k * W k f) * nrm e) + b f) 0`.

  The source vector is read through a wrap of negative words (`select (w < 0) (w + 10000) w`) and the gather clamps the
  row into `[0, 9999]`; for a word that encodes a node number both are the identity. The scatter reads the destination
  word signed and unclamped, so an edge lands on `d` exactly when its destination is `d`.
-/
import proofs.«412831_j32925219291401_1_alg».proof.Proof.RefRead
import proofs.«412831_j32925219291401_1_alg».proof.Proof.Spec
import proofs.«412831_j32925219291401_1_alg».proof.Proof.LibScatterAdd
import proofs.«412831_j32925219291401_1_alg».proof.Proof.LibHostIdx2
import Idealize.ShloMosaic.Lib.ValueIdx
import Idealize.ShloMosaic.PureOps.Ideal.Laws

noncomputable section

namespace Cert.ReferenceIdeal.Hand

open Cert.ReferenceIdeal Cert.ReferenceIdeal.ReadP Idealize.ShloMosaic Idealize.ShloMosaic.ValueIdx

/-! ## Words -/

/-- A word that is not negative passes the wrap of negative words unchanged. -/
theorem wrap_of_nonneg (w : BitVec 32) (h : 0 ≤ w.toInt) :
    Scalar.select (IntOp.cmpi .slt w 0#32) (IntOp.addi w 10000#32) w = w := by
  have hs : w.slt 0#32 = false := by
    rw [BitVec.slt, decide_eq_false_iff_not]
    show ¬ w.toInt < 0
    omega
  show (if BitVec.ofBool (w.slt 0#32) = 1 then _ else _) = _
  rw [hs]
  exact if_neg (by decide)

/-! ## The row gather at a node's word, the accumulating scatter at a node -/

/-- The row gather at an edge whose start word encodes the node `s`: row `s` of the operand. -/
theorem gather_node {C : ℕ} (d : GatherDims ⟨2, ![10000, C]⟩ ⟨2, ![650000, 1]⟩ ⟨2, ![650000, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![10000, C]⟩ : Shape).Idx → EReal) (idx : IVec ⟨2, ![650000, 1]⟩ 32) (n : Fin 650000) (t : Fin C)
    (s : Fin 10000) (h : (idx (ix2 n (0 : Fin 1))).toInt = (s.val : ℤ)) :
    Host.gather d x idx (ix2 n t) = x (ix2 s t) := by
  rw [HostIdx2.gather_rows_apply (by decide) d hod hcd hob hsb hsim hiv hss]
  congr 2
  refine Fin.ext ?_
  show min (idx (ix2 n (0 : Fin 1))).toInt.toNat (10000 - 1) = s.val
  rw [h, Int.toNat_natCast]
  have := s.isLt
  omega

/-- The accumulating scatter of edge rows into a zero array, at node `d` and column `f`: zero plus the rows of the
    edges whose destination word encodes `d`. -/
theorem scatter_node {C : ℕ} (dS : ScatterDims ⟨2, ![10000, C]⟩ ⟨2, ![650000, 1]⟩ ⟨2, ![650000, C]⟩)
    (huw : dS.updateWindowDims = [1]) (hiw : dS.insertedWindowDims = [0]) (hsd : dS.scatterDimsToOperandDims = [0])
    (hiv : dS.indexVectorDim = 1)
    (z : (⟨2, ![10000, C]⟩ : Shape).Idx → EReal) (idx : IVec ⟨2, ![650000, 1]⟩ 32)
    (upd : (⟨2, ![650000, C]⟩ : Shape).Idx → EReal) (dst : Fin 650000 → Fin 10000)
    (hD : ∀ n : Fin 650000, (idx (ix2 n (0 : Fin 1))).toInt = ((dst n).val : ℤ))
    (d : Fin 10000) (f : Fin C) (hz : z (ix2 d f) = 0) :
    Host.scatterAdd (F := Ideal) (φ := .f32) dS z idx upd (ix2 d f)
      = 0 + ∑ e ∈ Finset.univ.filter (fun e : Fin 650000 => dst e = d), upd (ix2 e f) := by
  show Ideal.hostScatterAdd dS z idx upd (ix2 d f) = _
  rw [Cert.LibScatterAdd.scatterAdd_rows_apply dS huw hiw hsd hiv, hz]
  refine congrArg (fun s : EReal => 0 + s) ?_
  refine Finset.sum_congr (Finset.filter_congr fun n _ => ?_) fun _ _ => rfl
  rw [hD n, Nat.cast_inj, Fin.val_inj]

/-! ## The reference's stages at an index -/

section Stages

variable (x0 : (⟨S10000x128, .f32⟩ : BufTy).Contents (Elt Ideal)) (x1 : (⟨S2x640000, .i32⟩ : BufTy).Contents (Elt Ideal))
  (x2 : (⟨S128x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))
  (src dst : Fin 650000 → Fin 10000)

/-- The source column of layer 1 at an edge: the word of the edge's source. -/
theorem src_word1 (hS : ∀ e : Fin 650000, (val_main_v3 (F := Ideal) x1 (ix1 e)).toInt = ((src e).val : ℤ)) (n : Fin 650000) :
    (val_main_v36 (F := Ideal) x1 (ix2 n (0 : Fin 1))).toInt = ((src n).val : ℤ) := by
  have e : idx_main_v36 (ix2 n (0 : Fin 1)) = ix1 n := funext fun a => Fin.ext (by match a with | ⟨0, _⟩ => rfl)
  rw [val_main_v36_apply, e, val_main_v35_apply, val_main_v32_apply, val_main_v34_apply, val_main_v31_apply,
    val_main_c_6_apply, val_main_v33_apply, val_main_c_7_apply,
    wrap_of_nonneg _ (by rw [hS]; exact Int.natCast_nonneg _), hS]

/-- The source column of layer 2 at an edge: the word of the edge's source. -/
theorem src_word2 (hS : ∀ e : Fin 650000, (val_main_v3 (F := Ideal) x1 (ix1 e)).toInt = ((src e).val : ℤ)) (n : Fin 650000) :
    (val_main_v54 (F := Ideal) x1 (ix2 n (0 : Fin 1))).toInt = ((src n).val : ℤ) := by
  have e : idx_main_v54 (ix2 n (0 : Fin 1)) = ix1 n := funext fun a => Fin.ext (by match a with | ⟨0, _⟩ => rfl)
  rw [val_main_v54_apply, e, val_main_v53_apply, val_main_v50_apply, val_main_v52_apply, val_main_v49_apply,
    val_main_c_9_apply, val_main_v51_apply, val_main_c_10_apply,
    wrap_of_nonneg _ (by rw [hS]; exact Int.natCast_nonneg _), hS]

/-- The destination column of layer 1 at an edge: the word of the edge's destination. -/
theorem dst_word1 (hD : ∀ e : Fin 650000, (val_main_v6 (F := Ideal) x1 (ix1 e)).toInt = ((dst e).val : ℤ)) (n : Fin 650000) :
    (val_main_v42 (F := Ideal) x1 (ix2 n (0 : Fin 1))).toInt = ((dst n).val : ℤ) := by
  have e : idx_main_v42 (ix2 n (0 : Fin 1)) = ix1 n := funext fun a => Fin.ext (by match a with | ⟨0, _⟩ => rfl)
  rw [val_main_v42_apply, e, hD]

/-- The destination column of layer 2 at an edge: the word of the edge's destination. -/
theorem dst_word2 (hD : ∀ e : Fin 650000, (val_main_v6 (F := Ideal) x1 (ix1 e)).toInt = ((dst e).val : ℤ)) (n : Fin 650000) :
    (val_main_v60 (F := Ideal) x1 (ix2 n (0 : Fin 1))).toInt = ((dst n).val : ℤ) := by
  have e : idx_main_v60 (ix2 n (0 : Fin 1)) = ix1 n := funext fun a => Fin.ext (by match a with | ⟨0, _⟩ => rfl)
  rw [val_main_v60_apply, e, hD]

/-- The weight column of layer 1, broadcast along the features: the edge's weight. -/
theorem wcol1 (n : Fin 650000) (t : Fin 256) :
    val_main_v39 (F := Ideal) x1 (ix2 n t) = val_main_v29 (F := Ideal) x1 (ix1 n) := by
  have e : idx_main_v38 (idx_main_v39 (ix2 n t)) = ix1 n := funext fun a => Fin.ext (by match a with | ⟨0, _⟩ => rfl)
  rw [val_main_v39_apply, val_main_v38_apply, e]

/-- The weight column of layer 2, broadcast along the features: the edge's weight. -/
theorem wcol2 (n : Fin 650000) (t : Fin 128) :
    val_main_v57 (F := Ideal) x1 (ix2 n t) = val_main_v29 (F := Ideal) x1 (ix1 n) := by
  have e : idx_main_v56 (idx_main_v57 (ix2 n t)) = ix1 n := funext fun a => Fin.ext (by match a with | ⟨0, _⟩ => rfl)
  rw [val_main_v57_apply, val_main_v56_apply, e]

/-- The bias row of layer 1, broadcast along the nodes. -/
theorem bias1 (i : Fin 10000) (k : Fin 256) : val_main_v45 (F := Ideal) x3 (ix2 i k) = x3 (ix1 k) := by
  have e : idx_main_v44 (idx_main_v45 (ix2 i k)) = ix1 k := funext fun a => Fin.ext (by match a with | ⟨0, _⟩ => rfl)
  rw [val_main_v45_apply, val_main_v44_apply, e]

/-- The bias row of layer 2, broadcast along the nodes. -/
theorem bias2 (i : Fin 10000) (k : Fin 128) : val_main_v63 (F := Ideal) x5 (ix2 i k) = x5 (ix1 k) := by
  have e : idx_main_v62 (idx_main_v63 (ix2 i k)) = ix1 k := funext fun a => Fin.ext (by match a with | ⟨0, _⟩ => rfl)
  rw [val_main_v63_apply, val_main_v62_apply, e]

/-- The four splats of the zero word are zero. -/
theorem zero41 (i : S10000x256.Idx) : val_main_v41 (F := Ideal) i = 0 := by
  rw [val_main_v41_apply, val_main_cst_8_apply]; exact Ideal.ofBits_zero_f32
theorem zero_relu1 (i : S10000x256.Idx) : val_main_call1_v0 (F := Ideal) i = 0 := by
  rw [val_main_call1_v0_apply, val_main_call1_cst_apply]; exact Ideal.ofBits_zero_f32
theorem zero59 (i : S10000x128.Idx) : val_main_v59 (F := Ideal) i = 0 := by
  rw [val_main_v59_apply, val_main_cst_11_apply]; exact Ideal.ofBits_zero_f32
theorem zero_relu2 (i : S10000x128.Idx) : val_main_call2_v0 (F := Ideal) i = 0 := by
  rw [val_main_call2_v0_apply, val_main_call2_cst_apply]; exact Ideal.ofBits_zero_f32

/-- The transformed features of layer 1 at a node and a feature. -/
theorem dot1 (i : Fin 10000) (j : Fin 256) :
    val_main_v30 (F := Ideal) x0 x2 (ix2 i j) = ∑ k : Fin 128, x0 (ix2 i k) * x2 (ix2 k j) := by
  rw [val_main_v30_apply]
  refine Finset.sum_congr rfl fun k _ => ?_
  have el : lidx_main_v30 (ix2 i j) k = ix2 i k := funext fun a => Fin.ext (by match a with | ⟨0, _⟩ => rfl | ⟨1, _⟩ => rfl)
  have er : ridx_main_v30 (ix2 i j) k = ix2 k j := funext fun a => Fin.ext (by match a with | ⟨0, _⟩ => rfl | ⟨1, _⟩ => rfl)
  rw [el, er]

/-- The transformed features of layer 2 at a node and a feature, over the first layer's result. -/
theorem dot2 (i : Fin 10000) (j : Fin 128) :
    val_main_v48 (F := Ideal) x0 x1 x2 x3 x4 (ix2 i j)
      = ∑ k : Fin 256, val_main_v47 (F := Ideal) x0 x1 x2 x3 (ix2 i k) * x4 (ix2 k j) := by
  rw [val_main_v48_apply]
  refine Finset.sum_congr rfl fun k _ => ?_
  have el : lidx_main_v48 (ix2 i j) k = ix2 i k := funext fun a => Fin.ext (by match a with | ⟨0, _⟩ => rfl | ⟨1, _⟩ => rfl)
  have er : ridx_main_v48 (ix2 i j) k = ix2 k j := funext fun a => Fin.ext (by match a with | ⟨0, _⟩ => rfl | ⟨1, _⟩ => rfl)
  rw [el, er]

/-- LAYER 1: the first layer's result at a node and a feature is the edge-by-edge layer of the input features. -/
theorem layer1_value (hS : ∀ e : Fin 650000, (val_main_v3 (F := Ideal) x1 (ix1 e)).toInt = ((src e).val : ℤ))
    (hD : ∀ e : Fin 650000, (val_main_v6 (F := Ideal) x1 (ix1 e)).toInt = ((dst e).val : ℤ))
    (i : Fin 10000) (k : Fin 256) :
    val_main_v47 (F := Ideal) x0 x1 x2 x3 (ix2 i k)
      = Cert.Gcn.refLayer src dst (fun e => val_main_v29 (F := Ideal) x1 (ix1 e)) (fun i k => x0 (ix2 i k))
          (fun k j => x2 (ix2 k j)) (fun j => x3 (ix1 j)) i k := by
  rw [val_main_v47_apply, val_main_v46_apply, zero_relu1, bias1]
  have hsc : val_main_v43 (F := Ideal) x0 x1 x2 (ix2 i k)
      = 0 + ∑ e ∈ Finset.univ.filter (fun e : Fin 650000 => dst e = i), val_main_v40 (F := Ideal) x0 x1 x2 (ix2 e k) :=
    scatter_node scatter_S10000x256_S650000x1_S650000x256_1_0_0_1 rfl rfl rfl rfl _ _ _ dst
      (dst_word1 x1 dst hD) i k (zero41 _)
  rw [hsc]
  have hup : ∀ e : Fin 650000, val_main_v40 (F := Ideal) x0 x1 x2 (ix2 e k)
      = (∑ q : Fin 128, x0 (ix2 (src e) q) * x2 (ix2 q k)) * val_main_v29 (F := Ideal) x1 (ix1 e) := by
    intro e
    have hg : val_main_v37 (F := Ideal) x0 x1 x2 (ix2 e k) = val_main_v30 (F := Ideal) x0 x2 (ix2 (src e) k) :=
      gather_node gather_S10000x256_S650000x1_S650000x256_1_0_n_n_0_1_1256 rfl rfl rfl rfl rfl rfl rfl _ _ e k (src e)
        (src_word1 x1 src hS e)
    rw [val_main_v40_apply, hg, dot1, wcol1]
    rfl
  simp only [hup]
  rfl

/-- LAYER 2 over any features that the first layer's result equals: the program's result at a node and a feature is the
    edge-by-edge layer of those features. -/
theorem layer2_value (hS : ∀ e : Fin 650000, (val_main_v3 (F := Ideal) x1 (ix1 e)).toInt = ((src e).val : ℤ))
    (hD : ∀ e : Fin 650000, (val_main_v6 (F := Ideal) x1 (ix1 e)).toInt = ((dst e).val : ℤ))
    (h : Fin 10000 → Fin 256 → EReal)
    (hh : ∀ (i : Fin 10000) (k : Fin 256), val_main_v47 (F := Ideal) x0 x1 x2 x3 (ix2 i k) = h i k)
    (d : Fin 10000) (f : Fin 128) :
    val_main_v65 (F := Ideal) x0 x1 x2 x3 x4 x5 (ix2 d f)
      = Cert.Gcn.refLayer src dst (fun e => val_main_v29 (F := Ideal) x1 (ix1 e)) h
          (fun k j => x4 (ix2 k j)) (fun j => x5 (ix1 j)) d f := by
  rw [val_main_v65_apply, val_main_v64_apply, zero_relu2, bias2]
  have hsc : val_main_v61 (F := Ideal) x0 x1 x2 x3 x4 (ix2 d f)
      = 0 + ∑ e ∈ Finset.univ.filter (fun e : Fin 650000 => dst e = d),
          val_main_v58 (F := Ideal) x0 x1 x2 x3 x4 (ix2 e f) :=
    scatter_node scatter_S10000x128_S650000x1_S650000x128_1_0_0_1 rfl rfl rfl rfl _ _ _ dst
      (dst_word2 x1 dst hD) d f (zero59 _)
  rw [hsc]
  have hup : ∀ e : Fin 650000, val_main_v58 (F := Ideal) x0 x1 x2 x3 x4 (ix2 e f)
      = (∑ q : Fin 256, h (src e) q * x4 (ix2 q f)) * val_main_v29 (F := Ideal) x1 (ix1 e) := by
    intro e
    have hg : val_main_v55 (F := Ideal) x0 x1 x2 x3 x4 (ix2 e f)
        = val_main_v48 (F := Ideal) x0 x1 x2 x3 x4 (ix2 (src e) f) :=
      gather_node gather_S10000x128_S650000x1_S650000x128_1_0_n_n_0_1_1128 rfl rfl rfl rfl rfl rfl rfl _ _ e f (src e)
        (src_word2 x1 src hS e)
    rw [val_main_v58_apply, hg, dot2, wcol2]
    simp only [hh]
    rfl
  simp only [hup]
  rfl

/-- THE REFERENCE'S VALUE: at a node and a feature, the two edge-by-edge layers in turn, over the sources, destinations
    and weights of the edges. -/
theorem ref_value (hS : ∀ e : Fin 650000, (val_main_v3 (F := Ideal) x1 (ix1 e)).toInt = ((src e).val : ℤ))
    (hD : ∀ e : Fin 650000, (val_main_v6 (F := Ideal) x1 (ix1 e)).toInt = ((dst e).val : ℤ))
    (d : Fin 10000) (f : Fin 128) :
    val_main_v65 (F := Ideal) x0 x1 x2 x3 x4 x5 (ix2 d f)
      = Cert.Gcn.refLayer src dst (fun e => val_main_v29 (F := Ideal) x1 (ix1 e))
          (Cert.Gcn.refLayer src dst (fun e => val_main_v29 (F := Ideal) x1 (ix1 e)) (fun i k => x0 (ix2 i k))
            (fun k j => x2 (ix2 k j)) (fun j => x3 (ix1 j)))
          (fun k j => x4 (ix2 k j)) (fun j => x5 (ix1 j)) d f :=
  layer2_value x0 x1 x2 x3 x4 x5 src dst hS hD _ (layer1_value x0 x1 x2 x3 src dst hS hD) d f

end Stages

/-! ## The run's result is the last stage -/

section Run

open Cert.ReferenceIdeal.Gen Idealize.ShloMosaic.TcCoe Idealize.SL.Sem Idealize.ShloMosaic.StableHlo

variable {F : FTy → Type} [FloatOps F]

/-- The result the reference's run leaves in its output array is the last stage of the argument arrays. -/
theorem ref_run_value (m : (ℓ : Loc nD τ sig) → Buf (Elt F) ℓ) (c : Dev nD) :
    Cert.ReferenceIdeal.ValueP.res_out0 m c
      = val_main_v65 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  val_main_v65_eq m c

end Run

end Cert.ReferenceIdeal.Hand

end
-- ==== Proof.LibHostIdx.lean ====
/-
  Host integer operations read at an index: the running sum, the sum over an axis, and the take at a
  column of start indices.

  * A `reduce_window` with the word addition whose window is a whole axis, padded low by the axis' length less one and
    started from zero, is the INCLUSIVE RUNNING SUM along that axis: at position `i` the sum of the entries at positions
    `i' ≤ i` (`reduceWindow_cumsum_rows` along axis 0 of a rank-2 array, `reduceWindow_cumsum` for a rank-1 array); if
    the entries are the words of natural numbers, it is the word of their sum (`…_ofNat`).
  * A `reduce` with the word addition from zero over axis 1 of a rank-2 array is, at row `r`, the sum of row `r`
    (`reduce_add_cols`); over the one axis of a rank-1 array it is the sum of all entries (`reduce_add_all`).
  * A gather from a rank-1 operand whose start indices are an `[R, 1]` column, the operand's axis collapsed and
    start-indexed, reads at `r` the operand at the start index of `r` read signed and clamped into the operand
    (`gather_take_ix`).
-/
import Idealize.ShloMosaic.PureOps.Reduce
import Idealize.ShloMosaic.Lib.ValueIdx
import Idealize.ShloMosaic.Lib.ValueIdxRank1
import Idealize.ShloMosaic.Lib.StableHlo.Predicate
import Mathlib.Data.BitVec

open scoped BigOperators

namespace Idealize.ShloMosaic.HostIdx

open Idealize.ShloMosaic Idealize.ShloMosaic.ValueIdx

/-! ## Sums of words -/

/-- A left fold of the word addition over a list is the start plus the sum of the list's terms. -/
theorem foldl_addi_eq {ι : Type} {w : Nat} (g : ι → BitVec w) :
    ∀ (l : List ι) (a : BitVec w), l.foldl (fun r n => IntOp.addi r (g n)) a = a + (l.map g).sum
  | [], a => by simp
  | n :: l, a => by
    rw [List.foldl_cons, foldl_addi_eq g l, List.map_cons, List.sum_cons, show IntOp.addi a (g n) = a + g n from rfl,
      add_assoc]

/-- The word of a finite sum of natural numbers is the sum of their words. -/
theorem ofNat_sum {ι : Type} {w : Nat} (S : Finset ι) (f : ι → ℕ) :
    BitVec.ofNat w (∑ i ∈ S, f i) = ∑ i ∈ S, BitVec.ofNat w (f i) := by
  classical
  induction S using Finset.cons_induction with
  | empty => simp
  | cons a S ha ih => rw [Finset.sum_cons, Finset.sum_cons, BitVec.ofNat_add, ih]

/-- A window of `P + 1` terms ending at position `i ≤ P` of a sequence padded low by `P` zeros sums the sequence's
    terms at the positions up to `i`. -/
theorem window_sum_eq_prefix {M : Type} [AddCommMonoid M] (P i : ℕ) (hi : i ≤ P) (f : ℕ → M) :
    ∑ a ∈ Finset.range (P + 1), (if P ≤ i + a then f (i + a - P) else 0) = ∑ k ∈ Finset.range (i + 1), f k := by
  rw [← Finset.sum_filter]
  refine Finset.sum_nbij' (fun a => i + a - P) (fun k => k + P - i) ?_ ?_ ?_ ?_ ?_
  · intro a ha
    simp only [Finset.mem_filter, Finset.mem_range] at ha
    simp only [Finset.mem_range]; omega
  · intro k hk
    simp only [Finset.mem_range] at hk
    simp only [Finset.mem_filter, Finset.mem_range]; omega
  · intro a ha
    simp only [Finset.mem_filter, Finset.mem_range] at ha
    show i + a - P + P - i = a
    omega
  · intro k hk
    simp only [Finset.mem_range] at hk
    show i + (k + P - i) - P = k
    omega
  · intro a _; rfl

/-- The same over `Fin (P + 1)`: the window ending at `i` sums the terms at the positions `i' ≤ i`. -/
theorem sum_window_fin {M : Type} [AddCommMonoid M] (P : ℕ) (i : Fin (P + 1)) (y : Fin (P + 1) → M) :
    ∑ a : Fin (P + 1), (if h : P ≤ i.val + a.val then y ⟨i.val + a.val - P, by omega⟩ else 0)
      = ∑ i' ∈ Finset.univ.filter (fun i' : Fin (P + 1) => i' ≤ i), y i' := by
  classical
  -- the sequence continued by zero past its end
  let yy : ℕ → M := fun m => if h : m < P + 1 then y ⟨m, h⟩ else 0
  have hyy : ∀ i' : Fin (P + 1), y i' = yy i'.val := fun i' => by
    show y i' = if h : i'.val < P + 1 then y ⟨i'.val, h⟩ else 0
    rw [dif_pos i'.isLt]
  have e1 : ∑ a : Fin (P + 1), (if h : P ≤ i.val + a.val then y ⟨i.val + a.val - P, by omega⟩ else 0)
      = ∑ a ∈ Finset.range (P + 1), (if P ≤ i.val + a then yy (i.val + a - P) else 0) := by
    rw [← Fin.sum_univ_eq_sum_range (fun a : ℕ => if P ≤ i.val + a then yy (i.val + a - P) else 0) (P + 1)]
    refine Finset.sum_congr rfl fun a _ => ?_
    by_cases hc : P ≤ i.val + a.val
    · rw [dif_pos hc, if_pos hc, hyy]
    · rw [dif_neg hc, if_neg hc]
  have e2 : ∑ i' ∈ Finset.univ.filter (fun i' : Fin (P + 1) => i' ≤ i), y i'
      = ∑ m ∈ Finset.range (P + 1), (if m ≤ i.val then yy m else 0) := by
    rw [← Fin.sum_univ_eq_sum_range (fun m : ℕ => if m ≤ i.val then yy m else 0) (P + 1), Finset.sum_filter]
    refine Finset.sum_congr rfl fun i' _ => ?_
    rw [hyy i']; rfl
  rw [e1, e2, window_sum_eq_prefix P i.val (by omega) yy, ← Finset.sum_filter]
  refine Finset.sum_congr ?_ fun _ _ => rfl
  ext m
  simp only [Finset.mem_range, Finset.mem_filter]
  omega

/-- A set fold of the word addition from zero is the sum. -/
theorem fold_addi_eq_sum {ι : Type} {w : Nat} (S : Finset ι) (f : ι → BitVec w) :
    S.fold IntOp.addi 0 f = ∑ i ∈ S, f i := by
  classical
  induction S using Finset.cons_induction with
  | empty => simp
  | cons a S ha ih => rw [Finset.fold_cons, Finset.sum_cons, ih]; rfl

/-- THE RUNNING SUM ALONG AXIS 0 of an `[R, C]` array: the `reduce_window` with window `[R, 1]`, strides one, low padding
    `[P, 0]` with `P + 1 = R`, from zero, reads at `(i, e)` the sum of column `e` over the rows `i' ≤ i`. -/
theorem reduceWindow_cumsum_rows {R C P w : Nat} {u : Shape} (hP : P + 1 = R)
    (x : IVec ⟨2, ![R, C]⟩ w) (init : IVec u w)
    (h : (⟨2, ![R, C]⟩ : Shape).ReduceWindows (![R, 1] : Fin 2 → Nat) ![1, 1] ![P, 0] ![0, 0] ⟨2, ![R, C]⟩)
    (hu : 0 < u.numel) (h0 : ∀ k, init k = 0) (i : Fin R) (e : Fin C) :
    Host.reduceWindow IntOp.addi (![R, 1] : Fin 2 → Nat) ![1, 1] ![P, 0] ![0, 0] x init h hu (ix2 i e)
      = ∑ i' ∈ Finset.univ.filter (fun i' : Fin R => i' ≤ i), x (ix2 i' e) := by
  classical
  subst hP
  unfold Host.reduceWindow
  dsimp only
  rw [foldl_addi_eq, h0, zero_add, ← Fin.sum_univ_def, ← Equiv.sum_comp (Shape.rowMajor _)]
  simp only [Equiv.symm_apply_apply]
  rw [sum_idx2, ← sum_window_fin P i fun i' => x (ix2 i' e)]
  refine Finset.sum_congr rfl fun a _ => ?_
  rw [Fin.sum_univ_one]
  split_ifs with h1 h2 h2
  · congr 1
    funext a_1
    match a_1 with
    | ⟨0, _⟩ => exact Fin.ext (show i.val * 1 + a.val - P = i.val + a.val - P by omega)
    | ⟨1, _⟩ => exact Fin.ext (show e.val * 1 + 0 - 0 = e.val by omega)
  · have t : P ≤ i.val * 1 + a.val := (h1 0).1
    exact absurd (by omega) h2
  · refine absurd (fun a_1 => ?_) h1
    match a_1 with
    | ⟨0, _⟩ => exact ⟨show P ≤ i.val * 1 + a.val by omega, show i.val * 1 + a.val - P < P + 1 by omega⟩
    | ⟨1, _⟩ => exact ⟨show 0 ≤ e.val * 1 + 0 by omega, show e.val * 1 + 0 - 0 < C by have := e.isLt; omega⟩
  · rfl

/-- The running sum along axis 0 of words of natural numbers is the word of the running sum. -/
theorem reduceWindow_cumsum_rows_ofNat {R C P w : Nat} {u : Shape} (hP : P + 1 = R)
    (x : IVec ⟨2, ![R, C]⟩ w) (init : IVec u w)
    (h : (⟨2, ![R, C]⟩ : Shape).ReduceWindows (![R, 1] : Fin 2 → Nat) ![1, 1] ![P, 0] ![0, 0] ⟨2, ![R, C]⟩)
    (hu : 0 < u.numel) (h0 : ∀ k, init k = 0) (i : Fin R) (e : Fin C)
    (f : Fin R → ℕ) (hx : ∀ i', x (ix2 i' e) = BitVec.ofNat w (f i')) :
    Host.reduceWindow IntOp.addi (![R, 1] : Fin 2 → Nat) ![1, 1] ![P, 0] ![0, 0] x init h hu (ix2 i e)
      = BitVec.ofNat w (∑ i' ∈ Finset.univ.filter (fun i' : Fin R => i' ≤ i), f i') := by
  rw [reduceWindow_cumsum_rows hP x init h hu h0 i e, ofNat_sum]
  exact Finset.sum_congr rfl fun i' _ => hx i'

/-- THE RUNNING SUM of a rank-1 array of length `N`: the `reduce_window` with window `[N]`, stride one, low padding
    `[P]` with `P + 1 = N`, from zero, reads at `i` the sum of the entries at positions `i' ≤ i`. -/
theorem reduceWindow_cumsum {N P w : Nat} {u : Shape} (hP : P + 1 = N)
    (x : IVec ⟨1, ![N]⟩ w) (init : IVec u w)
    (h : (⟨1, ![N]⟩ : Shape).ReduceWindows (![N] : Fin 1 → Nat) ![1] ![P] ![0] ⟨1, ![N]⟩)
    (hu : 0 < u.numel) (h0 : ∀ k, init k = 0) (i : Fin N) :
    Host.reduceWindow IntOp.addi (![N] : Fin 1 → Nat) ![1] ![P] ![0] x init h hu (ix1 i)
      = ∑ i' ∈ Finset.univ.filter (fun i' : Fin N => i' ≤ i), x (ix1 i') := by
  classical
  subst hP
  unfold Host.reduceWindow
  dsimp only
  rw [foldl_addi_eq, h0, zero_add, ← Fin.sum_univ_def, ← Equiv.sum_comp (Shape.rowMajor _)]
  simp only [Equiv.symm_apply_apply]
  rw [← Equiv.sum_comp (idxEquiv1 (n := P + 1)).symm, ← sum_window_fin P i fun i' => x (ix1 i')]
  refine Finset.sum_congr rfl fun a _ => ?_
  split_ifs with h1 h2 h2
  · congr 1
    funext a_1
    obtain rfl : a_1 = 0 := Subsingleton.elim _ _
    exact Fin.ext (show i.val * 1 + a.val - P = i.val + a.val - P by omega)
  · have t : P ≤ i.val * 1 + a.val := (h1 0).1
    exact absurd (by omega) h2
  · refine absurd (fun a_1 => ?_) h1
    obtain rfl : a_1 = 0 := Subsingleton.elim _ _
    exact ⟨show P ≤ i.val * 1 + a.val by omega, show i.val * 1 + a.val - P < P + 1 by omega⟩
  · rfl

/-- The running sum of a rank-1 array of words of natural numbers is the word of the running sum. -/
theorem reduceWindow_cumsum_ofNat {N P w : Nat} {u : Shape} (hP : P + 1 = N)
    (x : IVec ⟨1, ![N]⟩ w) (init : IVec u w)
    (h : (⟨1, ![N]⟩ : Shape).ReduceWindows (![N] : Fin 1 → Nat) ![1] ![P] ![0] ⟨1, ![N]⟩)
    (hu : 0 < u.numel) (h0 : ∀ k, init k = 0) (i : Fin N)
    (f : Fin N → ℕ) (hx : ∀ i', x (ix1 i') = BitVec.ofNat w (f i')) :
    Host.reduceWindow IntOp.addi (![N] : Fin 1 → Nat) ![1] ![P] ![0] x init h hu (ix1 i)
      = BitVec.ofNat w (∑ i' ∈ Finset.univ.filter (fun i' : Fin N => i' ≤ i), f i') := by
  rw [reduceWindow_cumsum hP x init h hu h0 i, ofNat_sum]
  exact Finset.sum_congr rfl fun i' _ => hx i'

/-- THE SUM OVER AXIS 1 of an `[R, C]` array of words, from zero, reads at `r` the sum of row `r`. -/
theorem reduce_add_cols {R C w : Nat} {u : Shape} (x : IVec ⟨2, ![R, C]⟩ w) (init : IVec u w)
    (h : (⟨2, ![R, C]⟩ : Shape).ReducesTo [1] ⟨1, ![R]⟩) (hu : 0 < u.numel) (h0 : ∀ k, init k = 0) (r : Fin R) :
    Host.reduce IntOp.addi x init h hu (ix1 r) = ∑ q : Fin C, x (ix2 r q) := by
  classical
  rw [Host.reduce_eq_fold, h0, fold_addi_eq_sum]
  -- the indices dropping to `r` are row `r`: reindex them by their column
  have hdrop : ∀ i : (⟨2, ![R, C]⟩ : Shape).Idx, h.drop i = ix1 r ↔ i 0 = r := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![R, C]⟩ : Shape).Idx, i 0 = r → ix2 r (i 1) = i := fun i h0 => by
    funext b; match b with
    | ⟨0, _⟩ => exact h0.symm
    | ⟨1, _⟩ => rfl
  refine Finset.sum_bij' (fun i _ => i 1) (fun q _ => ix2 r q) (fun _ _ => Finset.mem_univ _)
    (fun q _ => Finset.mem_filter.2 ⟨Finset.mem_univ _, (hdrop _).2 rfl⟩)
    (fun i hi => hback i ((hdrop i).1 (Finset.mem_filter.1 hi).2)) (fun _ _ => rfl) ?_
  intro i hi
  exact (congrArg x (hback i ((hdrop i).1 (Finset.mem_filter.1 hi).2))).symm

/-- The sum over axis 1 of words of natural numbers is the word of the row's sum. -/
theorem reduce_add_cols_ofNat {R C w : Nat} {u : Shape} (x : IVec ⟨2, ![R, C]⟩ w) (init : IVec u w)
    (h : (⟨2, ![R, C]⟩ : Shape).ReducesTo [1] ⟨1, ![R]⟩) (hu : 0 < u.numel) (h0 : ∀ k, init k = 0) (r : Fin R)
    (f : Fin C → ℕ) (hx : ∀ q, x (ix2 r q) = BitVec.ofNat w (f q)) :
    Host.reduce IntOp.addi x init h hu (ix1 r) = BitVec.ofNat w (∑ q : Fin C, f q) := by
  rw [reduce_add_cols x init h hu h0 r, ofNat_sum]
  exact Finset.sum_congr rfl fun q _ => hx q

/-- THE SUM OF ALL ENTRIES of a rank-1 array of words, from zero: the scalar result is the sum of the entries. -/
theorem reduce_add_all {N w : Nat} {u : Shape} (x : IVec ⟨1, ![N]⟩ w) (init : IVec u w)
    (h : (⟨1, ![N]⟩ : Shape).ReducesTo [0] ⟨0, ![]⟩) (hu : 0 < u.numel) (h0 : ∀ k, init k = 0)
    (j : (⟨0, ![]⟩ : Shape).Idx) :
    Host.reduce IntOp.addi x init h hu j = ∑ k : Fin N, x (ix1 k) := by
  classical
  rw [Host.reduce_eq_fold, h0, fold_addi_eq_sum,
    Finset.filter_true_of_mem fun i _ => (funext fun a => a.elim0 : h.drop i = j),
    ← Equiv.sum_comp (idxEquiv1 (n := N)).symm]
  rfl

/-- The sum of all entries of words of natural numbers is the word of the sum. -/
theorem reduce_add_all_ofNat {N w : Nat} {u : Shape} (x : IVec ⟨1, ![N]⟩ w) (init : IVec u w)
    (h : (⟨1, ![N]⟩ : Shape).ReducesTo [0] ⟨0, ![]⟩) (hu : 0 < u.numel) (h0 : ∀ k, init k = 0)
    (j : (⟨0, ![]⟩ : Shape).Idx) (f : Fin N → ℕ) (hx : ∀ k, x (ix1 k) = BitVec.ofNat w (f k)) :
    Host.reduce IntOp.addi x init h hu j = BitVec.ofNat w (∑ k : Fin N, f k) := by
  rw [reduce_add_all x init h hu h0 j, ofNat_sum]
  exact Finset.sum_congr rfl fun k _ => hx k

/-- THE TAKE at an `[R, 1]` column of start indices: a gather from a rank-1 operand whose one axis is collapsed and
    start-indexed, the index vector on axis 1, reads at `r` the operand at the start index of `r`, read signed and
    clamped into `[0, N − 1]`. -/
theorem gather_take_ix {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![R, 1]⟩ w) (r : Fin R) :
    Host.gather d x idx (ix1 r) = x (ix1 ⟨min (idx (ix2 r 0)).toInt.toNat (N - 1), by omega⟩) := by
  have e1 : (Shape.Idx.ofFin r : (⟨1, ![R]⟩ : Shape).Idx) = ix1 r := by
    funext a; obtain rfl : a = 0 := Subsingleton.elim _ _; rfl
  have e2 : (StableHlo.Predicate.ixP r : (⟨2, ![R, 1]⟩ : Shape).Idx) = ix2 r 0 := by
    funext a; match a with
    | ⟨0, _⟩ => rfl
    | ⟨1, _⟩ => rfl
  have h := StableHlo.Predicate.gather_take d hcoll hob hsim hivd x idx r hN
  rw [e1] at h
  refine h.trans (congrArg x ?_)
  funext a; obtain rfl : a = 0 := Subsingleton.elim _ _
  refine Fin.ext ?_
  show min (idx (StableHlo.Predicate.ixP r)).toInt.toNat (N - 1) = min (idx (ix2 r 0)).toInt.toNat (N - 1)
  rw [e2]

end Idealize.ShloMosaic.HostIdx
-- ==== Proof.ChainFacts.lean ====
/-
  The edge vectors and the edge weights, as both programs compute them from the edge array.

  SOURCES AND DESTINATIONS.  Each is a row of the edge array (640000 words) followed by the self loops 0, 1, …, 9999.
  When every word of the edge array lies in [0, 10000), so does every word of either vector: an entry below 640000 is
  a word of the edge array, an entry from 640000 on is the word of a number below 10000, which reads back signed as
  that number.

  WEIGHTS.  The degree of a node is zero plus a finite sum of ones, a real number d.  The normaliser is
  1 / √d where d > 0 — a real number — and zero elsewhere.  The clamped gathers read SOME entry of the normaliser
  vector, so they are real entrywise, and the weight, their product, is real.  None of this needs the edge words to be
  in range: a scatter drops what lands outside, a gather clamps.
-/
import proofs.«412831_j32925219291401_1_alg».proof.Proof.RefRead
import proofs.«412831_j32925219291401_1_alg».proof.Proof.LibScatterAdd
import proofs.«412831_j32925219291401_1_alg».proof.Proof.LibHostIdx
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Cert.ReferenceIdeal Cert.ReferenceIdeal.ReadP Idealize.ShloMosaic

/-! ## Sources and destinations -/

/-- A vector of 640000 words in [0, 10000) followed by the words of 0, …, 9999: every entry, read signed, is a number
    below 10000. -/
theorem cat_dec (y : S640000.Idx → BitVec 32) (z : S10000.Idx → BitVec 32)
    (hy : ∀ i, 0 ≤ (y i).toInt ∧ (y i).toInt < 10000) (hz : ∀ i, z i = BitVec.ofNat 32 (i 0).val)
    (h : Shape.Concatenates [S640000, S10000] S650000 0) (e : Fin 650000) :
    ∃ s : Fin 10000, (concatenate S650000 0 [⟨S640000, y⟩, ⟨S10000, z⟩] h (ValueIdx.ix1 e)).toInt = (s.val : ℤ) := by
  by_cases he : e.val < 640000
  · -- the first piece, at the same position
    rw [concatenate_pair_apply_left 0 y z h (ValueIdx.ix1 e) rfl (ValueIdx.ix1 ⟨e.val, he⟩) (fun b => by
      obtain rfl : b = 0 := Subsingleton.elim _ _; rfl)]
    obtain ⟨h0, h1⟩ := hy (ValueIdx.ix1 ⟨e.val, he⟩)
    exact ⟨⟨(y (ValueIdx.ix1 ⟨e.val, he⟩)).toInt.toNat, by omega⟩, (Int.toNat_of_nonneg h0).symm⟩
  · -- the second piece, 640000 positions earlier: the word of that position
    have he' : e.val - 640000 < 10000 := by have := e.isLt; omega
    rw [concatenate_pair_apply_right 0 y z h (ValueIdx.ix1 e) rfl rfl (ValueIdx.ix1 ⟨e.val - 640000, he'⟩)
      (fun b hb => absurd (Subsingleton.elim _ _) hb) (by show e.val - 640000 + 640000 = e.val; omega), hz]
    exact ⟨⟨e.val - 640000, he'⟩, StableHlo.Predicate.toInt_ofNat_small _ (by show e.val - 640000 < 2 ^ 31; omega)⟩

section
variable (x1 : (⟨S2x640000, .i32⟩ : BufTy).Contents (Elt Ideal))

/-- Row 0 of the edge array, flattened, is in range where the edge array is. -/
theorem v2_range (hR : ∀ i, 0 ≤ (x1 i).toInt ∧ (x1 i).toInt < 10000) (i : S640000.Idx) :
    0 ≤ (val_main_v2 (F := Ideal) x1 i).toInt ∧ (val_main_v2 (F := Ideal) x1 i).toInt < 10000 := by
  rw [val_main_v2_apply, val_main_v1_apply]; exact hR _

/-- Row 1 likewise. -/
theorem v5_range (hR : ∀ i, 0 ≤ (x1 i).toInt ∧ (x1 i).toInt < 10000) (i : S640000.Idx) :
    0 ≤ (val_main_v5 (F := Ideal) x1 i).toInt ∧ (val_main_v5 (F := Ideal) x1 i).toInt < 10000 := by
  rw [val_main_v5_apply, val_main_v4_apply]; exact hR _

/-- The source vector names a node at every edge. -/
theorem src_dec (hR : ∀ i, 0 ≤ (x1 i).toInt ∧ (x1 i).toInt < 10000) :
    ∃ src : Fin 650000 → Fin 10000, ∀ e : Fin 650000,
      (val_main_v3 (F := Ideal) x1 (ValueIdx.ix1 e)).toInt = ((src e).val : ℤ) := by
  have hp : ∀ e : Fin 650000, ∃ s : Fin 10000,
      (val_main_v3 (F := Ideal) x1 (ValueIdx.ix1 e)).toInt = (s.val : ℤ) := fun e =>
    cat_dec _ _ (v2_range x1 hR) (fun i => val_main_v0_apply i) _ e
  choose src hsrc using hp
  exact ⟨src, hsrc⟩

/-- The destination vector names a node at every edge. -/
theorem dst_dec (hR : ∀ i, 0 ≤ (x1 i).toInt ∧ (x1 i).toInt < 10000) :
    ∃ dst : Fin 650000 → Fin 10000, ∀ e : Fin 650000,
      (val_main_v6 (F := Ideal) x1 (ValueIdx.ix1 e)).toInt = ((dst e).val : ℤ) := by
  have hp : ∀ e : Fin 650000, ∃ s : Fin 10000,
      (val_main_v6 (F := Ideal) x1 (ValueIdx.ix1 e)).toInt = (s.val : ℤ) := fun e =>
    cat_dec _ _ (v5_range x1 hR) (fun i => val_main_v0_apply i) _ e
  choose dst hdst using hp
  exact ⟨dst, hdst⟩

end

/-! ## The weights are real numbers -/

/-- A finite sum of real numbers is a real number. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r₁, h₁⟩ := hf a (Finset.mem_insert_self a s)
    obtain ⟨r₂, h₂⟩ := ih fun j hj => hf j (Finset.mem_insert_of_mem hj)
    exact ⟨r₁ + r₂, by rw [Finset.sum_insert ha, h₁, h₂, EReal.coe_add]⟩

/-- An accumulating scatter of real updates into a real element leaves a real element: the element plus the finite sum
    of the updates that land on it. -/
theorem scatterAdd_real {s si su : Shape} (d : ScatterDims s si su) {w : Nat} (x : s.Idx → EReal) (idx : IVec si w)
    (upd : su.Idx → EReal) (i : s.Idx) (hx : ∃ r : ℝ, x i = (r : EReal)) (hu : ∀ j, ∃ r : ℝ, upd j = (r : EReal)) :
    ∃ r : ℝ, Ideal.hostScatterAdd d x idx upd i = (r : EReal) := by
  obtain ⟨a, ha⟩ := hx
  obtain ⟨b, hb⟩ := sum_real (Finset.univ.filter (fun j => d.resultIdx? j idx = some i)) upd (fun j _ => hu j)
  exact ⟨a + b, by rw [EReal.coe_add, ← ha, ← hb]; rfl⟩

section
variable (x1 : (⟨S2x640000, .i32⟩ : BufTy).Contents (Elt Ideal))

/-- The degree of a node is a real number: zero plus a finite sum of ones. -/
theorem deg_real (p : S10000.Idx) : ∃ r : ℝ, val_main_v10 (F := Ideal) x1 p = (r : EReal) := by
  refine scatterAdd_real scatter_S10000_S650000x1_S650000_n_0_0_1 (val_main_v8 (F := Ideal)) (val_main_v9 (F := Ideal) x1)
    (val_main_v7 (F := Ideal)) p ⟨0, ?_⟩ (fun j => ⟨1, ?_⟩)
  · rw [val_main_v8_apply, val_main_cst_0_apply, Ideal.ofBits_def, Ideal.ofBits_zero_f32, EReal.coe_zero]
  · rw [val_main_v7_apply, val_main_cst_apply, Ideal.ofBits_def, Ideal.ofBits_one_f32, EReal.coe_one]

/-- The normaliser of a node is a real number: `1 / √d` at a degree `d > 0`, zero elsewhere. -/
theorem v14_real (p : S10000.Idx) : ∃ r : ℝ, val_main_v14 (F := Ideal) x1 p = (r : EReal) := by
  obtain ⟨d, hd⟩ := deg_real x1 p
  rw [val_main_v14_apply, val_main_v12_apply, val_main_v13_apply, hd, val_main_v11_apply, val_main_cst_1_apply,
    val_main_call0_v1_apply, val_main_call0_v0_apply, val_main_cst_2_apply, Ideal.ofBits_def, Ideal.ofBits_zero_f32,
    Ideal.cmpf_def, Ideal.hostUnary_rsqrt_def]
  unfold Scalar.select
  split
  · next hc =>
    have hpos : (0 : EReal) < (d : EReal) := by
      have h1 : Ideal.cmp .ogt (d : EReal) 0 = 1#1 := hc
      simp only [Ideal.cmp, StableHlo.Predicate.ofBool_eq_one_iff, decide_eq_true_eq] at h1
      exact h1
    have hd0 : 0 < d := by exact_mod_cast hpos
    rw [Ideal.rsqrt_coe, if_neg (not_lt.2 hd0.le), if_neg hd0.ne']
    exact ⟨_, rfl⟩
  · exact ⟨0, EReal.coe_zero.symm⟩

/-- A clamped gather of the normaliser vector reads some entry of it: a real number. -/
theorem gather_real (idx : IVec S650000x1 32) (e : Fin 650000) :
    ∃ r : ℝ, Host.gather gather_S10000_S650000x1_S650000_n_0_n_n_0_1_1 (val_main_v14 (F := Ideal) x1) idx (ValueIdx.ix1 e)
      = (r : EReal) := by
  rw [Idealize.ShloMosaic.HostIdx.gather_take_ix (N := 10000) gather_S10000_S650000x1_S650000_n_0_n_n_0_1_1 rfl rfl rfl rfl
    (by norm_num) (val_main_v14 (F := Ideal) x1) idx e]
  exact v14_real x1 _

/-- The edge weight — the product of the normalisers gathered at the edge's two ends — is a real number. -/
theorem nrm_real (e : Fin 650000) : ∃ r : ℝ, val_main_v29 (F := Ideal) x1 (ValueIdx.ix1 e) = (r : EReal) := by
  obtain ⟨a, ha⟩ := gather_real x1 (val_main_v20 (F := Ideal) x1) e
  obtain ⟨b, hb⟩ := gather_real x1 (val_main_v27 (F := Ideal) x1) e
  have ha' : val_main_v21 (F := Ideal) x1 (ValueIdx.ix1 e) = (a : EReal) := ha
  have hb' : val_main_v28 (F := Ideal) x1 (ValueIdx.ix1 e) = (b : EReal) := hb
  exact ⟨a * b, by rw [val_main_v29_apply, Ideal.mulf_def, ha', hb', EReal.coe_mul]⟩

end

end Cert.ReferenceIdeal.Hand

end
-- ==== Proof.PreFacts.lean ====
/-
  The precondition read back.  The printed predicate is a conjunction of six `jnp.all` tests: for each of the five
  float inputs "|x| < +∞ at every entry", and for the edge array "0 ≤ x ∧ x < 10000 (signed) at every entry".  At the
  instance `Ideal` a float is an extended real, `|x| = max x (-x)`, the pattern 0x7F800000 denotes `⊤`, and the
  comparison is the order's; so `|x| < ⊤` leaves exactly the real numbers.  A signed comparison of 32-bit words is
  the comparison of their signed values.
-/
import proofs.«412831_j32925219291401_1_alg».proof.Pre_finite_inputs
import proofs.«412831_j32925219291401_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

/-- The rank-0 shape has one index. -/
instance : Subsingleton S_.Idx := ⟨fun a b => funext fun d => d.elim0⟩

/-- An extended real whose absolute value `max x (-x)` lies strictly below what the pattern of `+∞` denotes is a
    real number: `⊤` fails `⊤ < ⊤`, and `⊥` has `max ⊥ (-⊥) = ⊤`. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that passes the signed tests `0 ≤ a` and `a < 10000` has its signed value in `[0, 10000)`. -/
theorem range_of_cmp (a : BitVec 32) (h1 : IntOp.cmpi .sge a 0#32 = 1#1) (h2 : IntOp.cmpi .slt a 10000#32 = 1#1) :
    0 ≤ a.toInt ∧ a.toInt < 10000 := by
  simp only [IntOp.cmpi, StableHlo.Predicate.ofBool_eq_one_iff, BitVec.sle, BitVec.slt, decide_eq_true_eq] at h1 h2
  have e0 : (0#32 : BitVec 32).toInt = 0 := by decide
  have e1 : (10000#32 : BitVec 32).toInt = 10000 := by decide
  rw [e0] at h1
  rw [e1] at h2
  exact ⟨h1, h2⟩

/-- The conjunction of two `i1` vectors is 1 at an index exactly when both are. -/
theorem andi_apply_eq_one {s : Shape} (a b : IVec s 1) (i : s.Idx) : andi a b i = 1#1 ↔ a i = 1#1 ∧ b i = 1#1 :=
  IntOp.andi_eq_one

variable [Cert.Pre_finite_inputs.Facts]

/-- The whole predicate decoded: every float entry a real, every edge entry in `[0, 10000)`. -/
theorem decoded (x0 : FVec Ideal S10000x128 .f32) (x1 : IVec S2x640000 32) (x2 : FVec Ideal S128x256 .f32)
    (x3 : FVec Ideal S256 .f32) (x4 : FVec Ideal S256x128 .f32) (x5 : FVec Ideal S128 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal))
      ∧ (∀ i, 0 ≤ (x1 i).toInt ∧ (x1 i).toInt < 10000) := by
  have h0 := congrFun h ValueIdx.ix0
  dsimp only [Cert.Pre_finite_inputs.fn, Cert.Pre_finite_inputs.fn_part1] at h0
  obtain ⟨h0, g1⟩ := (andi_apply_eq_one _ _ _).1 h0
  obtain ⟨h0, g5⟩ := (andi_apply_eq_one _ _ _).1 h0
  obtain ⟨h0, g4⟩ := (andi_apply_eq_one _ _ _).1 h0
  obtain ⟨h0, g3⟩ := (andi_apply_eq_one _ _ _).1 h0
  obtain ⟨g0, g2⟩ := (andi_apply_eq_one _ _ _).1 h0
  refine ⟨fun i => ?_, fun i => ?_, fun i => ?_, fun i => ?_, fun i => ?_, fun i => ?_⟩
  · exact real_of_abs_lt (x0 i) (Host.reduce_andi_all _ _ _ _ _ g0 i)
  · exact real_of_abs_lt (x2 i) (Host.reduce_andi_all _ _ _ _ _ g2 i)
  · exact real_of_abs_lt (x3 i) (Host.reduce_andi_all _ _ _ _ _ g3 i)
  · exact real_of_abs_lt (x4 i) (Host.reduce_andi_all _ _ _ _ _ g4 i)
  · exact real_of_abs_lt (x5 i) (Host.reduce_andi_all _ _ _ _ _ g5 i)
  · obtain ⟨a, b⟩ := (andi_apply_eq_one _ _ _).1 (Host.reduce_andi_all _ _ _ _ _ g1 i)
    exact range_of_cmp (x1 i) a b

section
variable (x0 : FVec Ideal S10000x128 .f32) (x1 : IVec S2x640000 32) (x2 : FVec Ideal S128x256 .f32)
  (x3 : FVec Ideal S256 .f32) (x4 : FVec Ideal S256x128 .f32) (x5 : FVec Ideal S128 .f32)
  (h : Cert.Pre_finite_inputs.fn (F := Ideal) x0 x1 x2 x3 x4 x5 = (fun _ => 1#1))
include h

theorem fin0 : ∀ i, ∃ r : ℝ, x0 i = (r : EReal) := (decoded x0 x1 x2 x3 x4 x5 h).1
theorem fin2 : ∀ i, ∃ r : ℝ, x2 i = (r : EReal) := (decoded x0 x1 x2 x3 x4 x5 h).2.1
theorem fin3 : ∀ i, ∃ r : ℝ, x3 i = (r : EReal) := (decoded x0 x1 x2 x3 x4 x5 h).2.2.1
theorem fin4 : ∀ i, ∃ r : ℝ, x4 i = (r : EReal) := (decoded x0 x1 x2 x3 x4 x5 h).2.2.2.1
theorem fin5 : ∀ i, ∃ r : ℝ, x5 i = (r : EReal) := (decoded x0 x1 x2 x3 x4 x5 h).2.2.2.2.1
theorem range1 : ∀ i, 0 ≤ (x1 i).toInt ∧ (x1 i).toInt < 10000 := (decoded x0 x1 x2 x3 x4 x5 h).2.2.2.2.2

end

end Cert.PreFacts

end
-- ==== Proof.GcnSum.lean ====
/-
  One graph-convolution layer, computed edge by edge, equals the same layer computed through the dense weighted
  adjacency matrix on the padded index range, whenever weights, features, transform and bias are finite.

  The argument has three parts.
  * Over the reals: summing over all sources \`s\` the total weight of the selected edges with source \`s\` times a
    value \`h s\` gives the sum over the selected edges \`e\` of \`h (src e)\` times the weight of \`e\`; every edge is counted
    once, in the fibre of its own source.
  * The embedding of the reals into the extended reals commutes with products, finite sums and maxima, so both layers
    are the embedding of a real expression.
  * In the dense layer the sum runs over 10240 columns; a column \`s ≥ 10000\` is the source of no edge, so its matrix
    entry is \`0 + (empty sum) = 0\`, and zero times any extended real, infinite ones included, is zero. The features on
    those padded rows therefore play no part.
-/
import proofs.«412831_j32925219291401_1_alg».proof.Proof.Spec
import Mathlib.Data.EReal.Basic
import Mathlib.Data.EReal.Operations
import Mathlib.Algebra.BigOperators.Fin
import Mathlib.Algebra.BigOperators.Group.Finset.Basic
import Mathlib.Algebra.BigOperators.Group.Finset.Piecewise
import Mathlib.Algebra.BigOperators.Group.Finset.Sigma
import Mathlib.Algebra.BigOperators.Ring.Finset

noncomputable section

namespace Cert.Gcn

open Finset

/-- Regrouping by source. Among the terms \`e\` selected by \`P\`, collect for every \`s\` the total weight of those with
    \`src e = s\` and multiply it by \`h s\`; summed over \`s\` this is the sum over the selected \`e\` of \`h (src e) * r e\`. -/
theorem sum_fiber_mul {ι κ : Type*} [Fintype ι] [Fintype κ] [DecidableEq κ] (P : ι → Prop) [DecidablePred P]
    (src : ι → κ) (r : ι → ℝ) (h : κ → ℝ) :
    ∑ s : κ, (∑ e ∈ univ.filter (fun e => P e ∧ src e = s), r e) * h s
      = ∑ e ∈ univ.filter P, h (src e) * r e := by
  calc ∑ s : κ, (∑ e ∈ univ.filter (fun e => P e ∧ src e = s), r e) * h s
      = ∑ s : κ, ∑ e ∈ univ.filter P, if src e = s then h (src e) * r e else 0 := by
        refine Finset.sum_congr rfl fun s _ => ?_
        rw [Finset.sum_mul, ← Finset.filter_filter, Finset.sum_filter]
        refine Finset.sum_congr rfl fun e _ => ?_
        by_cases hs : src e = s
        · rw [if_pos hs, if_pos hs, hs, mul_comm]
        · rw [if_neg hs, if_neg hs]
    _ = ∑ e ∈ univ.filter P, ∑ s : κ, if src e = s then h (src e) * r e else 0 := Finset.sum_comm
    _ = ∑ e ∈ univ.filter P, h (src e) * r e := by
        refine Finset.sum_congr rfl fun e _ => ?_
        rw [Finset.sum_ite_eq, if_pos (Finset.mem_univ _)]

/-- The embedding of the reals commutes with finite sums. -/
theorem coe_finsum {ι : Type*} (s : Finset ι) (g : ι → ℝ) :
    ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- The embedding of the reals commutes with the maximum of two numbers. -/
theorem coe_max_real (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A sum over \`Fin m\` whose terms vanish from index \`n\` on is the sum of its first \`n\` terms. -/
theorem sum_fin_of_le {M : Type*} [AddCommMonoid M] {n m : ℕ} (h : n ≤ m) (g : Fin m → M)
    (hz : ∀ i : Fin m, n ≤ i.val → g i = 0) : ∑ i : Fin m, g i = ∑ i : Fin n, g (Fin.castLE h i) := by
  obtain ⟨k, rfl⟩ := Nat.exists_eq_add_of_le h
  have h2 : ∑ i : Fin k, g (Fin.natAdd n i) = 0 :=
    Finset.sum_eq_zero fun i _ => hz _ (by rw [Fin.coe_natAdd]; exact Nat.le_add_right n i.val)
  rw [Fin.sum_univ_add, h2, add_zero]
  rfl

variable {Fi Fo : ℕ}

/-- A column of the dense matrix beyond the node range is zero: no edge has its source there. -/
theorem adj_pad (src dst : Fin E → Fin 10000) (nrm : Fin E → EReal) (d s : Fin 10240) (hs : 10000 ≤ s.val) :
    adj src dst nrm d s = 0 := by
  have hempty : univ.filter (fun e : Fin E => (dst e).val = d.val ∧ (src e).val = s.val) = ∅ :=
    Finset.filter_eq_empty_iff.mpr fun e _ he => by
      have h1 := (src e).isLt
      have h2 := he.2
      omega
  unfold adj
  rw [hempty, Finset.sum_empty, add_zero]

/-- An entry of the dense matrix inside the node range is the embedded real total weight of the edges between the
    two nodes. -/
theorem adj_node (src dst : Fin E → Fin 10000) (nrm : Fin E → EReal) (rn : Fin E → ℝ)
    (hrn : ∀ e, nrm e = (rn e : EReal)) (d s : Fin 10000) :
    adj src dst nrm ⟨d.val, by omega⟩ ⟨s.val, by omega⟩
      = ((∑ e ∈ univ.filter (fun e : Fin E => dst e = d ∧ src e = s), rn e : ℝ) : EReal) := by
  have hfil : univ.filter (fun e : Fin E => (dst e).val = d.val ∧ (src e).val = s.val)
      = univ.filter (fun e : Fin E => dst e = d ∧ src e = s) :=
    Finset.filter_congr fun e _ => by rw [Fin.val_inj, Fin.val_inj]
  unfold adj
  rw [zero_add, coe_finsum]
  dsimp only
  rw [hfil]
  exact Finset.sum_congr rfl fun e _ => hrn e

theorem layer_eq (src dst : Fin E → Fin 10000) (nrm : Fin E → EReal)
    (hn : ∀ e, ∃ r : ℝ, nrm e = (r : EReal)) (x : Fin 10000 → Fin Fi → EReal)
    (hx : ∀ i k, ∃ r : ℝ, x i k = (r : EReal)) (W : Fin Fi → Fin Fo → EReal)
    (hW : ∀ k f, ∃ r : ℝ, W k f = (r : EReal)) (b : Fin Fo → EReal) (hb : ∀ f, ∃ r : ℝ, b f = (r : EReal))
    (X : Fin 10240 → Fin Fi → EReal) (hX : ∀ (i : Fin 10000) (k : Fin Fi), X ⟨i.val, by omega⟩ k = x i k)
    (d : Fin 10000) (f : Fin Fo) :
    kerLayer (adj src dst nrm) X W b ⟨d.val, by omega⟩ f = refLayer src dst nrm x W b d f ∧
      ∃ r : ℝ, refLayer src dst nrm x W b d f = (r : EReal) := by
  choose rn hrn using hn
  choose rx hrx using hx
  choose rW hrW using hW
  choose rb hrb using hb
  -- the transformed features of a node, as a real number
  have hfeat : ∀ s : Fin 10000,
      (∑ k : Fin Fi, x s k * W k f) = ((∑ k : Fin Fi, rx s k * rW k f : ℝ) : EReal) := by
    intro s
    rw [coe_finsum]
    refine Finset.sum_congr rfl fun k _ => ?_
    rw [hrx, hrW, EReal.coe_mul]
  -- the edge-by-edge layer is the embedding of a real number
  have href : refLayer src dst nrm x W b d f
      = ((max ((∑ e ∈ univ.filter (fun e : Fin E => dst e = d),
            (∑ k : Fin Fi, rx (src e) k * rW k f) * rn e) + rb f) 0 : ℝ) : EReal) := by
    have hsum : ∑ e ∈ univ.filter (fun e : Fin E => dst e = d), (∑ k : Fin Fi, x (src e) k * W k f) * nrm e
        = ∑ e ∈ univ.filter (fun e : Fin E => dst e = d),
            (((∑ k : Fin Fi, rx (src e) k * rW k f) * rn e : ℝ) : EReal) :=
      Finset.sum_congr rfl fun e _ => by rw [hfeat, hrn, EReal.coe_mul]
    unfold refLayer
    rw [hsum, coe_max_real, EReal.coe_add, coe_finsum, EReal.coe_zero, zero_add, hrb]
  -- the dense layer is the embedding of a real number as well
  have hker : kerLayer (adj src dst nrm) X W b ⟨d.val, by omega⟩ f
      = ((max ((∑ s : Fin 10000, (∑ e ∈ univ.filter (fun e : Fin E => dst e = d ∧ src e = s), rn e)
            * (∑ k : Fin Fi, rx s k * rW k f)) + rb f) 0 : ℝ) : EReal) := by
    have hle : (10000 : ℕ) ≤ 10240 := by norm_num
    have hterm : ∀ s : Fin 10000,
        adj src dst nrm ⟨d.val, by omega⟩ (Fin.castLE hle s) * (∑ k : Fin Fi, X (Fin.castLE hle s) k * W k f)
          = (((∑ e ∈ univ.filter (fun e : Fin E => dst e = d ∧ src e = s), rn e)
              * (∑ k : Fin Fi, rx s k * rW k f) : ℝ) : EReal) := by
      intro s
      have hc : Fin.castLE hle s = ⟨s.val, by omega⟩ := rfl
      have hXs : (∑ k : Fin Fi, X ⟨s.val, by omega⟩ k * W k f) = ∑ k : Fin Fi, x s k * W k f :=
        Finset.sum_congr rfl fun k _ => by rw [hX s k]
      rw [hc, hXs, hfeat, EReal.coe_mul, adj_node src dst nrm rn hrn d s]
    have hsplit : (∑ s : Fin 10240, adj src dst nrm ⟨d.val, by omega⟩ s * (∑ k : Fin Fi, X s k * W k f))
        = ∑ s : Fin 10000, (((∑ e ∈ univ.filter (fun e : Fin E => dst e = d ∧ src e = s), rn e)
              * (∑ k : Fin Fi, rx s k * rW k f) : ℝ) : EReal) :=
      (sum_fin_of_le hle (fun s => adj src dst nrm ⟨d.val, by omega⟩ s * (∑ k : Fin Fi, X s k * W k f))
        (fun s hs => by rw [adj_pad src dst nrm _ s hs, zero_mul])).trans
        (Finset.sum_congr rfl fun s _ => hterm s)
    unfold kerLayer
    rw [hsplit, coe_max_real, EReal.coe_add, coe_finsum, EReal.coe_zero, hrb]
  refine ⟨?_, _, href⟩
  rw [hker, href, sum_fiber_mul (fun e : Fin E => dst e = d) src rn (fun s => ∑ k : Fin Fi, rx s k * rW k f)]

/-- Padding with zero rows leaves the rows of the node range unchanged. -/
theorem padRows_agree (x : Fin 10000 → Fin Fi → EReal) (i : Fin 10000) (k : Fin Fi) :
    padRows x ⟨i.val, by omega⟩ k = x i k := by
  unfold padRows
  rw [dif_pos i.isLt]

end Cert.Gcn

end
-- ==== Proof.Bridge.lean ====
/-
  The two programs compute the same result.

  Under the precondition every float argument is real and every edge end is a node index below 10000. Then the
  reference's result is the layer applied twice edge by edge, the kernel's is the layer applied twice through the dense
  adjacency matrix on the padded range, over the SAME decoded sources, destinations and edge weights, and the two
  layers agree on the first 10000 rows: once for the first layer over the zero-padded features, once for the second
  over the first layer's output, which by the first step agrees with the reference's on those rows and is real there.
-/
import proofs.«412831_j32925219291401_1_alg».proof.Proof.KVal
import proofs.«412831_j32925219291401_1_alg».proof.Proof.HostK
import proofs.«412831_j32925219291401_1_alg».proof.Proof.RefVal
import proofs.«412831_j32925219291401_1_alg».proof.Proof.ChainFacts
import proofs.«412831_j32925219291401_1_alg».proof.Proof.PreFacts
import proofs.«412831_j32925219291401_1_alg».proof.Proof.GcnSum
import proofs.«412831_j32925219291401_1_alg».proof.Proof.Gen.Pre_finite_inputs

set_option maxRecDepth 16384

noncomputable section

namespace Cert.Bridge

open Idealize.ShloMosaic Idealize.ShloMosaic.TcCoe Idealize.ShloMosaic.ValueIdx Idealize.SL.Sem
open Cert.Gcn

/-- The reference's result, computed from arguments equal to the kernel's, is the kernel's result. -/
theorem result_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v65 m' c
      = Cert.KernelIdeal.Gen.V11 m (Cert.KernelIdeal.Hand.outs m) c Cert.KernelIdeal.main_v53 := by
  -- the precondition decoded
  have hR := Cert.PreFacts.range1 _ _ _ _ _ _ hpre
  have hf0 := Cert.PreFacts.fin0 _ _ _ _ _ _ hpre
  have hf2 := Cert.PreFacts.fin2 _ _ _ _ _ _ hpre
  have hf3 := Cert.PreFacts.fin3 _ _ _ _ _ _ hpre
  have hf4 := Cert.PreFacts.fin4 _ _ _ _ _ _ hpre
  have hf5 := Cert.PreFacts.fin5 _ _ _ _ _ _ hpre
  -- the edges' ends as node indices, the weights real
  obtain ⟨src, hS⟩ := Cert.ReferenceIdeal.Hand.src_dec _ hR
  obtain ⟨dst, hD⟩ := Cert.ReferenceIdeal.Hand.dst_dec _ hR
  have hn := Cert.ReferenceIdeal.Hand.nrm_real (m ((c.tc : Thread Cert.KernelIdeal.nD Cert.KernelIdeal.τ).loc Cert.KernelIdeal.main_arg1))
  -- the kernel's host lines compute the same three vectors
  have eS := Cert.KernelIdeal.Hand.hostK_src m c
  have eD := Cert.KernelIdeal.Hand.hostK_dst m c
  have eN := Cert.KernelIdeal.Hand.hostK_norm m c
  have hS' : ∀ e : Fin 650000, ((Cert.KernelIdeal.Gen.V3 m c Cert.KernelIdeal.main_v3 : Cert.KernelIdeal.S650000.Idx → BitVec 32) (ix1 e)).toInt = ((src e).val : ℤ) := fun e => by
    rw [eS]; exact hS e
  have hD' : ∀ e : Fin 650000, ((Cert.KernelIdeal.Gen.V3 m c Cert.KernelIdeal.main_v6 : Cert.KernelIdeal.S650000.Idx → BitVec 32) (ix1 e)).toInt = ((dst e).val : ℤ) := fun e => by
    rw [eD]; exact hD e
  -- the dense matrix is the weighted adjacency matrix of those edges
  have hA : Cert.KernelIdeal.Hand.AK m c
      = adj src dst (fun e => Cert.ReferenceIdeal.ReadP.val_main_v29 (F := Ideal) (m ((c.tc : Thread Cert.KernelIdeal.nD Cert.KernelIdeal.τ).loc Cert.KernelIdeal.main_arg1)) (ix1 e)) := by
    funext d s
    refine (Cert.KernelIdeal.Hand.hostK_adj m c src dst hS' hD' d s).trans ?_
    rw [eN]
  -- index by index
  funext idx
  obtain ⟨d, f, rfl⟩ : ∃ (d : Fin 10000) (f : Fin 128), idx = ix2 d f := ⟨idx 0, idx 1, eq_ix2 idx⟩
  change @Eq EReal _ _
  rw [show Cert.ReferenceIdeal.ValueP.res_main_v65 m' c = _ from Cert.ReferenceIdeal.Hand.ref_run_value m' c, h0, h1, h2, h3, h4, h5,
    Cert.ReferenceIdeal.Hand.ref_value _ _ _ _ _ _ src dst hS hD d f,
    Cert.KernelIdeal.Hand.kernel_value m c d f, hA]
  -- the first layer on the first 10000 rows, then the second over it
  have L1 := fun (i : Fin 10000) (k : Fin 256) =>
    layer_eq src dst _ hn (fun i k => m ((c.tc : Thread Cert.KernelIdeal.nD Cert.KernelIdeal.τ).loc Cert.KernelIdeal.main_arg0) (ix2 i k)) (fun i k => hf0 (ix2 i k))
      (fun k j => m ((c.tc : Thread Cert.KernelIdeal.nD Cert.KernelIdeal.τ).loc Cert.KernelIdeal.main_arg2) (ix2 k j)) (fun k j => hf2 (ix2 k j))
      (fun j => m ((c.tc : Thread Cert.KernelIdeal.nD Cert.KernelIdeal.τ).loc Cert.KernelIdeal.main_arg3) (ix1 j)) (fun j => hf3 (ix1 j))
      (padRows _) (padRows_agree _) i k
  exact ((layer_eq src dst _ hn _ (fun i k => (L1 i k).2)
      (fun k j => m ((c.tc : Thread Cert.KernelIdeal.nD Cert.KernelIdeal.τ).loc Cert.KernelIdeal.main_arg4) (ix2 k j)) (fun k j => hf4 (ix2 k j))
      (fun j => m ((c.tc : Thread Cert.KernelIdeal.nD Cert.KernelIdeal.τ).loc Cert.KernelIdeal.main_arg5) (ix1 j)) (fun j => hf5 (ix1 j))
      _ (fun i k => (L1 i k).1) d f).1).symm

end Cert.Bridge

end
-- ==== Proof.lean ====
/-
  The certificate: a two-layer graph convolution computed through a dense normalized adjacency matrix (four pipelined
  kernel regions: two feature transforms and two aggregations, the aggregations accumulating over column blocks in a
  scratch buffer) against the same two layers computed edge by edge (gather, scale, scatter-add), over the extended reals.

  Frames: each kernel program's run is composed region by region from each region's body obligation; the reference's is
  its host operations' run. The idealization rewrote nothing, so there is nothing to preserve. The two results are equal
  entry by entry: under the precondition (finite floats, edge ends below 10000) both are the layer applied twice over the
  same decoded edges and real weights, and a layer through the dense matrix agrees with the layer edge by edge on the
  first 10000 rows (the padded columns of the matrix are zero; a real factor distributes over a finite sum).
-/
import proofs.«412831_j32925219291401_1_alg».proof.Defs
import proofs.«412831_j32925219291401_1_alg».proof.Proof.Gen.Kernel
import proofs.«412831_j32925219291401_1_alg».proof.Proof.Gen.KernelIdeal
import proofs.«412831_j32925219291401_1_alg».proof.Proof.Gen.ReferenceIdeal
import proofs.«412831_j32925219291401_1_alg».proof.Proof.Gen.Pre_finite_inputs
import proofs.«412831_j32925219291401_1_alg».proof.Proof.KB.Run
import proofs.«412831_j32925219291401_1_alg».proof.Proof.KB.Lin0
import proofs.«412831_j32925219291401_1_alg».proof.Proof.KB.Agg1
import proofs.«412831_j32925219291401_1_alg».proof.Proof.KB.Lin2
import proofs.«412831_j32925219291401_1_alg».proof.Proof.KB.Agg3
import proofs.«412831_j32925219291401_1_alg».proof.Proof.KI.Run
import proofs.«412831_j32925219291401_1_alg».proof.Proof.KI.Lin0
import proofs.«412831_j32925219291401_1_alg».proof.Proof.KI.Agg1
import proofs.«412831_j32925219291401_1_alg».proof.Proof.KI.Lin2
import proofs.«412831_j32925219291401_1_alg».proof.Proof.KI.Agg3
import proofs.«412831_j32925219291401_1_alg».proof.Proof.RefRun
import proofs.«412831_j32925219291401_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the run, the result dropped. -/
theorem frame_p : Cert.frame_Kernel := fun m ρ _ =>
  (θ_run (Cert.Kernel.defs (F := Bits)) _ _).mono (fun _ h c => (h c).2)
    (Cert.Kernel.Hand.run_value (F := Bits) m ρ
      (fun c => Cert.Kernel.Hand.body_obligation0 _ c) (fun c => Cert.Kernel.Hand.body_obligation1 _ c)
      (fun c => Cert.Kernel.Hand.hout1 _ c) (fun c => Cert.Kernel.Hand.body_obligation2 _ c)
      (fun c => Cert.Kernel.Hand.body_obligation3 _ c) (fun c => Cert.Kernel.Hand.hout3 _ c))

/-- The idealized kernel program runs and leaves its arguments as launched: the run, the result dropped. -/
theorem frame_pi : Cert.frame_KernelIdeal := fun m ρ _ =>
  (θ_run (Cert.KernelIdeal.defs (F := Ideal)) _ _).mono (fun _ h c => (h c).2)
    (Cert.KernelIdeal.Hand.run_value (F := Ideal) m ρ
    (fun c => Cert.KernelIdeal.Hand.body_obligation0 _ c) (fun c => Cert.KernelIdeal.Hand.body_obligation1 _ c)
    (fun c => Cert.KernelIdeal.Hand.hout1 _ c) (fun c => Cert.KernelIdeal.Hand.body_obligation2 _ c)
    (fun c => Cert.KernelIdeal.Hand.body_obligation3 _ c) (fun c => Cert.KernelIdeal.Hand.hout3 _ c))

/-- The reference runs and leaves its arguments as launched: its host operations' run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs run; their results are equal entry by entry. -/
theorem algebraic : Cert.algebraic_KernelIdeal_ReferenceIdeal := by
  intro m ρ m' ρ' hpre hagree
  refine ⟨fun c => Cert.KernelIdeal.Gen.V11 m (Cert.KernelIdeal.Hand.outs m) c Cert.KernelIdeal.main_v53,
    (Cert.KernelIdeal.Hand.run_value (F := Ideal) m ρ
    (fun c => Cert.KernelIdeal.Hand.body_obligation0 _ c) (fun c => Cert.KernelIdeal.Hand.body_obligation1 _ c)
    (fun c => Cert.KernelIdeal.Hand.hout1 _ c) (fun c => Cert.KernelIdeal.Hand.body_obligation2 _ c)
    (fun c => Cert.KernelIdeal.Hand.body_obligation3 _ c) (fun c => Cert.KernelIdeal.Hand.hout3 _ c)), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact Cert.Bridge.result_eq m m' c (hpre c) h0 h1 h2 h3 h4 h5

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
